-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000x512 : Shape := ⟨2, ![1000, 512]⟩
abbrev S4096x512 : Shape := ⟨2, ![4096, 512]⟩
abbrev S4096 : Shape := ⟨1, ![4096]⟩
abbrev S_ : Shape := ⟨0, ![]⟩

class Facts : Prop where
  bcast_S_S1000x512 : S_.BroadcastsInDim S1000x512 (![] : Fin 0 → Fin S1000x512.rank)
  reducesTo_S1000x512_S_d0_1 : S1000x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg2 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  main_v20

def fn {F : FTy → Type} [FloatOps F] (main_arg0 : FVec F S1000x512 .f32) (main_arg1 : FVec F S4096x512 .f32) (main_arg2 : IVec S4096 32) (main_arg3 : FVec F S4096x512 .f32) (main_arg4 : IVec S4096 32) : IVec S_ 1 :=
  let main_v0 : FVec F S1000x512 .f32 := Host.absf main_arg0
  let main_cst : FVec F S_ .f32 := constant S_ .f32 0x7F800000#32
  let main_v1 : FVec F S1000x512 .f32 := broadcastInDim S1000x512 ![] bcast_S_S1000x512 main_cst
  let main_v2 : IVec S1000x512 1 := cmpf .olt main_v0 main_v1
  let main_c : IVec S_ 1 := constantI S_ 1 1#1
  let main_v3 : IVec S_ 1 := (fun x v => Host.reduce IntOp.andi x v reducesTo_S1000x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg2 main_v14
  let main_c_5 : IVec S_ 32 := constantI S_ 32 1000#32
  fn_part1 (F := F) main_arg2 main_v13 main_v15 main_c_5
-- ==== Kernel.lean ====
abbrev S1000x512 : Shape := ⟨2, ![1000, 512]⟩
abbrev S4096x512 : Shape := ⟨2, ![4096, 512]⟩
abbrev S4096 : Shape := ⟨1, ![4096]⟩
abbrev S1000 : Shape := ⟨1, ![1000]⟩
abbrev S_ : Shape := ⟨0, ![]⟩
abbrev S9192 : Shape := ⟨1, ![9192]⟩
abbrev S9192x1 : Shape := ⟨2, ![9192, 1]⟩
abbrev S9192x512 : Shape := ⟨2, ![9192, 512]⟩
abbrev S4096x1 : Shape := ⟨2, ![4096, 1]⟩
abbrev S1x9192 : Shape := ⟨2, ![1, 9192]⟩
abbrev S9216x512 : Shape := ⟨2, ![9216, 512]⟩
abbrev S1x9216 : Shape := ⟨2, ![1, 9216]⟩
abbrev S512x512 : Shape := ⟨2, ![512, 512]⟩
abbrev S2304x512 : Shape := ⟨2, ![2304, 512]⟩
abbrev S512x1 : Shape := ⟨2, ![512, 1]⟩
abbrev S1x2304 : Shape := ⟨2, ![1, 2304]⟩
abbrev S512x2304 : Shape := ⟨2, ![512, 2304]⟩
abbrev S512 : Shape := ⟨1, ![512]⟩

abbrev nBuf : Space → Nat
  | .hbm => 73
  | .vmem => 17
  | .smem => 0
  | _ => 0

abbrev bufTy : (tb : Table) → Fin (tcTables nBuf tb) → BufTy
  | .hbm, ⟨0, _⟩ => ⟨S1000x512, .f32⟩
  | .hbm, ⟨1, _⟩ => ⟨S4096x512, .f32⟩
  | .hbm, ⟨2, _⟩ => ⟨S4096, .i32⟩
  | .hbm, ⟨3, _⟩ => ⟨S4096x512, .f32⟩
  | .hbm, ⟨4, _⟩ => ⟨S4096, .i32⟩
  | .hbm, ⟨5, _⟩ => ⟨S1000, .i32⟩
  | .hbm, ⟨6, _⟩ => ⟨S_, .i32⟩
  | .hbm, ⟨7, _⟩ => ⟨S4096, .i32⟩
  | .hbm, ⟨8, _⟩ => ⟨S9192, .i32⟩
  | .hbm, ⟨9, _⟩ => ⟨S9192, .i32⟩
  | .hbm, ⟨10, _⟩ => ⟨S_, .f32⟩
  | .hbm, ⟨11, _⟩ => ⟨S1000, .f32⟩
  | .hbm, ⟨12, _⟩ => ⟨S_, .i32⟩
  | .hbm, ⟨13, _⟩ => ⟨S9192, .i32⟩
  | .hbm, ⟨14, _⟩ => ⟨S9192, .i1⟩
  | .hbm, ⟨15, _⟩ => ⟨S_, .i32⟩
  | .hbm, ⟨16, _⟩ => ⟨S9192, .i32⟩
  | .hbm, ⟨17, _⟩ => ⟨S9192, .i32⟩
  | .hbm, ⟨18, _⟩ => ⟨S9192, .i32⟩
  | .hbm, ⟨19, _⟩ => ⟨S9192x1, .i32⟩
  | .hbm, ⟨20, _⟩ => ⟨S_, .f32⟩
  | .hbm, ⟨21, _⟩ => ⟨S9192, .f32⟩
  | .hbm, ⟨22, _⟩ => ⟨S1000, .f32⟩
  | .hbm, ⟨23, _⟩ => ⟨S_, .i32⟩
  | .hbm, ⟨24, _⟩ => ⟨S9192, .i32⟩
  | .hbm, ⟨25, _⟩ => ⟨S9192, .i1⟩
  | .hbm, ⟨26, _⟩ => ⟨S_, .i32⟩
  | .hbm, ⟨27, _⟩ => ⟨S9192, .i32⟩
  | .hbm, ⟨28, _⟩ => ⟨S9192, .i32⟩
  | .hbm, ⟨29, _⟩ => ⟨S9192, .i32⟩
  | .hbm, ⟨30, _⟩ => ⟨S9192x1, .i32⟩
  | .hbm, ⟨31, _⟩ => ⟨S9192, .f32⟩
  | .hbm, ⟨32, _⟩ => ⟨S_, .f32⟩
  | .hbm, ⟨33, _⟩ => ⟨S9192, .f32⟩
  | .hbm, ⟨34, _⟩ => ⟨S9192, .f32⟩
  | .hbm, ⟨35, _⟩ => ⟨S_, .f32⟩
  | .hbm, ⟨36, _⟩ => ⟨S9192, .f32⟩
  | .hbm, ⟨37, _⟩ => ⟨S9192, .i1⟩
  | .hbm, ⟨38, _⟩ => ⟨S_, .f32⟩
  | .hbm, ⟨39, _⟩ => ⟨S9192, .f32⟩
  | .hbm, ⟨40, _⟩ => ⟨S9192, .f32⟩
  | .hbm, ⟨41, _⟩ => ⟨S_, .f32⟩
  | .hbm, ⟨42, _⟩ => ⟨S9192, .f32⟩
  | .hbm, ⟨43, _⟩ => ⟨S9192, .f32⟩
  | .hbm, ⟨44, _⟩ => ⟨S_, .f32⟩
  | .hbm, ⟨45, _⟩ => ⟨S_, .f32⟩
  | .hbm, ⟨46, _⟩ => ⟨S9192, .f32⟩
  | .hbm, ⟨47, _⟩ => ⟨S9192, .f32⟩
  | .hbm, ⟨48, _⟩ => ⟨S9192x512, .f32⟩
  | .hbm, ⟨49, _⟩ => ⟨S4096x512, .bf16⟩
  | .hbm, ⟨50, _⟩ => ⟨S9192x512, .bf16⟩
  | .hbm, ⟨51, _⟩ => ⟨S4096x1, .i32⟩
  | .hbm, ⟨52, _⟩ => ⟨S1x9192, .i32⟩
  | .hbm, ⟨53, _⟩ => ⟨S1x9192, .f32⟩
  | .hbm, ⟨54, _⟩ => ⟨S1x9192, .f32⟩
  | .hbm, ⟨55, _⟩ => ⟨S_, .i32⟩
  | .hbm, ⟨56, _⟩ => ⟨S_, .bf16⟩
  | .hbm, ⟨57, _⟩ => ⟨S9216x512, .bf16⟩
  | .hbm, ⟨58, _⟩ => ⟨S_, .i32⟩
  | .hbm, ⟨59, _⟩ => ⟨S_, .i32⟩
  | .hbm, ⟨60, _⟩ => ⟨S1x9216, .i32⟩
  | .hbm, ⟨61, _⟩ => ⟨S_, .f32⟩
  | .hbm, ⟨62, _⟩ => ⟨S_, .f32⟩
  | .hbm, ⟨63, _⟩ => ⟨S1x9216, .f32⟩
  | .hbm, ⟨64, _⟩ => ⟨S_, .f32⟩
  | .hbm, ⟨65, _⟩ => ⟨S_, .f32⟩
  | .hbm, ⟨66, _⟩ => ⟨S1x9216, .f32⟩
  | .hbm, ⟨67, _⟩ => ⟨S4096x1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S2304x512, .bf16⟩
  | .local _ .vmem, ⟨3, _⟩ => ⟨S2304x512, .bf16⟩
  | .local _ .vmem, ⟨4, _⟩ => ⟨S512x1, .i32⟩
  | .local _ .vmem, ⟨5, _⟩ => ⟨S512x1, .i32⟩
  | .local _ .vmem, ⟨6, _⟩ => ⟨S1x2304, .i32⟩
  | .local _ .vmem, ⟨7, _⟩ => ⟨S1x2304, .i32⟩
  | .local _ .vmem, ⟨8, _⟩ => ⟨S1x2304, .f32⟩
  | .local _ .vmem, ⟨9, _⟩ => ⟨S1x2304, .f32⟩
  | .local _ .vmem, ⟨10, _⟩ => ⟨S1x2304, .f32⟩
  | .local _ .vmem, ⟨11, _⟩ => ⟨S1x2304, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | _, _ => ⟨S1000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_call0_v0 : Ref sig .tc := ⟨.hbm, 45, rfl⟩
abbrev main_call0_v1 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_10 : Ref sig .tc := ⟨.hbm, 55, rfl⟩
abbrev main_call1_v0 : Ref sig .tc := ⟨.hbm, 56, rfl⟩
abbrev main_v36 : Ref sig .tc := ⟨.hbm, 57, rfl⟩
abbrev main_c_11 : Ref sig .tc := ⟨.hbm, 58, rfl⟩
abbrev main_call2_v0 : Ref sig .tc := ⟨.hbm, 59, rfl⟩
abbrev main_v37 : Ref sig .tc := ⟨.hbm, 60, rfl⟩
abbrev main_cst_12 : Ref sig .tc := ⟨.hbm, 61, rfl⟩
abbrev main_call3_v0 : Ref sig .tc := ⟨.hbm, 62, rfl⟩
abbrev main_v38 : Ref sig .tc := ⟨.hbm, 63, rfl⟩
abbrev main_cst_13 : Ref sig .tc := ⟨.hbm, 64, rfl⟩
abbrev main_call4_v0 : Ref sig .tc := ⟨.hbm, 65, rfl⟩
abbrev main_v39 : Ref sig .tc := ⟨.hbm, 66, rfl⟩
abbrev main_v40 : Ref sig .tc := ⟨.hbm, 67, rfl⟩
abbrev main_cst_14 : Ref sig .tc := ⟨.hbm, 68, rfl⟩
abbrev main_v41 : Ref sig .tc := ⟨.hbm, 69, rfl⟩
abbrev main_cst_15 : Ref sig .tc := ⟨.hbm, 70, rfl⟩
abbrev main_v42 : Ref sig .tc := ⟨.hbm, 71, rfl⟩
abbrev main_v43 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v66 : BitVec 1 := Scalar.cmpi .eq arg1 c3_i32
  let v67 : BitVec 32 := Scalar.extui v66
  let c0_i32_29 : BitVec 32 := 0#32
  let v68 : BitVec 1 := Scalar.cmpi .ne v67 c0_i32_29
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2304 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S4096 : S_.BroadcastsInDim S4096 (![] : Fin 0 → Fin S4096.rank)
  concatenates_S4096_S1000_S4096_S9192_d0 : Shape.Concatenates [S4096, S1000, S4096] S9192 0
  bcast_S_S1000 : S_.BroadcastsInDim S1000 (![] : Fin 0 → Fin S1000.rank)
  bcast_S_S9192 : S_.BroadcastsInDim S9192 (![] : Fin 0 → Fin S9192.rank)
  bcast_S9192_S9192x1_0 : S9192.BroadcastsInDim S9192x1 (![0] : Fin 1 → Fin S9192x1.rank)
  concatenates_S4096x512_S1000x512_S4096x512_S9192x512_d0 : Shape.Concatenates [S4096x512, S1000x512, S4096x512] S9192x512 0
  bitsLt_bf16_f32 : FTy.bits .bf16 < FTy.bits .f32
  shapeCasts_S4096_S4096x1 : S4096.ShapeCasts S4096x1
  shapeCasts_S9192_S1x9192 : S9192.ShapeCasts S1x9192
  pads_S9192x512_S9216x512_0240_000 : S9192x512.Pads (![0, 0] : Fin 2 → Nat) ![24, 0] ![0, 0] S9216x512
  h_S_ : 0 < S_.numel
  pads_S1x9192_S1x9216_000_0240 : S1x9192.Pads (![0, 0] : Fin 2 → Nat) ![0, 24] ![0, 0] S1x9216
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2304x512_S2304x512_0_0 : ∀ a, (![0, 0] : Fin 2 → Nat) a + S2304x512.size a ≤ S2304x512.size a
  h_S2304x512 : 0 < S2304x512.numel
  shapeCasts_S2304x512_S2304x512 : S2304x512.ShapeCasts S2304x512
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  iota_S512x1_d0_w32 : S512x1.Iotas .tc 32 [0]
  iota_S1x2304_d1_w32 : S1x2304.Iotas .tc 32 [1]
  broadcasts_S512x1_S512x2304 : S512x1.Broadcasts S512x2304
  broadcasts_S1x2304_S512x2304 : S1x2304.Broadcasts S512x2304
  reduces_S512x2304_S512 : S512x2304.Reduces [1] S512
  shapeCasts_S512_S512x1 : S512.ShapeCasts S512x1
  natLt_1_32 : 1 < 32
  reducesTo_S4096x1_S_d0_1 : S4096x1.ReducesTo [0, 1] S_
  scatter_S1000_S9192x1_S9192_n_0_0_1_wf : ScatterDims.WF S1000 S9192x1 S9192 [] [0] [0] 1
  gather_S1000_S9192x1_S9192_n_0_n_n_0_1_1_wf : GatherDims.WF S1000 S9192x1 S9192 [] [0] [] [0] [] 1 ![1]
  dot_S512x512_S2304x512_S512x2304_1_1_0_0_n_n_wf : DotDims.WF S512x512 S2304x512 S512x2304 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2304x512.size a ≤ S9216x512.size a
  hwx0_1 : ∀ i : grid0.Coords, EltTy.bits .bf16 = 32 ∨ (Rect.block (s := S9216x512) S2304x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2304.size a ≤ S1x9216.size a
  hwx0_3 : ∀ i : grid0.Coords, EltTy.bits .i32 = 32 ∨ (Rect.block (s := S1x9216) S1x2304.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2304.size a ≤ S1x9216.size a
  hwx0_4 : ∀ i : grid0.Coords, EltTy.bits .f32 = 32 ∨ (Rect.block (s := S1x9216) S1x2304.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2304.size a ≤ S1x9216.size a
  hwx0_5 : ∀ i : grid0.Coords, EltTy.bits .f32 = 32 ∨ (Rect.block (s := S1x9216) S1x2304.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)

variable [Facts₀]

def scatter_S1000_S9192x1_S9192_n_0_0_1 : ScatterDims S1000 S9192x1 S9192 where
  updateWindowDims := []
  insertedWindowDims := [0]
  scatterDimsToOperandDims := [0]
  indexVectorDim := 1
  wf := scatter_S1000_S9192x1_S9192_n_0_0_1_wf
def gather_S1000_S9192x1_S9192_n_0_n_n_0_1_1 : GatherDims S1000 S9192x1 S9192 where
  offsetDims := []
  collapsedSliceDims := [0]
  operandBatchingDims := []
  startIndicesBatchingDims := []
  startIndexMap := [0]
  indexVectorDim := 1
  sliceSizes := ![1]
  wf := gather_S1000_S9192x1_S9192_n_0_n_n_0_1_1_wf
def dot_S512x512_S2304x512_S512x2304_1_1_0_0_n_n : DotDims S512x512 S2304x512 S512x2304 where
  lhsContracting := [1]
  rhsContracting := [1]
  lhsNonContracting := [0]
  rhsNonContracting := [0]
  lhsBatch := []
  rhsBatch := []
  wf := dot_S512x512_S2304x512_S512x2304_1_1_0_0_n_n_wf

abbrev win0_0 : Pipeline.Window sig grid0 :=
  Pipeline.Window.ofSpec (Memref.whole main_v30) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S2304x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x2304.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x2304.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1x2304.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v40) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1000x512 : Shape := ⟨2, ![1000, 512]⟩
abbrev S4096x512 : Shape := ⟨2, ![4096, 512]⟩
abbrev S4096 : Shape := ⟨1, ![4096]⟩
abbrev S1000 : Shape := ⟨1, ![1000]⟩
abbrev S_ : Shape := ⟨0, ![]⟩
abbrev S9192 : Shape := ⟨1, ![9192]⟩
abbrev S9192x1 : Shape := ⟨2, ![9192, 1]⟩
abbrev S4096x1 : Shape := ⟨2, ![4096, 1]⟩
abbrev S1x9192 : Shape := ⟨2, ![1, 9192]⟩
abbrev S4096x9192 : Shape := ⟨2, ![4096, 9192]⟩
abbrev S9192x512 : Shape := ⟨2, ![9192, 512]⟩
abbrev S512x9192 : Shape := ⟨2, ![512, 9192]⟩

abbrev nBuf : Space → Nat
  | .hbm => 85
  | .vmem => 0
  | .smem => 0
  | _ => 0

abbrev bufTy : (tb : Table) → Fin (tcTables nBuf tb) → BufTy
  | .hbm, ⟨0, _⟩ => ⟨S1000x512, .f32⟩
  | .hbm, ⟨1, _⟩ => ⟨S4096x512, .f32⟩
  | .hbm, ⟨2, _⟩ => ⟨S4096, .i32⟩
  | .hbm, ⟨3, _⟩ => ⟨S4096x512, .f32⟩
  | .hbm, ⟨4, _⟩ => ⟨S4096, .i32⟩
  | .hbm, ⟨5, _⟩ => ⟨S1000, .i32⟩
  | .hbm, ⟨6, _⟩ => ⟨S_, .i32⟩
  | .hbm, ⟨7, _⟩ => ⟨S4096, .i32⟩
  | .hbm, ⟨8, _⟩ => ⟨S9192, .i32⟩
  | .hbm, ⟨9, _⟩ => ⟨S9192, .i32⟩
  | .hbm, ⟨10, _⟩ => ⟨S_, .f32⟩
  | .hbm, ⟨11, _⟩ => ⟨S1000, .f32⟩
  | .hbm, ⟨12, _⟩ => ⟨S_, .i32⟩
  | .hbm, ⟨13, _⟩ => ⟨S9192, .i32⟩
  | .hbm, ⟨14, _⟩ => ⟨S9192, .i1⟩
  | .hbm, ⟨15, _⟩ => ⟨S_, .i32⟩
  | .hbm, ⟨16, _⟩ => ⟨S9192, .i32⟩
  | .hbm, ⟨17, _⟩ => ⟨S9192, .i32⟩
  | .hbm, ⟨18, _⟩ => ⟨S9192, .i32⟩
  | .hbm, ⟨19, _⟩ => ⟨S9192x1, .i32⟩
  | .hbm, ⟨20, _⟩ => ⟨S_, .f32⟩
  | .hbm, ⟨21, _⟩ => ⟨S9192, .f32⟩
  | .hbm, ⟨22, _⟩ => ⟨S1000, .f32⟩
  | .hbm, ⟨23, _⟩ => ⟨S4096, .i32⟩
  | .hbm, ⟨24, _⟩ => ⟨S4096x1, .i32⟩
  | .hbm, ⟨25, _⟩ => ⟨S1x9192, .i32⟩
  | .hbm, ⟨26, _⟩ => ⟨S4096x9192, .i32⟩
  | .hbm, ⟨27, _⟩ => ⟨S4096x9192, .i32⟩
  | .hbm, ⟨28, _⟩ => ⟨S4096x9192, .i1⟩
  | .hbm, ⟨29, _⟩ => ⟨S4096x9192, .f32⟩
  | .hbm, ⟨30, _⟩ => ⟨S9192, .i32⟩
  | .hbm, ⟨31, _⟩ => ⟨S1x9192, .i32⟩
  | .hbm, ⟨32, _⟩ => ⟨S4096, .i32⟩
  | .hbm, ⟨33, _⟩ => ⟨S4096x1, .i32⟩
  | .hbm, ⟨34, _⟩ => ⟨S4096x9192, .i32⟩
  | .hbm, ⟨35, _⟩ => ⟨S4096x9192, .i32⟩
  | .hbm, ⟨36, _⟩ => ⟨S4096x9192, .i1⟩
  | .hbm, ⟨37, _⟩ => ⟨S4096x9192, .f32⟩
  | .hbm, ⟨38, _⟩ => ⟨S_, .f32⟩
  | .hbm, ⟨39, _⟩ => ⟨S4096x9192, .f32⟩
  | .hbm, ⟨40, _⟩ => ⟨S4096x9192, .f32⟩
  | .hbm, ⟨41, _⟩ => ⟨S4096x9192, .f32⟩
  | .hbm, ⟨42, _⟩ => ⟨S9192x512, .f32⟩
  | .hbm, ⟨43, _⟩ => ⟨S512x9192, .f32⟩
  | .hbm, ⟨44, _⟩ => ⟨S4096x9192, .f32⟩
  | .hbm, ⟨45, _⟩ => ⟨S_, .f32⟩
  | .hbm, ⟨46, _⟩ => ⟨S4096x9192, .f32⟩
  | .hbm, ⟨47, _⟩ => ⟨S4096x9192, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x9192, .f32⟩
  | .hbm, ⟨52, _⟩ => ⟨S4096x9192, .f32⟩
  | .hbm, ⟨53, _⟩ => ⟨S4096x9192, .f32⟩
  | .hbm, ⟨54, _⟩ => ⟨S4096x9192, .f32⟩
  | .hbm, ⟨55, _⟩ => ⟨S_, .i32⟩
  | .hbm, ⟨56, _⟩ => ⟨S9192, .i32⟩
  | .hbm, ⟨57, _⟩ => ⟨S9192, .i1⟩
  | .hbm, ⟨58, _⟩ => ⟨S_, .i32⟩
  | .hbm, ⟨59, _⟩ => ⟨S9192, .i32⟩
  | .hbm, ⟨60, _⟩ => ⟨S9192, .i32⟩
  | .hbm, ⟨61, _⟩ => ⟨S9192, .i32⟩
  | .hbm, ⟨62, _⟩ => ⟨S9192x1, .i32⟩
  | .hbm, ⟨63, _⟩ => ⟨S9192, .f32⟩
  | .hbm, ⟨64, _⟩ => ⟨S1x9192, .f32⟩
  | .hbm, ⟨65, _⟩ => ⟨S4096x9192, .f32⟩
  | .hbm, ⟨66, _⟩ => ⟨S4096x9192, .f32⟩
  | .hbm, ⟨67, _⟩ => ⟨S4096x9192, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1, .f32⟩
  | .hbm, ⟨72, _⟩ => ⟨S4096x9192, .f32⟩
  | .hbm, ⟨73, _⟩ => ⟨S4096x9192, .f32⟩
  | .hbm, ⟨74, _⟩ => ⟨S4096x9192, .f32⟩
  | .hbm, ⟨75, _⟩ => ⟨S_, .f32⟩
  | .hbm, ⟨76, _⟩ => ⟨S4096, .f32⟩
  | .hbm, ⟨77, _⟩ => ⟨S_, .f32⟩
  | .hbm, ⟨78, _⟩ => ⟨S4096, .f32⟩
  | .hbm, ⟨79, _⟩ => ⟨S4096, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S1000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  concatenates_S4096_S1000_S4096_S9192_d0 : Shape.Concatenates [S4096, S1000, S4096] S9192 0
  bcast_S_S1000 : S_.BroadcastsInDim S1000 (![] : Fin 0 → Fin S1000.rank)
  bcast_S_S9192 : S_.BroadcastsInDim S9192 (![] : Fin 0 → Fin S9192.rank)
  bcast_S9192_S9192x1_0 : S9192.BroadcastsInDim S9192x1 (![0] : Fin 1 → Fin S9192x1.rank)
  slices_S9192_S4096_0 : S9192.Slices ![0] S4096
  bcast_S4096_S4096x1_0 : S4096.BroadcastsInDim S4096x1 (![0] : Fin 1 → Fin S4096x1.rank)
  bcast_S9192_S1x9192_1 : S9192.BroadcastsInDim S1x9192 (![1] : Fin 1 → Fin S1x9192.rank)
  bcast_S4096x1_S4096x9192_0_1 : S4096x1.BroadcastsInDim S4096x9192 (![0, 1] : Fin 2 → Fin S4096x9192.rank)
  bcast_S1x9192_S4096x9192_0_1 : S1x9192.BroadcastsInDim S4096x9192 (![0, 1] : Fin 2 → Fin S4096x9192.rank)
  bcast_S_S4096x9192 : S_.BroadcastsInDim S4096x9192 (![] : Fin 0 → Fin S4096x9192.rank)
  concatenates_S4096x512_S1000x512_S4096x512_S9192x512_d0 : Shape.Concatenates [S4096x512, S1000x512, S4096x512] S9192x512 0
  transposes_S9192x512_S512x9192_1_0 : S9192x512.Transposes [1, 0] S512x9192
  reducesTo_S4096x9192_S4096_d1 : S4096x9192.ReducesTo [1] S4096
  h_S_ : 0 < S_.numel
  reducesTo_S4096_S_d0 : S4096.ReducesTo [0] S_
  scatter_S1000_S9192x1_S9192_n_0_0_1_wf : ScatterDims.WF S1000 S9192x1 S9192 [] [0] [0] 1
  dot_S4096x512_S512x9192_S4096x9192_1_0_0_1_n_n_wf : DotDims.WF S4096x512 S512x9192 S4096x9192 [1] [0] [0] [1] [] []
  gather_S1000_S9192x1_S9192_n_0_n_n_0_1_1_wf : GatherDims.WF S1000 S9192x1 S9192 [] [0] [] [0] [] 1 ![1]

variable [Facts₀]

def scatter_S1000_S9192x1_S9192_n_0_0_1 : ScatterDims S1000 S9192x1 S9192 where
  updateWindowDims := []
  insertedWindowDims := [0]
  scatterDimsToOperandDims := [0]
  indexVectorDim := 1
  wf := scatter_S1000_S9192x1_S9192_n_0_0_1_wf
def dot_S4096x512_S512x9192_S4096x9192_1_0_0_1_n_n : DotDims S4096x512 S512x9192 S4096x9192 where
  lhsContracting := [1]
  rhsContracting := [0]
  lhsNonContracting := [0]
  rhsNonContracting := [1]
  lhsBatch := []
  rhsBatch := []
  wf := dot_S4096x512_S512x9192_S4096x9192_1_0_0_1_n_n_wf
def gather_S1000_S9192x1_S9192_n_0_n_n_0_1_1 : GatherDims S1000 S9192x1 S9192 where
  offsetDims := []
  collapsedSliceDims := [0]
  operandBatchingDims := []
  startIndicesBatchingDims := []
  startIndexMap := [0]
  indexVectorDim := 1
  sliceSizes := ![1]
  wf := gather_S1000_S9192x1_S9192_n_0_n_n_0_1_1_wf

class Facts : Prop extends Facts₀ where

variable [Facts]
-- ==== Proof.K.Shared.lean ====
/-
  The one pallas_call of the word-level kernel program, seen from @main: the arrays the region finds (the host lines
  before it applied to the launch memory), @main as "host lines, the region, host lines", each input window's block
  at a grid point, the two branch conditions of the body decided over the 8 x 4 grid (the second grid coordinate is
  0 at the points = 0 mod 4 and 3 at the points = 3 mod 4), where the output window is idle, and the invariant the
  region keeps between points with the three accumulators named.
-/
import proofs.«429414_j30889404793117_3_alg».proof.Proof.Gen.Kernel.Launch
import proofs.«429414_j30889404793117_3_alg».proof.Proof.Gen.Kernel.Skeleton
import proofs.«429414_j30889404793117_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch. -/
abbrev prefixOps : List (List (HloOp τ sig (Elt F))) := [hostOps0, hostOps0_1, hostOps0_2, hostOps0_3, hostOps0_4, hostOps0_5, hostOps0_6, hostOps0_7, hostOps0_8, hostOps0_9]

/-- Core c's buffer contents when the region is entered: the host lines before it applied to the launch memory. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the five host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (prefixOps (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

/-- The lines after the region touch unscoped TensorCore references only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a host line after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a host line after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a host line after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a host line after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a host line after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, the five argument arrays end as launched: no window stages an argument
    itself (the windows stage arrays the host lines computed), and no host line writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c)⟩) h

/-! ## The body's branch conditions -/

/-- The first conditional (reset the accumulators): the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (write the row values out): the second grid coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Where the output is not stored (the second coordinate is not 3) the configuration calls it idle, and it is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- Where it is stored it is live. -/
theorem liveAt0_6 : ∀ t : Fin cfg0.N, cond0_1 (grid0.coords t) → cfg0.idle 6 (grid0.coords t) = false := by decide +kernel

/-! ## The staging and scratch memrefs -/

abbrev VO0_6 : View sig .tc .vmem S512x1 .f32 := (Memref.whole cc0_stg6_0 : Memref sig .tc .vmem S512x1 .f32).view
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2304x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2304 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2304 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2304 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The three accumulators: label-weighted similarity sum, positive count, weighted exponential sum. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev VS0_0 : View sig .tc .vmem S512x1 .f32 := scM0_0.view
abbrev VS0_1 : View sig .tc .vmem S512x1 .f32 := scM0_1.view
abbrev VS0_2 : View sig .tc .vmem S512x1 .f32 := scM0_2.view

/-- The region's invariant before the first point: each accumulator at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.K.RunA.lean ====
/-
  The kernel body run whole in case A of its two conditionals: the second grid coordinate is 0, so the three accumulators are reset to zero, then this block's partial sums are added; the output block is not stored.
  On whole staging buffers holding the six input blocks, the body runs to its end leaving the inputs as they were and
  each accumulator (and, where it is stored, the output block) with the pieces the run's stores wrote; the pieces are
  what the run finds.
-/
import proofs.«429414_j30889404793117_3_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) :
    Σ' (L6 : List (View.Piece (Elt F) S512x1 .f32)), Σ' (LS0 : List (View.Piece (Elt F) S512x1 .f32)), Σ' (LS1 : List (View.Piece (Elt F) S512x1 .f32)), { LS2 : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__contra_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__contra_kernel_eq_skeleton]; unfold cc0__contra_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.RunB.lean ====
/-
  The kernel body run whole in case B of its two conditionals: the second grid coordinate is 1 or 2: this block's partial sums are added to the accumulators the point before left; the output block is not stored.
  On whole staging buffers holding the six input blocks, the body runs to its end leaving the inputs as they were and
  each accumulator (and, where it is stored, the output block) with the pieces the run's stores wrote; the pieces are
  what the run finds.
-/
import proofs.«429414_j30889404793117_3_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) :
    Σ' (L6 : List (View.Piece (Elt F) S512x1 .f32)), Σ' (LS0 : List (View.Piece (Elt F) S512x1 .f32)), Σ' (LS1 : List (View.Piece (Elt F) S512x1 .f32)), { LS2 : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__contra_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__contra_kernel_eq_skeleton]; unfold cc0__contra_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.RunC.lean ====
/-
  The kernel body run whole in case C of its two conditionals: the second grid coordinate is 3: this block's partial sums are added, and the row values (sum ratio minus the logarithm of the weighted exponential sum) are stored into the output block.
  On whole staging buffers holding the six input blocks, the body runs to its end leaving the inputs as they were and
  each accumulator (and, where it is stored, the output block) with the pieces the run's stores wrote; the pieces are
  what the run finds.
-/
import proofs.«429414_j30889404793117_3_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) :
    Σ' (L6 : List (View.Piece (Elt F) S512x1 .f32)), Σ' (LS0 : List (View.Piece (Elt F) S512x1 .f32)), Σ' (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__contra_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__contra_kernel_eq_skeleton]; unfold cc0__contra_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.Kernel.Hand

end
-- ==== Proof.K.Frame.lean ====
/-
  The frame of the word-level kernel program's one pallas_call: what the output block and the three accumulators hold
  after the body at each of the 32 grid points (by recursion on the point: at the points = 0 mod 4 the accumulators
  start afresh, at the others they continue from the point before, and at the points = 3 mod 4 the output block is
  stored), the pipeline's proof data over that, the body obligation at a generic point from the three whole-body runs,
  the run of @main, and the frame: the program terminates, faults nowhere and leaves its five arguments as launched.
-/
import proofs.«429414_j30889404793117_3_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What case A leaves in the output block's staging buffer (nothing is stored: a placeholder nothing consults, the window being idle and not written back there). -/
def out0_A_6 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) : Vec F S512x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 x0 x1 x2 x3 x4 x5).1)

/-- Case A's stores into accumulator 0 cover it. -/
theorem scover0_A_0 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.1 S512x1.size (by sl_kernel_rfl) y

/-- What case A leaves in accumulator 0: its stores read back. -/
def sout0_A_0 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).2.1)

/-- Case A's stores into accumulator 1 cover it. -/
theorem scover0_A_1 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.1 S512x1.size (by sl_kernel_rfl) y

/-- What case A leaves in accumulator 1: its stores read back. -/
def sout0_A_1 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.2.1)

/-- Case A's stores into accumulator 2 cover it. -/
theorem scover0_A_2 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.2.1 S512x1.size (by sl_kernel_rfl) y

/-- What case A leaves in accumulator 2: its stores read back. -/
def sout0_A_2 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) : Vec F S512x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3 x4 x5).2.2.2.1)

/-- What case B leaves in the output block's staging buffer (nothing is stored: a placeholder nothing consults, the window being idle and not written back there). -/
def out0_B_6 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) : Vec F S512x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).1)

/-- Case B's stores into accumulator 0 cover it. -/
theorem scover0_B_0 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S512x1.size (by sl_kernel_rfl) y

/-- What case B leaves in accumulator 0: its stores read back. -/
def sout0_B_0 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- Case B's stores into accumulator 1 cover it. -/
theorem scover0_B_1 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S512x1.size (by sl_kernel_rfl) y

/-- What case B leaves in accumulator 1: its stores read back. -/
def sout0_B_1 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- Case B's stores into accumulator 2 cover it. -/
theorem scover0_B_2 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S512x1.size (by sl_kernel_rfl) y

/-- What case B leaves in accumulator 2: its stores read back. -/
def sout0_B_2 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-- Case C's one store into the output block covers it. -/
theorem cover0_C_6 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1 S512x1.size (by sl_kernel_rfl) y

/-- What case C leaves in the output block's staging buffer: its store read back. -/
def out0_C_6 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) : Vec F S512x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1)

/-- Case C's stores into accumulator 0 cover it. -/
theorem scover0_C_0 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S512x1.size (by sl_kernel_rfl) y

/-- What case C leaves in accumulator 0: its stores read back. -/
def sout0_C_0 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- Case C's stores into accumulator 1 cover it. -/
theorem scover0_C_1 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S512x1.size (by sl_kernel_rfl) y

/-- What case C leaves in accumulator 1: its stores read back. -/
def sout0_C_1 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- Case C's stores into accumulator 2 cover it. -/
theorem scover0_C_2 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S512x1.size (by sl_kernel_rfl) y

/-- What case C leaves in accumulator 2: its stores read back. -/
def sout0_C_2 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) : Vec F S512x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-! ## What the buffers hold after each point -/

/-- After the body at position n: the output block's staging buffer, then the three accumulators. -/
def outsAt0 (c : Dev nD) : (n : ℕ) → n < cfg0.N → Vec F S512x1 .f32 × Vec F S512x1 .f32 × Vec F S512x1 .f32 × Vec F S512x1 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      if h1 : (n + 1) % 4 = 3 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 4 = 0) (h1 : ¬t.val % 4 = 3) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point each accumulator at anything; afterwards each at
    what the point before left in it; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- On core c: the arrays as the region finds them; after the body at point t each input's buffer at its block and the
    output's at the first component of the contents above; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' buffers hold their blocks; the point's position mod 4 says which case it is in;
    the invariant hands the body the accumulators at what the point before left (at anything at a point = 0 mod 4,
    where they are reset before they are read) and takes them back at this point's contents; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · -- case A
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6 t (fun h => h1 ((hcond0_1 t).mp h))) (noFlush0_6 t (fun h => h1 ((hcond0_1 t).mp h)))]
      rw [outsAt0_A m c t h0 h1]
      unfold sout0_A_0 sout0_A_1 sout0_A_2; (try dsimp only)
      by_cases hz : t.val = 0
      · -- the first point: the invariant is the launch's
        rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · -- a later point = 0 mod 4: the accumulators' named contents are forgotten, then reset
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun hz => h0 (by rw [hz])
    by_cases h1 : t.val % 4 = 3
    · -- case C
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold out0_C_6 sout0_C_0 sout0_C_1 sout0_C_2; (try dsimp only)
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _)
    · -- case B
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6 t (fun h => h1 ((hcond0_1 t).mp h))) (noFlush0_6 t (fun h => h1 ((hcond0_1 t).mp h)))]
      rw [outsAt0_B m c t h0 h1]
      unfold sout0_B_0 sout0_B_1 sout0_B_2; (try dsimp only)
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- From any memory with zero counters every weakly fair execution of @main terminates, and every final state has every
    array of the pipeline at what the library computes from the proof data and every other unscoped buffer as the
    five host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program terminates, faults nowhere and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.Spec.lean ====
/-
  The mathematics of the certificate, free of either program.

  A batch row i (of 4096) is an anchor; the 9192 columns j are the batch rows, the 1000 class centres and the 4096
  out-of-distribution rows, in that order. Column j carries a label and a weight w j (the number of columns of its
  class); l j is the anchor's similarity to column j divided by the temperature.

  The reference computes, per anchor, with the row maximum M subtracted first,
      ( Σ_j mask_j · ((l_j − M) − log Σ_j' exp(l_j' − M)·(1 − diag_j') / (w_j' − mask_j')) ) / Σ_j mask_j ,
  where mask_j = [same label]·(1 − [j is the anchor itself]).
  The kernel computes, with no maximum subtracted and reciprocal weights chosen by a select,
      ( Σ_j [pos_j]·l_j ) / Σ_j [pos_j]  −  log Σ_j ([¬diag_j] exp l_j) · (pos_j ? 1/(w_j − 1) : 1/w_j) .
  The two agree because exp(l − M) = e^{−M}·exp l, so the logarithm of the reference's inner sum is that of the kernel's
  minus M, and the shift M cancels against the one in (l_j − M); a positive column has weight at least two, so the
  kernel's guard on w_j > 1 never binds.
-/
import Idealize.ShloMosaic.PureOps.Ideal
import Idealize.ShloMosaic.Lib.ValueIdx

noncomputable section

namespace Cert.Spec

open Idealize.ShloMosaic Idealize.ShloMosaic.ValueIdx

/-- A bit as an extended real: one or zero. -/
def b2e (b : Bool) : EReal := if b then 1 else 0

/-- The reference's value for one anchor: eq j says column j has the anchor's label, dg j that column j is the anchor
    itself, w j is column j's weight, l j its scaled similarity, M the shift subtracted before the exponential. -/
def refRow {J : Type} [Fintype J] (eq dg : J → Bool) (w l : J → EReal) (M : EReal) : EReal :=
  let mask : J → EReal := fun j => b2e (eq j) * (1 - b2e (dg j))
  let d : J → EReal := fun j => l j - M
  let S : EReal := ∑ j, Ideal.div (Ideal.exp (d j) * (1 - b2e (dg j))) (w j - mask j)
  Ideal.div (∑ j, mask j * (d j - Ideal.log S)) (∑ j, mask j)

/-- The kernel's value for one anchor, over the same data. -/
def kerRow {J : Type} [Fintype J] (eq dg : J → Bool) (w l : J → EReal) : EReal :=
  let pos : J → Bool := fun j => eq j && !dg j
  let sc : J → EReal := fun j =>
    if pos j then (if 1 < w j then Ideal.div 1 (w j - 1) else 0) else Ideal.div 1 (w j)
  let den : EReal := ∑ j, (if dg j then 0 else Ideal.exp (l j)) * sc j
  Ideal.div (∑ j, b2e (pos j) * l j) (∑ j, b2e (pos j)) - Ideal.log den

/-! ## The two programs' results over the arrays both compute -/

abbrev S9192 : Shape := ⟨1, ![9192]⟩
abbrev S9192x512 : Shape := ⟨2, ![9192, 512]⟩
abbrev S4096x512 : Shape := ⟨2, ![4096, 512]⟩

/-- The reference's temperature literal, f32(0.1), as the extended real its word denotes. -/
def tempWord : EReal := Ideal.ofBits .f32 0x3DCCCCCD#32
/-- The kernel's multiplier: the reciprocal of that word's value, 134217728/13421773. -/
def invTemp : EReal := ((134217728 / 13421773 : ℝ) : EReal)
/-- The batch size as the programs' literal 4096.0. -/
def batchWord : EReal := Ideal.ofBits .f32 0x45800000#32

/-- Anchor i as a column index (the batch rows are the first 4096 columns). -/
def anchorCol (i : Fin 4096) : Fin 9192 := ⟨i.val, by omega⟩

/-- The similarity of anchor i to column j before the temperature: the inner product of row i of the batch features
    with row j of the stacked features. -/
def dotAt (fa : S9192x512.Idx → EReal) (x : S4096x512.Idx → EReal) (i : Fin 4096) (j : Fin 9192) : EReal :=
  ∑ k : Fin 512, x (ix2 i k) * fa (ix2 j k)

/-- Column j carries anchor i's label. -/
def sameLabel (lab : S9192.Idx → BitVec 32) (i : Fin 4096) (j : Fin 9192) : Bool :=
  decide (lab (ix1 (anchorCol i)) = lab (ix1 j))
/-- Column j is anchor i itself. -/
def isDiag (i : Fin 4096) (j : Fin 9192) : Bool := decide (j.val = i.val)

/-- The reference's row value: similarities DIVIDED by the temperature word, shift M. -/
def rowRef (lab : S9192.Idx → BitVec 32) (wt : S9192.Idx → EReal) (fa : S9192x512.Idx → EReal)
    (x : S4096x512.Idx → EReal) (M : EReal) (i : Fin 4096) : EReal :=
  refRow (J := Fin 9192) (sameLabel lab i) (isDiag i) (fun j => wt (ix1 j))
    (fun j => Ideal.div (dotAt fa x i j) tempWord) M

/-- The kernel's row value: similarities TIMES the reciprocal temperature. -/
def rowKer (lab : S9192.Idx → BitVec 32) (wt : S9192.Idx → EReal) (fa : S9192x512.Idx → EReal)
    (x : S4096x512.Idx → EReal) (i : Fin 4096) : EReal :=
  kerRow (J := Fin 9192) (sameLabel lab i) (isDiag i) (fun j => wt (ix1 j))
    (fun j => dotAt fa x i j * invTemp)

/-- The loss from the per-anchor values: minus their mean. -/
def lossOf (row : Fin 4096 → EReal) : EReal := -(Ideal.div (∑ i : Fin 4096, row i) batchWord)

end Cert.Spec

end
-- ==== Proof.KI.Shared.lean ====
/-
  The one pallas_call of the idealized kernel program, seen from @main: the arrays the region finds (the host lines
  before it applied to the launch memory), @main as "host lines, the region, host lines", each input window's block
  at a grid point, the two branch conditions of the body decided over the 8 x 4 grid (the second grid coordinate is
  0 at the points = 0 mod 4 and 3 at the points = 3 mod 4), where the output window is idle, and the invariant the
  region keeps between points with the three accumulators named.
-/
import proofs.«429414_j30889404793117_3_alg».proof.Proof.Gen.KernelIdeal.Launch
import proofs.«429414_j30889404793117_3_alg».proof.Proof.Gen.KernelIdeal.Skeleton
import proofs.«429414_j30889404793117_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch. -/
abbrev prefixOps : List (List (HloOp τ sig (Elt F))) := [hostOps0, hostOps0_1, hostOps0_2, hostOps0_3, hostOps0_4, hostOps0_5, hostOps0_6, hostOps0_7, hostOps0_8, hostOps0_9]

/-- Core c's buffer contents when the region is entered: the host lines before it applied to the launch memory. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the five host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (prefixOps (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

/-- The lines after the region touch unscoped TensorCore references only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a host line after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a host line after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a host line after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a host line after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a host line after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, the five argument arrays end as launched: no window stages an argument
    itself (the windows stage arrays the host lines computed), and no host line writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c)⟩) h

/-! ## The body's branch conditions -/

/-- The first conditional (reset the accumulators): the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (write the row values out): the second grid coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Where the output is not stored (the second coordinate is not 3) the configuration calls it idle, and it is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- Where it is stored it is live. -/
theorem liveAt0_6 : ∀ t : Fin cfg0.N, cond0_1 (grid0.coords t) → cfg0.idle 6 (grid0.coords t) = false := by decide +kernel

/-! ## The staging and scratch memrefs -/

abbrev VO0_6 : View sig .tc .vmem S512x1 .f32 := (Memref.whole cc0_stg6_0 : Memref sig .tc .vmem S512x1 .f32).view
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2304x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2304 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2304 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2304 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The three accumulators: label-weighted similarity sum, positive count, weighted exponential sum. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev VS0_0 : View sig .tc .vmem S512x1 .f32 := scM0_0.view
abbrev VS0_1 : View sig .tc .vmem S512x1 .f32 := scM0_1.view
abbrev VS0_2 : View sig .tc .vmem S512x1 .f32 := scM0_2.view

/-- The region's invariant before the first point: each accumulator at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KI.RunA.lean ====
/-
  The kernel body run whole in case A of its two conditionals: the second grid coordinate is 0, so the three accumulators are reset to zero, then this block's partial sums are added; the output block is not stored.
  On whole staging buffers holding the six input blocks, the body runs to its end leaving the inputs as they were and
  each accumulator (and, where it is stored, the output block) with the pieces the run's stores wrote; the pieces are
  what the run finds.
-/
import proofs.«429414_j30889404793117_3_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun0_A (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) :
    Σ' (L6 : List (View.Piece (Elt F) S512x1 .f32)), Σ' (LS0 : List (View.Piece (Elt F) S512x1 .f32)), Σ' (LS1 : List (View.Piece (Elt F) S512x1 .f32)), { LS2 : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__contra_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__contra_kernel_eq_skeleton]; unfold cc0__contra_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.RunB.lean ====
/-
  The kernel body run whole in case B of its two conditionals: the second grid coordinate is 1 or 2: this block's partial sums are added to the accumulators the point before left; the output block is not stored.
  On whole staging buffers holding the six input blocks, the body runs to its end leaving the inputs as they were and
  each accumulator (and, where it is stored, the output block) with the pieces the run's stores wrote; the pieces are
  what the run finds.
-/
import proofs.«429414_j30889404793117_3_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun0_B (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) :
    Σ' (L6 : List (View.Piece (Elt F) S512x1 .f32)), Σ' (LS0 : List (View.Piece (Elt F) S512x1 .f32)), Σ' (LS1 : List (View.Piece (Elt F) S512x1 .f32)), { LS2 : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__contra_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__contra_kernel_eq_skeleton]; unfold cc0__contra_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.RunC.lean ====
/-
  The kernel body run whole in case C of its two conditionals: the second grid coordinate is 3: this block's partial sums are added, and the row values (sum ratio minus the logarithm of the weighted exponential sum) are stored into the output block.
  On whole staging buffers holding the six input blocks, the body runs to its end leaving the inputs as they were and
  each accumulator (and, where it is stored, the output block) with the pieces the run's stores wrote; the pieces are
  what the run finds.
-/
import proofs.«429414_j30889404793117_3_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun0_C (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) :
    Σ' (L6 : List (View.Piece (Elt F) S512x1 .f32)), Σ' (LS0 : List (View.Piece (Elt F) S512x1 .f32)), Σ' (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__contra_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__contra_kernel_eq_skeleton]; unfold cc0__contra_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.KernelIdeal.Hand

end
-- ==== Proof.KI.Frame.lean ====
/-
  The frame of the idealized kernel program's one pallas_call: what the output block and the three accumulators hold
  after the body at each of the 32 grid points (by recursion on the point: at the points = 0 mod 4 the accumulators
  start afresh, at the others they continue from the point before, and at the points = 3 mod 4 the output block is
  stored), the pipeline's proof data over that, the body obligation at a generic point from the three whole-body runs,
  the run of @main, and the frame: the program terminates, faults nowhere and leaves its five arguments as launched.
-/
import proofs.«429414_j30889404793117_3_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each case leaves -/

/-- What case A leaves in the output block's staging buffer (nothing is stored: a placeholder nothing consults, the window being idle and not written back there). -/
def out0_A_6 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) : Vec F S512x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 x0 x1 x2 x3 x4 x5).1)

/-- Case A's stores into accumulator 0 cover it. -/
theorem scover0_A_0 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.1 S512x1.size (by sl_kernel_rfl) y

/-- What case A leaves in accumulator 0: its stores read back. -/
def sout0_A_0 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).2.1)

/-- Case A's stores into accumulator 1 cover it. -/
theorem scover0_A_1 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.1 S512x1.size (by sl_kernel_rfl) y

/-- What case A leaves in accumulator 1: its stores read back. -/
def sout0_A_1 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.2.1)

/-- Case A's stores into accumulator 2 cover it. -/
theorem scover0_A_2 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.2.1 S512x1.size (by sl_kernel_rfl) y

/-- What case A leaves in accumulator 2: its stores read back. -/
def sout0_A_2 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) : Vec F S512x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3 x4 x5).2.2.2.1)

/-- What case B leaves in the output block's staging buffer (nothing is stored: a placeholder nothing consults, the window being idle and not written back there). -/
def out0_B_6 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) : Vec F S512x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).1)

/-- Case B's stores into accumulator 0 cover it. -/
theorem scover0_B_0 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S512x1.size (by sl_kernel_rfl) y

/-- What case B leaves in accumulator 0: its stores read back. -/
def sout0_B_0 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- Case B's stores into accumulator 1 cover it. -/
theorem scover0_B_1 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S512x1.size (by sl_kernel_rfl) y

/-- What case B leaves in accumulator 1: its stores read back. -/
def sout0_B_1 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- Case B's stores into accumulator 2 cover it. -/
theorem scover0_B_2 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S512x1.size (by sl_kernel_rfl) y

/-- What case B leaves in accumulator 2: its stores read back. -/
def sout0_B_2 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-- Case C's one store into the output block covers it. -/
theorem cover0_C_6 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1 S512x1.size (by sl_kernel_rfl) y

/-- What case C leaves in the output block's staging buffer: its store read back. -/
def out0_C_6 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) : Vec F S512x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1)

/-- Case C's stores into accumulator 0 cover it. -/
theorem scover0_C_0 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S512x1.size (by sl_kernel_rfl) y

/-- What case C leaves in accumulator 0: its stores read back. -/
def sout0_C_0 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- Case C's stores into accumulator 1 cover it. -/
theorem scover0_C_1 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S512x1.size (by sl_kernel_rfl) y

/-- What case C leaves in accumulator 1: its stores read back. -/
def sout0_C_1 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- Case C's stores into accumulator 2 cover it. -/
theorem scover0_C_2 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S512x1.size (by sl_kernel_rfl) y

/-- What case C leaves in accumulator 2: its stores read back. -/
def sout0_C_2 (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) : Vec F S512x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-! ## What the buffers hold after each point -/

/-- After the body at position n: the output block's staging buffer, then the three accumulators. -/
def outsAt0 (c : Dev nD) : (n : ℕ) → n < cfg0.N → Vec F S512x1 .f32 × Vec F S512x1 .f32 × Vec F S512x1 .f32 × Vec F S512x1 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      if h1 : (n + 1) % 4 = 3 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 4 = 0) (h1 : ¬t.val % 4 = 3) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point each accumulator at anything; afterwards each at
    what the point before left in it; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- On core c: the arrays as the region finds them; after the body at point t each input's buffer at its block and the
    output's at the first component of the contents above; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' buffers hold their blocks; the point's position mod 4 says which case it is in;
    the invariant hands the body the accumulators at what the point before left (at anything at a point = 0 mod 4,
    where they are reset before they are read) and takes them back at this point's contents; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · -- case A
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6 t (fun h => h1 ((hcond0_1 t).mp h))) (noFlush0_6 t (fun h => h1 ((hcond0_1 t).mp h)))]
      rw [outsAt0_A m c t h0 h1]
      unfold sout0_A_0 sout0_A_1 sout0_A_2; (try dsimp only)
      by_cases hz : t.val = 0
      · -- the first point: the invariant is the launch's
        rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · -- a later point = 0 mod 4: the accumulators' named contents are forgotten, then reset
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun hz => h0 (by rw [hz])
    by_cases h1 : t.val % 4 = 3
    · -- case C
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold out0_C_6 sout0_C_0 sout0_C_1 sout0_C_2; (try dsimp only)
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _)
    · -- case B
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6 t (fun h => h1 ((hcond0_1 t).mp h))) (noFlush0_6 t (fun h => h1 ((hcond0_1 t).mp h)))]
      rw [outsAt0_B m c t h0 h1]
      unfold sout0_B_0 sout0_B_1 sout0_B_2; (try dsimp only)
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- From any memory with zero counters every weakly fair execution of @main terminates, and every final state has every
    array of the pipeline at what the library computes from the proof data and every other unscoped buffer as the
    five host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program terminates, faults nowhere and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KI.Pieces.lean ====
/-
  What each case of the body leaves in each accumulator and in the output block, as the body's own arithmetic: an
  accumulator ends at the point's partial sum added to what it started from — zero where the accumulators are reset
  first, the point before's contents otherwise —, and the output block, where it is stored, at the row value of the
  three accumulators just updated.
-/
import proofs.«429414_j30889404793117_3_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The accumulators and the output block are stored and loaded whole: the offsets of every such access are zero. -/
private theorem zeroOffsets : (![0, 0] : Fin 2 → Nat) = fun _ => 0 := funext fun a => by fin_cases a <;> rfl

/-- Where the accumulators are reset first, accumulator 0 ends at the point's partial sum of the masked similarities
    added to the zero it was reset to: the later of its two whole stores is the one read back. -/
theorem sout0_A_0_eq (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay2 (F := F) (k0_pay9 (F := F) x0 x1) (k0_pay12 (F := F) i x2 x3) (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S512x1) zeroOffsets]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) zeroOffsets, View.ld_unit_zero (S := S512x512) zeroOffsets, View.ld_unit_zero (S := S2304x512) zeroOffsets, View.ld_unit_zero (S := S1x2304) zeroOffsets, View.readCov_unit_zero (S := S512x1) _ zeroOffsets]

/-- Likewise accumulator 1: the point's count of positive columns added to zero. -/
theorem sout0_A_1_eq (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay3 (F := F) (k0_pay12 (F := F) i x2 x3) (k0_pay7 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S512x1) zeroOffsets]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) zeroOffsets, View.ld_unit_zero (S := S512x512) zeroOffsets, View.ld_unit_zero (S := S2304x512) zeroOffsets, View.ld_unit_zero (S := S1x2304) zeroOffsets, View.readCov_unit_zero (S := S512x1) _ zeroOffsets]

/-- Likewise accumulator 2: the point's partial sum of the weighted exponentials added to zero. -/
theorem sout0_A_2_eq (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) :
    sout0_A_2 c i arg2 harg2 arg3 harg3 arg4 harg4 arg5 harg5 arg6 harg6 arg7 harg7 arg8 harg8 arg9 harg9 arg10 harg10 arg11 harg11 hc0 hc1 x0 x1 x2 x3 x4 x5 = k0_pay4 (F := F) (k0_pay10 (F := F) x4) (k0_pay12 (F := F) i x2 x3) (k0_pay13 (F := F) i x0 x1) (k0_pay14 (F := F) x5) (k0_pay8 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S512x1) zeroOffsets]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) zeroOffsets, View.ld_unit_zero (S := S512x512) zeroOffsets, View.ld_unit_zero (S := S2304x512) zeroOffsets, View.ld_unit_zero (S := S1x2304) zeroOffsets, View.readCov_unit_zero (S := S512x1) _ zeroOffsets]

/-- At a middle point accumulator 0 ends at the point's partial sum of the masked similarities added to what the point
    before left in it: its one whole store read back, each load of a whole buffer reading that buffer's contents. -/
theorem sout0_B_0_eq (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay2 (F := F) (k0_pay9 (F := F) x0 x1) (k0_pay12 (F := F) i x2 x3) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero zeroOffsets]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) zeroOffsets, View.ld_unit_zero (S := S512x512) zeroOffsets, View.ld_unit_zero (S := S2304x512) zeroOffsets, View.ld_unit_zero (S := S1x2304) zeroOffsets]

/-- Likewise accumulator 1: the point's count of positive columns added to what it held. -/
theorem sout0_B_1_eq (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay3 (F := F) (k0_pay12 (F := F) i x2 x3) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero zeroOffsets]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) zeroOffsets, View.ld_unit_zero (S := S512x512) zeroOffsets, View.ld_unit_zero (S := S2304x512) zeroOffsets, View.ld_unit_zero (S := S1x2304) zeroOffsets]

/-- Likewise accumulator 2: the point's partial sum of the weighted exponentials added to what it held. -/
theorem sout0_B_2_eq (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) :
    sout0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay4 (F := F) (k0_pay10 (F := F) x4) (k0_pay12 (F := F) i x2 x3) (k0_pay13 (F := F) i x0 x1) (k0_pay14 (F := F) x5) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero zeroOffsets]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) zeroOffsets, View.ld_unit_zero (S := S512x512) zeroOffsets, View.ld_unit_zero (S := S2304x512) zeroOffsets, View.ld_unit_zero (S := S1x2304) zeroOffsets]

/-- At a last point of a row block the accumulators are updated exactly as at a middle point: accumulator 0. -/
theorem sout0_C_0_eq (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay2 (F := F) (k0_pay9 (F := F) x0 x1) (k0_pay12 (F := F) i x2 x3) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero zeroOffsets]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) zeroOffsets, View.ld_unit_zero (S := S512x512) zeroOffsets, View.ld_unit_zero (S := S2304x512) zeroOffsets, View.ld_unit_zero (S := S1x2304) zeroOffsets]

/-- Accumulator 1 at a last point. -/
theorem sout0_C_1_eq (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay3 (F := F) (k0_pay12 (F := F) i x2 x3) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero zeroOffsets]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) zeroOffsets, View.ld_unit_zero (S := S512x512) zeroOffsets, View.ld_unit_zero (S := S2304x512) zeroOffsets, View.ld_unit_zero (S := S1x2304) zeroOffsets]

/-- Accumulator 2 at a last point. -/
theorem sout0_C_2_eq (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) :
    sout0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay4 (F := F) (k0_pay10 (F := F) x4) (k0_pay12 (F := F) i x2 x3) (k0_pay13 (F := F) i x0 x1) (k0_pay14 (F := F) x5) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero zeroOffsets]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) zeroOffsets, View.ld_unit_zero (S := S512x512) zeroOffsets, View.ld_unit_zero (S := S2304x512) zeroOffsets, View.ld_unit_zero (S := S1x2304) zeroOffsets]

/-- At a last point the output block is stored once, whole, with the row value of the three accumulators as just
    updated: each is loaded after its store and so reads that store's payload. -/
theorem out0_C_6_eq (c : Dev nD) (i : grid0.Coords) (arg2 : Memref sig .tc .vmem S512x512 .bf16) (harg2 : arg2.IsWhole) (arg3 : Memref sig .tc .vmem S2304x512 .bf16) (harg3 : arg3.IsWhole) (arg4 : Memref sig .tc .vmem S512x1 .i32) (harg4 : arg4.IsWhole) (arg5 : Memref sig .tc .vmem S1x2304 .i32) (harg5 : arg5.IsWhole) (arg6 : Memref sig .tc .vmem S1x2304 .f32) (harg6 : arg6.IsWhole) (arg7 : Memref sig .tc .vmem S1x2304 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .bf16) (x1 : Vec F S2304x512 .bf16) (x2 : Vec F S512x1 .i32) (x3 : Vec F S1x2304 .i32) (x4 : Vec F S1x2304 .f32) (x5 : Vec F S1x2304 .f32) (xs0 xs1 xs2 : Vec F S512x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay5 (F := F) (k0_pay2 (F := F) (k0_pay9 (F := F) x0 x1) (k0_pay12 (F := F) i x2 x3) xs0) (k0_pay3 (F := F) (k0_pay12 (F := F) i x2 x3) xs1) (k0_pay4 (F := F) (k0_pay10 (F := F) x4) (k0_pay12 (F := F) i x2 x3) (k0_pay13 (F := F) i x0 x1) (k0_pay14 (F := F) x5) xs2) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero zeroOffsets]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1) zeroOffsets, View.ld_unit_zero (S := S512x512) zeroOffsets, View.ld_unit_zero (S := S2304x512) zeroOffsets, View.ld_unit_zero (S := S1x2304) zeroOffsets, View.readCov_unit_zero (S := S512x1) _ zeroOffsets]

end Cert.KernelIdeal.Hand

end
-- ==== Proof.KI.PayloadA.lean ====
/-
  The kernel body's arithmetic, read at an index, at the ideal instance: the similarity block is a matrix product
  against the transposed column block times the reciprocal temperature; a column is positive for a row when the labels
  agree and the global row and column numbers differ; the three per-row partial sums add, over the block's 2304
  columns, the label-weighted similarities, the positive count, and the off-diagonal exponentials times the selected
  reciprocal weight; the row value is the first sum over the second minus the logarithm of the third.
-/
import proofs.«429414_j30889404793117_3_alg».proof.Proof.Spec
import proofs.«429414_j30889404793117_3_alg».proof.Proof.Gen.KernelIdeal.Skeleton
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen
open Idealize.ShloMosaic Idealize.ShloMosaic.ValueIdx

/-- The global row number of row r of the block at grid point i, and the global column number of its column cc. -/
def rowNo (i : grid0.Coords) (r : Fin 512) : ℕ := (i 0).val * 512 + r.val
def colNo (i : grid0.Coords) (cc : Fin 2304) : ℕ := (i 1).val * 2304 + cc.val

namespace SimBlock

/-! ## Integer vector operations read at an index -/

section Words
variable {s : Shape} {w : ℕ}

/-- An integer comparison at an index compares the elements. -/
theorem cmpi_apply (p : CmpIPredicate) (x y : IVec s w) (j : s.Idx) : cmpi p x y j = IntOp.cmpi p (x j) (y j) := rfl
/-- A bitwise and at an index is the and of the elements. -/
theorem andi_apply (x y : IVec s w) (j : s.Idx) : andi x y j = IntOp.andi (x j) (y j) := rfl
/-- An integer sum at an index is the sum of the elements. -/
theorem addi_apply (x y : IVec s w) (j : s.Idx) : addi x y j = IntOp.addi (x j) (y j) := rfl

end Words

/-! ## One column broadcast over many -/

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reciprocal temperature -/

/-- The kernel's named multiplier denotes the rational 134217728/13421773 at the ideal instance. -/
theorem inv_temp : Named.named (F := Ideal) Cert.KernelIdeal.κ "inv_temperature" (φ := .f32) 0x41200000#32 = Cert.Spec.invTemp :=
  IdealRules.named_const.ideal_named_scalar _ _ _ _ rfl

/-! ## The product against the transposed block -/

theorem lhs_dot_0 (j : S512x2304.Idx) (q : dot_S512x512_S2304x512_S512x2304_1_1_0_0_n_n.contr.Idx) :
    (dot_S512x512_S2304x512_S512x2304_1_1_0_0_n_n.lhsIdx j q 0).val = (j 0).val := by
  unfold DotDims.lhsIdx
  rw [dif_neg (show ¬(0 : Fin S512x512.rank) ∈ dot_S512x512_S2304x512_S512x2304_1_1_0_0_n_n.lhsBatch by decide), dif_pos (show (0 : Fin S512x512.rank) ∈ dot_S512x512_S2304x512_S512x2304_1_1_0_0_n_n.lhsNonContracting by decide)]
  rfl
theorem lhs_dot_1 (j : S512x2304.Idx) (q : dot_S512x512_S2304x512_S512x2304_1_1_0_0_n_n.contr.Idx) :
    (dot_S512x512_S2304x512_S512x2304_1_1_0_0_n_n.lhsIdx j q 1).val = (q ⟨0, by decide⟩).val :=
  dot_S512x512_S2304x512_S512x2304_1_1_0_0_n_n.lhsIdx_val_of_single rfl j q
theorem rhs_dot_0 (j : S512x2304.Idx) (q : dot_S512x512_S2304x512_S512x2304_1_1_0_0_n_n.contr.Idx) :
    (dot_S512x512_S2304x512_S512x2304_1_1_0_0_n_n.rhsIdx j q 0).val = (j 1).val := by
  unfold DotDims.rhsIdx
  rw [dif_neg (show ¬(0 : Fin S2304x512.rank) ∈ dot_S512x512_S2304x512_S512x2304_1_1_0_0_n_n.rhsBatch by decide), dif_pos (show (0 : Fin S2304x512.rank) ∈ dot_S512x512_S2304x512_S512x2304_1_1_0_0_n_n.rhsNonContracting by decide)]
  rfl
theorem rhs_dot_1 (j : S512x2304.Idx) (q : dot_S512x512_S2304x512_S512x2304_1_1_0_0_n_n.contr.Idx) :
    (dot_S512x512_S2304x512_S512x2304_1_1_0_0_n_n.rhsIdx j q 1).val = (q ⟨0, by decide⟩).val :=
  dot_S512x512_S2304x512_S512x2304_1_1_0_0_n_n.rhsIdx_val_of_single rfl j q

/-- The product of a [512,512] block with a [2304,512] block contracted on the second axis of both, read at (r, cc):
    the inner product of row r of the first with row cc of the second. -/
theorem matmul_nt_apply (a : FVec Ideal S512x512 .bf16) (b : FVec Ideal S2304x512 .bf16) (r : Fin 512) (cc : Fin 2304) :
    FloatOps.matmul dot_S512x512_S2304x512_S512x2304_1_1_0_0_n_n none a b (constant (F := Ideal) S512x2304 .f32 0x00000000#32) (ix2 r cc)
      = ∑ k : Fin 512, a (ix2 r k) * b (ix2 cc k) := by
  rw [Ideal.matmul_constant_zero_apply, ← Equiv.sum_comp (contrEquiv1 dot_S512x512_S2304x512_S512x2304_1_1_0_0_n_n 512 rfl rfl).symm]
  refine Finset.sum_congr rfl fun k _ => ?_
  have hk := contrEquiv1_symm_val dot_S512x512_S2304x512_S512x2304_1_1_0_0_n_n 512 rfl rfl k
  have el : dot_S512x512_S2304x512_S512x2304_1_1_0_0_n_n.lhsIdx (ix2 r cc) ((contrEquiv1 dot_S512x512_S2304x512_S512x2304_1_1_0_0_n_n 512 rfl rfl).symm k) = ix2 r k := funext fun ax => Fin.ext (by
    match ax with
    | ⟨0, _⟩ => exact lhs_dot_0 _ _
    | ⟨1, _⟩ => exact (lhs_dot_1 _ _).trans hk)
  have er : dot_S512x512_S2304x512_S512x2304_1_1_0_0_n_n.rhsIdx (ix2 r cc) ((contrEquiv1 dot_S512x512_S2304x512_S512x2304_1_1_0_0_n_n 512 rfl rfl).symm k) = ix2 cc k := funext fun ax => Fin.ext (by
    match ax with
    | ⟨0, _⟩ => exact rhs_dot_0 _ _
    | ⟨1, _⟩ => exact (rhs_dot_1 _ _).trans hk)
  rw [el, er]

/-! ## Row and column numbers as 32-bit words -/

/-- A block offset plus a coordinate, computed on 32-bit words, is the word of the number. -/
theorem word_affine (a m c : ℕ) :
    IntOp.addi (Scalar.muli (BitVec.ofNat 32 a) (BitVec.ofNat 32 m)) (BitVec.ofNat 32 c) = BitVec.ofNat 32 (a * m + c) := by
  show BitVec.ofNat 32 a * BitVec.ofNat 32 m + BitVec.ofNat 32 c = _
  rw [BitVec.ofNat_add, BitVec.ofNat_mul]

/-- Two numbers below 2^32 differ exactly when their words differ. -/
theorem cmpi_ne_ofNat (m n : ℕ) (hm : m < 2 ^ 32) (hn : n < 2 ^ 32) :
    IntOp.cmpi .ne (BitVec.ofNat 32 m) (BitVec.ofNat 32 n) = if m ≠ n then 1#1 else 0#1 := by
  have key : BitVec.ofNat 32 m = BitVec.ofNat 32 n ↔ m = n := by
    constructor
    · intro h
      have := congrArg BitVec.toNat h
      rw [BitVec.toNat_ofNat, BitVec.toNat_ofNat, Nat.mod_eq_of_lt hm, Nat.mod_eq_of_lt hn] at this
      exact this
    · intro h; rw [h]
  by_cases h : m = n
  · subst h; simp [IntOp.cmpi]
  · have h' : BitVec.ofNat 32 m ≠ BitVec.ofNat 32 n := fun e => h (key.mp e)
    rw [if_pos h]
    show BitVec.ofBool (BitVec.ofNat 32 m != BitVec.ofNat 32 n) = 1#1
    rw [bne_iff_ne.mpr h']
    rfl

/-- The and of "the two words are equal" with a decided bit is the bit of the conjunction. -/
theorem andi_cmpi_eq_ite (a b : BitVec 32) (P : Prop) [Decidable P] :
    IntOp.andi (IntOp.cmpi .eq a b) (if P then 1#1 else 0#1) = if a = b ∧ P then 1#1 else 0#1 := by
  by_cases h1 : a = b
  · subst h1
    by_cases h2 : P
    · simp [IntOp.andi, IntOp.cmpi, h2]
    · simp [IntOp.andi, IntOp.cmpi, h2]
  · have hb : (a == b) = false := beq_eq_false_iff_ne.mpr h1
    by_cases h2 : P
    · simp [IntOp.andi, IntOp.cmpi, h1, h2, hb]
    · simp [IntOp.andi, IntOp.cmpi, h1, h2, hb]

end SimBlock

open SimBlock

/-! ## The payloads at an index -/

theorem pay9_apply (x0 : Vec Ideal S512x512 .bf16) (x1 : Vec Ideal S2304x512 .bf16) (r : Fin 512) (cc : Fin 2304) :
    k0_pay9 (F := Ideal) x0 x1 (ix2 r cc) = (∑ k : Fin 512, x0 (ix2 r k) * x1 (ix2 cc k)) * Cert.Spec.invTemp := by
  unfold k0_pay9
  rw [mulf_apply, broadcast_apply, shapeCast_self, shapeCast_self, inv_temp]
  exact congrArg (· * Cert.Spec.invTemp) (matmul_nt_apply x0 x1 r cc)

theorem pay11_apply (i : grid0.Coords) (r : Fin 512) (cc : Fin 2304) :
    k0_pay11 i (ix2 r cc) = if rowNo i r ≠ colNo i cc then 1#1 else 0#1 := by
  have h0 : (i 0).val < 8 := (i 0).isLt
  have h1 : (i 1).val < 4 := (i 1).isLt
  have hr : r.val < 512 := r.isLt
  have hc : cc.val < 2304 := cc.isLt
  unfold k0_pay11
  dsimp only
  rw [cmpi_apply, broadcastTo_a1_ab_apply, broadcastTo_1b_ab_apply, addi_apply, addi_apply, broadcast_apply, broadcast_apply,
    iota_single_apply, iota_single_apply]
  show IntOp.cmpi .ne (IntOp.addi (Scalar.muli (BitVec.ofNat 32 (i 0).val) (BitVec.ofNat 32 512)) (BitVec.ofNat 32 r.val))
    (IntOp.addi (Scalar.muli (BitVec.ofNat 32 (i 1).val) (BitVec.ofNat 32 2304)) (BitVec.ofNat 32 cc.val)) = _
  rw [word_affine, word_affine]
  exact cmpi_ne_ofNat _ _ (by omega) (by omega)

theorem pay12_apply (i : grid0.Coords) (x2 : Vec Ideal S512x1 .i32) (x3 : Vec Ideal S1x2304 .i32) (r : Fin 512) (cc : Fin 2304) :
    k0_pay12 (F := Ideal) i x2 x3 (ix2 r cc) = if x2 (ix2 r 0) = x3 (ix2 0 cc) ∧ rowNo i r ≠ colNo i cc then 1#1 else 0#1 := by
  unfold k0_pay12
  rw [andi_apply, cmpi_apply, broadcastTo_a1_ab_apply, broadcastTo_1b_ab_apply, shapeCast_self, shapeCast_self, pay11_apply]
  exact andi_cmpi_eq_ite _ _ _

theorem pay13_apply (i : grid0.Coords) (x0 : Vec Ideal S512x512 .bf16) (x1 : Vec Ideal S2304x512 .bf16) (r : Fin 512) (cc : Fin 2304) :
    k0_pay13 (F := Ideal) i x0 x1 (ix2 r cc) = if rowNo i r ≠ colNo i cc then Ideal.exp (k0_pay9 (F := Ideal) x0 x1 (ix2 r cc)) else 0 := by
  unfold k0_pay13
  rw [select_apply, pay11_apply, broadcast_apply]
  by_cases h : rowNo i r ≠ colNo i cc
  · rw [if_pos h, if_pos h, select_one]; rfl
  · rw [if_neg h, if_neg h, select_zero]; exact Ideal.ofBits_zero_f32

theorem pay14_apply (x5 : Vec Ideal S1x2304 .f32) (r : Fin 512) (cc : Fin 2304) :
    k0_pay14 (F := Ideal) x5 (ix2 r cc) = x5 (ix2 0 cc) := by
  unfold k0_pay14
  rw [shapeCast_self, shapeCast_self]
  exact broadcastTo_1b_ab_apply x5 broadcasts_S1x2304_S512x2304 r cc

theorem pay10_apply (x4 : Vec Ideal S1x2304 .f32) (cc : Fin 2304) :
    k0_pay10 (F := Ideal) x4 (ix2 0 cc) = x4 (ix2 0 cc) := by
  unfold k0_pay10
  rw [shapeCast_self]

end Cert.KernelIdeal.Payload

end
-- ==== Proof.KI.PayloadB.lean ====
/-
  The kernel body's arithmetic, read at an index, at the ideal instance: the similarity block is a matrix product
  against the transposed column block times the reciprocal temperature; a column is positive for a row when the labels
  agree and the global row and column numbers differ; the three per-row partial sums add, over the block's 2304
  columns, the label-weighted similarities, the positive count, and the off-diagonal exponentials times the selected
  reciprocal weight; the row value is the first sum over the second minus the logarithm of the third.
-/
import proofs.«429414_j30889404793117_3_alg».proof.Proof.Spec
import proofs.«429414_j30889404793117_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen
open Idealize.ShloMosaic Idealize.ShloMosaic.ValueIdx

/-- The sum over the 2304 lanes of a block, read at row r. -/
theorem laneSum_apply (v : FVec Ideal S512x2304 .f32) (h : S512x2304.Reduces [1] S512) (hφ : FKind.Formats .f32)
    (hacc : (0x00000000#32 : BitVec 32) = 0x00000000#32) (r : Fin 512) :
    multiReduction (F := Ideal) .add [1] S512 v 0x00000000#32 h hφ hacc (ix1 r) = ∑ cc : Fin 2304, v (ix2 r cc) := by
  refine (Ideal.multiReduction_add_single v 0x00000000#32 h hφ hacc (ix1 r)).trans ?_
  refine Finset.sum_congr rfl fun k _ => congrArg v ?_
  funext a
  match a with
  | ⟨0, _⟩ => rfl
  | ⟨1, _⟩ => rfl

/-- A vector of 512 entries viewed as a column reads, at (r, 0), the entry r. -/
theorem column_apply {α : Type} (x : S512.Idx → α) (h : S512.ShapeCasts S512x1) (r : Fin 512) :
    shapeCast S512x1 x h (ix2 r 0) = x (ix1 r) :=
  shapeCast_apply x h _ _ (by
    rw [Shape.rowMajor_val_two, Shape.rowMajor_val_one]
    show r.val = r.val * 1 + 0
    omega)

/-- The one-bit mask widened and converted is one where the bit is set and zero where it is clear. -/
theorem pay1_apply (v32 : IVec S512x2304 1) (r : Fin 512) (cc : Fin 2304) :
    k0_pay1 (F := Ideal) v32 (ix2 r cc) = Cert.Spec.b2e (decide (v32 (ix2 r cc) = 1#1)) := by
  show (((((v32 (ix2 r cc)).setWidth 32).toInt : ℤ) : ℝ) : EReal) = _
  rcases BitVec.eq_zero_or_eq_one (v32 (ix2 r cc)) with h | h
  · rw [h]; simp [Cert.Spec.b2e]
  · rw [h]; simp [Cert.Spec.b2e]

theorem pay2_apply (v9 : FVec Ideal S512x2304 .f32) (v32 : IVec S512x2304 1) (s : Vec Ideal S512x1 .f32) (r : Fin 512) :
    k0_pay2 (F := Ideal) v9 v32 s (ix2 r 0) = s (ix2 r 0) + ∑ cc : Fin 2304, Cert.Spec.b2e (decide (v32 (ix2 r cc) = 1#1)) * v9 (ix2 r cc) := by
  unfold k0_pay2
  rw [shapeCast_self, addf_apply, column_apply]
  refine congrArg (s (ix2 r 0) + ·) ((laneSum_apply _ _ _ _ r).trans (Finset.sum_congr rfl fun cc _ => ?_))
  rw [mulf_apply, pay1_apply]

theorem pay3_apply (v32 : IVec S512x2304 1) (s : Vec Ideal S512x1 .f32) (r : Fin 512) :
    k0_pay3 (F := Ideal) v32 s (ix2 r 0) = s (ix2 r 0) + ∑ cc : Fin 2304, Cert.Spec.b2e (decide (v32 (ix2 r cc) = 1#1)) := by
  unfold k0_pay3
  rw [shapeCast_self, addf_apply, column_apply]
  refine congrArg (s (ix2 r 0) + ·) ((laneSum_apply _ _ _ _ r).trans (Finset.sum_congr rfl fun cc _ => ?_))
  rw [pay1_apply]

theorem pay4_apply (v15 : FVec Ideal S1x2304 .f32) (v32 : IVec S512x2304 1) (v35 v37 : FVec Ideal S512x2304 .f32) (s : Vec Ideal S512x1 .f32) (r : Fin 512) :
    k0_pay4 (F := Ideal) v15 v32 v35 v37 s (ix2 r 0)
      = s (ix2 r 0) + ∑ cc : Fin 2304, v35 (ix2 r cc) * (if v32 (ix2 r cc) = 1#1 then v37 (ix2 r cc) else v15 (ix2 0 cc)) := by
  unfold k0_pay4
  rw [shapeCast_self, addf_apply, column_apply]
  refine congrArg (s (ix2 r 0) + ·) ((laneSum_apply _ _ _ _ r).trans (Finset.sum_congr rfl fun cc _ => ?_))
  rw [mulf_apply, select_apply, shapeCast_self, broadcastTo_1b_ab_apply]
  rfl

theorem pay5_apply (a b d : Vec Ideal S512x1 .f32) (r : Fin 512) :
    k0_pay5 (F := Ideal) a b d (ix2 r 0) = Ideal.div (a (ix2 r 0)) (b (ix2 r 0)) - Ideal.log (d (ix2 r 0)) := by
  rfl

theorem pay6_apply (r : Fin 512) : k0_pay6 (F := Ideal) (ix2 r 0) = 0 := by
  unfold k0_pay6
  rw [shapeCast_self]
  exact Ideal.ofBits_zero_f32
theorem pay7_apply (r : Fin 512) : k0_pay7 (F := Ideal) (ix2 r 0) = 0 := by
  unfold k0_pay7
  rw [shapeCast_self]
  exact Ideal.ofBits_zero_f32
theorem pay8_apply (r : Fin 512) : k0_pay8 (F := Ideal) (ix2 r 0) = 0 := by
  unfold k0_pay8
  rw [shapeCast_self]
  exact Ideal.ofBits_zero_f32

end Cert.KernelIdeal.Payload

end
-- ==== Proof.KI.HostVals.lean ====
/-
  The six arrays the pallas_call's input windows stage, as the host lines before it leave them, read at an index at the
  ideal instance: the batch features unchanged (the narrowing to bf16 is the identity there); the stacked features
  with 24 zero rows appended; the targets as a column; the labels as a row with 24 entries -1 appended; the reciprocal
  column weights 1/w and the guarded reciprocals (1/(w-1) where w > 1, else 0), each as a row with 24 zeros appended.
  The labels, the weights and the stacked features are the same terms the reference computes.
-/
import proofs.«429414_j30889404793117_3_alg».proof.Proof.Spec
import proofs.«429414_j30889404793117_3_alg».proof.Proof.KI.Shared
import proofs.«429414_j30889404793117_3_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.HostVals

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The five arguments as launched on core c. -/
abbrev a0 (c : Dev nD) : S1000x512.Idx → EReal := m ((c : Thread nD τ).loc main_arg0)
abbrev a1 (c : Dev nD) : S4096x512.Idx → EReal := m ((c : Thread nD τ).loc main_arg1)
abbrev a2 (c : Dev nD) : S4096.Idx → BitVec 32 := m ((c : Thread nD τ).loc main_arg2)
abbrev a3 (c : Dev nD) : S4096x512.Idx → EReal := m ((c : Thread nD τ).loc main_arg3)
abbrev a4 (c : Dev nD) : S4096.Idx → BitVec 32 := m ((c : Thread nD τ).loc main_arg4)

/-- The labels, the column weights and the stacked features, as the reference's stages of the same name compute them. -/
abbrev LAB (c : Dev nD) : S9192.Idx → BitVec 32 := Cert.ReferenceIdeal.Read.val_main_v2 (F := Ideal) (a2 m c)
abbrev WT (c : Dev nD) : S9192.Idx → EReal := Cert.ReferenceIdeal.Read.val_main_v48 (F := Ideal) (a2 m c) (a4 m c)
abbrev FA (c : Dev nD) : S9192x512.Idx → EReal := Cert.ReferenceIdeal.Read.val_main_v31 (F := Ideal) (a0 m c) (a1 m c) (a3 m c)

/-! ## One operation's result at a buffer -/

/-- What a three-operand operation leaves at its own result buffer, each operand's contents read at its own reference. -/
theorem nary3_result {τ' : Topo} {sg : RefSig} {Val : EltTy → Type} {x a b y : Ref sg .tc}
    (f : ((k : Fin 3) → ((![x, a, b] : Fin 3 → Ref sg .tc) k).ty.Contents Val) → y.ty.Contents Val) (hxs hy)
    (G : Valuation τ' sg Val) :
    (StableHlo.nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- The same with the result reference left out of the rewriting index. -/
theorem nary3_result' {τ' : Topo} {sg : RefSig} {Val : EltTy → Type} {x a b y : Ref sg .tc}
    (f : ((k : Fin 3) → ((![x, a, b] : Fin 3 → Ref sg .tc) k).ty.Contents Val) → y.ty.Contents Val) (hxs hy)
    (G : Valuation τ' sg Val) :
    (StableHlo.nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- Each operation's result at its own buffer is its function's value, at another buffer what was there. -/
local macro "host_simp" : tactic =>
  `(tactic| (simp (disch := decide) only [StableHlo.after_cons, StableHlo.after_nil,
      StableHlo.nullary_result', StableHlo.unary_result', StableHlo.binary_result', StableHlo.ternary_result',
      StableHlo.reshape_result', nary3_result',
      StableHlo.nullary_result_ne', StableHlo.unary_result_ne', StableHlo.binary_result_ne', StableHlo.ternary_result_ne',
      StableHlo.reshape_result_ne', StableHlo.nary_result_ne']))

/-! ## The host lines in two stages -/

/-- The buffers after the first stretch of host lines (through the weights and the two reciprocal vectors). -/
def afterFirst (c : Dev nD) : Valuation τ sig (Elt Ideal) := StableHlo.after (hostOps0 (F := Ideal)) (fun b => m (c, b))

/-- The region finds what the remaining stretches leave from there. -/
theorem V_eq (c : Dev nD) (b : Ref sig .tc) :
    V m c b = StableHlo.after (List.flatten [hostOps0_1, hostOps0_2, hostOps0_3, hostOps0_4, hostOps0_5, hostOps0_6, hostOps0_7, hostOps0_8, hostOps0_9]) (afterFirst m c) (Proc.devRef .tc b) := by
  dsimp only [V, V0, prefixOps]
  rw [List.flatten_cons, StableHlo.after_append]
  rfl

/-- The vector of ones, the vector of zeros, the weights as a vector, the comparison w > 1, and the two reciprocal
    vectors 1/w and 1/(w - 1). -/
abbrev onesVec : FVec Ideal S9192 .f32 := broadcastInDim S9192 ![] bcast_S_S9192 (constant (F := Ideal) S_ .f32 0x3F800000#32)
abbrev zerosVec : FVec Ideal S9192 .f32 := broadcastInDim S9192 ![] bcast_S_S9192 (constant (F := Ideal) S_ .f32 0x00000000#32)
abbrev wtVec (c : Dev nD) : FVec Ideal S9192 .f32 := WT m c
abbrev gtOne (c : Dev nD) : IVec S9192 1 := cmpf (F := Ideal) .ogt (wtVec m c) onesVec
abbrev recipW (c : Dev nD) : FVec Ideal S9192 .f32 := Host.divf (F := Ideal) onesVec (wtVec m c)
abbrev recipWm1 (c : Dev nD) : FVec Ideal S9192 .f32 := Host.divf (F := Ideal) onesVec (subf (F := Ideal) (wtVec m c) onesVec)

/-- The first stretch writes no argument. -/
theorem afterFirst_arg1 (c : Dev nD) : (afterFirst m c (Proc.devRef .tc main_arg1) : S4096x512.Idx → EReal) = a1 m c := by
  unfold afterFirst; simp only [hostOps0]; host_simp
theorem afterFirst_arg2 (c : Dev nD) : (afterFirst m c (Proc.devRef .tc main_arg2) : S4096.Idx → BitVec 32) = a2 m c := by
  unfold afterFirst; simp only [hostOps0]; host_simp

/-- It computes the labels, the weights and from them the comparison and the two reciprocal vectors, by the operations
    the reference computes its labels and weights with. -/
theorem afterFirst_v2 (c : Dev nD) : (afterFirst m c (Proc.devRef .tc main_v2) : S9192.Idx → BitVec 32) = LAB m c := by
  unfold afterFirst; simp only [hostOps0]; host_simp; rfl
theorem afterFirst_v21 (c : Dev nD) : (afterFirst m c (Proc.devRef .tc main_v21) : S9192.Idx → EReal) = recipW m c := by
  unfold afterFirst; simp only [hostOps0]; host_simp; rfl
theorem afterFirst_v23 (c : Dev nD) : (afterFirst m c (Proc.devRef .tc main_v23) : S9192.Idx → BitVec 1) = gtOne m c := by
  unfold afterFirst; simp only [hostOps0]; host_simp; rfl
theorem afterFirst_v27 (c : Dev nD) : (afterFirst m c (Proc.devRef .tc main_v27) : S9192.Idx → EReal) = recipWm1 m c := by
  unfold afterFirst; simp only [hostOps0]; host_simp; rfl
theorem afterFirst_cst_9 (c : Dev nD) :
    (afterFirst m c (Proc.devRef .tc main_cst_9) : S_.Idx → EReal) = constant (F := Ideal) S_ .f32 0x00000000#32 := by
  unfold afterFirst; simp only [hostOps0]; host_simp

/-! ## The six arrays as terms -/

/-- The batch features, narrowed. -/
theorem V_v30 (c : Dev nD) :
    (V m c main_v30 : S4096x512.Idx → EReal) = (truncf (F := Ideal) .bf16 (a1 m c) bitsLt_bf16_f32 : S4096x512.Idx → EReal) := by
  rw [V_eq]; simp only [hostOps0_1, hostOps0_2, hostOps0_3, hostOps0_4, hostOps0_5, hostOps0_6, hostOps0_7, hostOps0_8, hostOps0_9, List.flatten_cons, List.flatten_nil, List.append_nil, List.cons_append, List.nil_append]; host_simp
  rw [afterFirst_arg1]

/-- The targets as a column. -/
theorem V_v32 (c : Dev nD) :
    (V m c main_v32 : S4096x1.Idx → BitVec 32) = shapeCast S4096x1 (a2 m c) shapeCasts_S4096_S4096x1 := by
  rw [V_eq]; simp only [hostOps0_1, hostOps0_2, hostOps0_3, hostOps0_4, hostOps0_5, hostOps0_6, hostOps0_7, hostOps0_8, hostOps0_9, List.flatten_cons, List.flatten_nil, List.append_nil, List.cons_append, List.nil_append]; host_simp
  rw [afterFirst_arg2]
  rfl

/-- The stacked features, narrowed, with 24 rows of the converted integer zero appended. -/
theorem V_v36 (c : Dev nD) :
    (V m c main_v36 : S9216x512.Idx → EReal)
      = pad S9216x512 ![0, 0] ![24, 0] ![0, 0] (truncf (F := Ideal) .bf16 (FA m c) bitsLt_bf16_f32 : S9192x512.Idx → EReal)
          (sitofp (F := Ideal) .bf16 (constantI S_ 32 0#32) : S_.Idx → EReal) pads_S9192x512_S9216x512_0240_000 h_S_ := by
  rw [V_eq]; simp only [hostOps0_1, hostOps0_2, hostOps0_3, hostOps0_4, hostOps0_5, hostOps0_6, hostOps0_7, hostOps0_8, hostOps0_9, List.flatten_cons, List.flatten_nil, List.append_nil, List.cons_append, List.nil_append]; host_simp
  simp only [StableHlo.TRef.ofBuf, StableHlo.TRef.toBuf, cast_eq, id_eq]
  rfl

/-- The labels as a row, with 24 entries of the word -1 appended. -/
theorem V_v37 (c : Dev nD) :
    (V m c main_v37 : S1x9216.Idx → BitVec 32)
      = pad S1x9216 ![0, 0] ![0, 24] ![0, 0] (shapeCast S1x9192 (LAB m c) shapeCasts_S9192_S1x9192)
          (constantI S_ 32 4294967295#32) pads_S1x9192_S1x9216_000_0240 h_S_ := by
  rw [V_eq]; simp only [hostOps0_1, hostOps0_2, hostOps0_3, hostOps0_4, hostOps0_5, hostOps0_6, hostOps0_7, hostOps0_8, hostOps0_9, List.flatten_cons, List.flatten_nil, List.append_nil, List.cons_append, List.nil_append]; host_simp
  rw [afterFirst_v2]
  simp only [StableHlo.TRef.ofBuf, StableHlo.TRef.toBuf, cast_eq, id_eq]
  rfl

/-- The reciprocal weights as a row, with 24 zeros appended. -/
theorem V_v38 (c : Dev nD) :
    (V m c main_v38 : S1x9216.Idx → EReal)
      = pad S1x9216 ![0, 0] ![0, 24] ![0, 0] (shapeCast S1x9192 (recipW m c) shapeCasts_S9192_S1x9192)
          (constant (F := Ideal) S_ .f32 0x00000000#32) pads_S1x9192_S1x9216_000_0240 h_S_ := by
  rw [V_eq]; simp only [hostOps0_1, hostOps0_2, hostOps0_3, hostOps0_4, hostOps0_5, hostOps0_6, hostOps0_7, hostOps0_8, hostOps0_9, List.flatten_cons, List.flatten_nil, List.append_nil, List.cons_append, List.nil_append]; host_simp
  rw [afterFirst_v21]
  simp only [StableHlo.TRef.ofBuf, StableHlo.TRef.toBuf, cast_eq, id_eq]
  rfl

/-- The guarded reciprocals as a row, with 24 zeros appended. -/
theorem V_v39 (c : Dev nD) :
    (V m c main_v39 : S1x9216.Idx → EReal)
      = pad S1x9216 ![0, 0] ![0, 24] ![0, 0]
          (shapeCast S1x9192 (select (gtOne m c) (recipWm1 m c) zerosVec : S9192.Idx → EReal) shapeCasts_S9192_S1x9192)
          (constant (F := Ideal) S_ .f32 0x00000000#32) pads_S1x9192_S1x9216_000_0240 h_S_ := by
  rw [V_eq]; simp only [hostOps0_1, hostOps0_2, hostOps0_3, hostOps0_4, hostOps0_5, hostOps0_6, hostOps0_7, hostOps0_8, hostOps0_9, List.flatten_cons, List.flatten_nil, List.append_nil, List.cons_append, List.nil_append]; host_simp
  rw [afterFirst_v23, afterFirst_v27, afterFirst_cst_9]
  simp only [StableHlo.TRef.ofBuf, StableHlo.TRef.toBuf, cast_eq, id_eq]
  rfl

/-! ## The constants and the named vectors at an index -/

/-- The word 0x3F800000 denotes the real one: sign 0, exponent field 127, fraction 0. -/
theorem one_word : Ideal.ofBits .f32 0x3F800000#32 = 1 := by
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  show Ideal.ieee 8 23 (0x3F800000#32 : BitVec 32) = 1
  unfold Ideal.ieee
  simp only [hs, he, hf]
  norm_num

theorem onesVec_apply (i : S9192.Idx) : onesVec i = 1 := one_word
theorem zerosVec_apply (i : S9192.Idx) : zerosVec i = 0 := Ideal.ofBits_zero_f32
theorem recipW_apply (c : Dev nD) (i : S9192.Idx) : recipW m c i = Ideal.div 1 (WT m c i) := by
  show Ideal.div (onesVec i) (WT m c i) = _
  rw [onesVec_apply]
theorem recipWm1_apply (c : Dev nD) (i : S9192.Idx) : recipWm1 m c i = Ideal.div 1 (WT m c i - 1) := by
  show Ideal.div (onesVec i) (WT m c i - onesVec i) = _
  rw [onesVec_apply]
theorem gtOne_apply (c : Dev nD) (i : S9192.Idx) : gtOne m c i = BitVec.ofBool (decide (1 < WT m c i)) := by
  show Ideal.cmp .ogt (WT m c i) (onesVec i) = _
  rw [onesVec_apply]
  rfl

/-- A select on a decided comparison is the `if`. -/
theorem select_ofBool {α : Type} (p : Prop) [Decidable p] (A B : α) :
    Scalar.select (BitVec.ofBool (decide p)) A B = if p then A else B := by
  by_cases hp : p
  · rw [if_pos hp, decide_eq_true hp]; rfl
  · rw [if_neg hp, decide_eq_false hp]; rfl

/-! ## Rows and padded rows at an index -/

/-- A vector of 9192 entries as a one-row matrix, read at a column. -/
theorem row_apply {α : Type} (x : S9192.Idx → α) (j : Fin 9192) :
    shapeCast S1x9192 x shapeCasts_S9192_S1x9192 (ix2 0 j) = x (ix1 j) :=
  shapeCast_apply x shapeCasts_S9192_S1x9192 (ix2 0 j) (ix1 j) (by
    rw [Shape.rowMajor_val_one, Shape.rowMajor_val_two]
    show j.val = 0 * 9192 + j.val
    omega)

/-- A one-row matrix of 9192 columns padded to 9216 columns, read at a column: the operand below column 9192, the
    padding value from there on. -/
theorem padRow_apply {α : Type} (x : S1x9192.Idx → α) (v : S_.Idx → α) (j : Fin 9216) :
    pad S1x9216 ![0, 0] ![0, 24] ![0, 0] x v pads_S1x9192_S1x9216_000_0240 h_S_ (ix2 0 j)
      = if h : j.val < 9192 then x (ix2 0 ⟨j.val, h⟩) else v ix0 := by
  by_cases h : j.val < 9192
  · rw [dif_pos h]
    exact pad_apply_of_inside _ _ _ x v pads_S1x9192_S1x9216_000_0240 h_S_ (ix2 0 j) (ix2 0 ⟨j.val, h⟩) (fun a =>
      match a with
      | ⟨0, _⟩ => by show (0 : Nat) = 0 + 0 * (0 + 1); omega
      | ⟨1, _⟩ => by show j.val = 0 + j.val * (0 + 1); omega)
  · rw [dif_neg h]
    refine (pad_apply_of_not_inside _ _ _ x v pads_S1x9192_S1x9216_000_0240 h_S_ (ix2 0 j) (1 : Fin 2) (fun hin => h ?_)).trans
      (congrArg v (eq_ix0 _))
    have e : (j.val - 0) / (0 + 1) < 9192 := hin.2.2
    omega

/-! ## The six arrays at an index -/

theorem v30_apply (c : Dev nD) (i : Fin 4096) (k : Fin 512) :
    (V m c main_v30 : S4096x512.Idx → EReal) (ix2 i k) = a1 m c (ix2 i k) := by
  rw [V_v30]; rfl

theorem v36_apply (c : Dev nD) (j : Fin 9216) (k : Fin 512) :
    (V m c main_v36 : S9216x512.Idx → EReal) (ix2 j k) = if h : j.val < 9192 then FA m c (ix2 ⟨j.val, h⟩ k) else 0 := by
  rw [V_v36]
  by_cases h : j.val < 9192
  · rw [dif_pos h]
    exact pad_apply_of_inside _ _ _ _ _ pads_S9192x512_S9216x512_0240_000 h_S_ (ix2 j k) (ix2 ⟨j.val, h⟩ k) (fun a =>
      match a with
      | ⟨0, _⟩ => by show j.val = 0 + j.val * (0 + 1); omega
      | ⟨1, _⟩ => by show k.val = 0 + k.val * (0 + 1); omega)
  · rw [dif_neg h]
    refine (pad_apply_of_not_inside _ _ _ _ _ pads_S9192x512_S9216x512_0240_000 h_S_ (ix2 j k) (0 : Fin 2) (fun hin => h ?_)).trans ?_
    · have e : (j.val - 0) / (0 + 1) < 9192 := hin.2.2
      omega
    · show (((0#32 : BitVec 32).toInt : ℝ) : EReal) = 0
      have e0 : (0#32 : BitVec 32).toInt = 0 := by decide
      rw [e0, Int.cast_zero, EReal.coe_zero]

theorem v32_apply (c : Dev nD) (i : Fin 4096) :
    (V m c main_v32 : S4096x1.Idx → BitVec 32) (ix2 i 0) = a2 m c (ix1 i) := by
  rw [V_v32]
  exact shapeCast_apply (a2 m c) shapeCasts_S4096_S4096x1 (ix2 i 0) (ix1 i) (by
    rw [Shape.rowMajor_val_one, Shape.rowMajor_val_two]
    show i.val = i.val * 1 + 0
    omega)

theorem v37_apply (c : Dev nD) (j : Fin 9216) :
    (V m c main_v37 : S1x9216.Idx → BitVec 32) (ix2 0 j) = if h : j.val < 9192 then LAB m c (ix1 ⟨j.val, h⟩) else 4294967295#32 := by
  rw [V_v37, padRow_apply]
  by_cases h : j.val < 9192
  · rw [dif_pos h, dif_pos h, row_apply]
  · rw [dif_neg h, dif_neg h]; rfl

theorem v38_apply (c : Dev nD) (j : Fin 9216) :
    (V m c main_v38 : S1x9216.Idx → EReal) (ix2 0 j) = if h : j.val < 9192 then Ideal.div 1 (WT m c (ix1 ⟨j.val, h⟩)) else 0 := by
  rw [V_v38, padRow_apply]
  by_cases h : j.val < 9192
  · rw [dif_pos h, dif_pos h, row_apply, recipW_apply]
  · rw [dif_neg h, dif_neg h]
    exact Ideal.ofBits_zero_f32

theorem v39_apply (c : Dev nD) (j : Fin 9216) :
    (V m c main_v39 : S1x9216.Idx → EReal) (ix2 0 j)
      = if h : j.val < 9192 then (if 1 < WT m c (ix1 ⟨j.val, h⟩) then Ideal.div 1 (WT m c (ix1 ⟨j.val, h⟩) - 1) else 0) else 0 := by
  rw [V_v39, padRow_apply]
  by_cases h : j.val < 9192
  · rw [dif_pos h, dif_pos h, row_apply, select_apply, gtOne_apply, recipWm1_apply, zerosVec_apply, select_ofBool]
  · rw [dif_neg h, dif_neg h]
    exact Ideal.ofBits_zero_f32

end Cert.KernelIdeal.HostVals

end
-- ==== Proof.KI.Blocks.lean ====
/-
  The grid's 32 points are 8 row blocks of 512 anchors by 4 column blocks of 2304 columns. At the point of row block I and
  column block J the windows' blocks are: rows I*512 .. of the batch features and of the target column, and rows or
  columns J*2304 .. of the padded stacked features, labels and reciprocal weights. The output array's row I*512 + r is
  what the body stored at the last column block of row block I.
-/
import proofs.«429414_j30889404793117_3_alg».proof.Proof.KI.Frame
import Idealize.ShloMosaic.Lib.ValueIdx
import Idealize.ShloMosaic.Lib.Pipeline.Value

set_option maxRecDepth 16384

noncomputable section

namespace Cert.KernelIdeal.Blocks

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The grid point of row block I and column block J (the grid is walked row block by row block). -/
def pt (I : Fin 8) (J : Fin 4) : Fin cfg0.N := ⟨4 * I.val + J.val, by show 4 * I.val + J.val < grid0.N; rw [N_0]; omega⟩
/-- Global row number of row r of row block I; global (padded) column number of column cc of column block J. -/
def gRow (I : Fin 8) (r : Fin 512) : Fin 4096 := ⟨I.val * 512 + r.val, by omega⟩
def gCol (J : Fin 4) (cc : Fin 2304) : Fin 9216 := ⟨J.val * 2304 + cc.val, by omega⟩

theorem pt_val (I : Fin 8) (J : Fin 4) : (pt I J).val = 4 * I.val + J.val := rfl

/-- The grid's coordinates of point t are t / 4 and t % 4, decided over the 32 points. -/
theorem coords_facts : ∀ t : Fin cfg0.N, ((grid0.coords t) 0).val = t.val / 4 ∧ ((grid0.coords t) 1).val = t.val % 4 :=
  (by decide +kernel : ∀ t : Fin grid0.N, ((grid0.coords t) 0).val = t.val / 4 ∧ ((grid0.coords t) 1).val = t.val % 4)

/-- The point's grid coordinates are its row block and its column block. -/
theorem coords_pt (I : Fin 8) (J : Fin 4) : ((grid0.coords (pt I J)) 0).val = I.val ∧ ((grid0.coords (pt I J)) 1).val = J.val := by
  obtain ⟨h0, h1⟩ := coords_facts (pt I J)
  rw [h0, h1, pt_val]
  have hI := I.isLt
  have hJ := J.isLt
  constructor <;> omega

/-- The windows' block indices at point t, decided over the 32 points: the row-blocked windows sit at block row t / 4,
    the column-blocked ones at block row or block column t % 4, and every other block index is 0. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = 0 ∧ win0_4.index t (1 : Fin 2) = t.val % 4
    ∧ win0_5.index t (0 : Fin 2) = 0 ∧ win0_5.index t (1 : Fin 2) = t.val % 4
    ∧ win0_6.index t (0 : Fin 2) = t.val / 4 ∧ win0_6.index t (1 : Fin 2) = 0 :=
  (by decide +kernel : ∀ t : Fin grid0.N, _)

theorem blk0 (c : Dev nD) (I : Fin 8) (J : Fin 4) (r : Fin 512) (k : Fin 512) :
    (iblk m c 0 (pt I J) : S512x512.Idx → EReal) (ix2 r k) = (V m c main_v30 : S4096x512.Idx → EReal) (ix2 (gRow I r) k) := by
  obtain ⟨e0, e1, -⟩ := idx_facts (pt I J)
  have hI := I.isLt
  have hJ := J.isLt
  show V m c main_v30 (((cfg0.win 0).blk (pt I J)).view.emb (ix2 r k)) = V m c main_v30 (ix2 (gRow I r) k)
  refine congrArg _ ?_
  funext a
  apply Fin.ext
  match a with
  | ⟨0, _⟩ => show win0_0.index (pt I J) (0 : Fin 2) * 512 + 1 * r.val = I.val * 512 + r.val; rw [e0, pt_val]; omega
  | ⟨1, _⟩ => show win0_0.index (pt I J) (1 : Fin 2) * 512 + 1 * k.val = k.val; rw [e1]; omega

theorem blk1 (c : Dev nD) (I : Fin 8) (J : Fin 4) (cc : Fin 2304) (k : Fin 512) :
    (iblk m c 1 (pt I J) : S2304x512.Idx → EReal) (ix2 cc k) = (V m c main_v36 : S9216x512.Idx → EReal) (ix2 (gCol J cc) k) := by
  obtain ⟨-, -, e0, e1, -⟩ := idx_facts (pt I J)
  have hI := I.isLt
  have hJ := J.isLt
  show V m c main_v36 (((cfg0.win 1).blk (pt I J)).view.emb (ix2 cc k)) = V m c main_v36 (ix2 (gCol J cc) k)
  refine congrArg _ ?_
  funext a
  apply Fin.ext
  match a with
  | ⟨0, _⟩ => show win0_1.index (pt I J) (0 : Fin 2) * 2304 + 1 * cc.val = J.val * 2304 + cc.val; rw [e0, pt_val]; omega
  | ⟨1, _⟩ => show win0_1.index (pt I J) (1 : Fin 2) * 512 + 1 * k.val = k.val; rw [e1]; omega

theorem blk2 (c : Dev nD) (I : Fin 8) (J : Fin 4) (r : Fin 512) :
    (iblk m c 2 (pt I J) : S512x1.Idx → BitVec 32) (ix2 r 0) = (V m c main_v32 : S4096x1.Idx → BitVec 32) (ix2 (gRow I r) 0) := by
  obtain ⟨-, -, -, -, e0, e1, -⟩ := idx_facts (pt I J)
  have hI := I.isLt
  have hJ := J.isLt
  show V m c main_v32 (((cfg0.win 2).blk (pt I J)).view.emb (ix2 r 0)) = V m c main_v32 (ix2 (gRow I r) 0)
  refine congrArg _ ?_
  funext a
  apply Fin.ext
  match a with
  | ⟨0, _⟩ => show win0_2.index (pt I J) (0 : Fin 2) * 512 + 1 * r.val = I.val * 512 + r.val; rw [e0, pt_val]; omega
  | ⟨1, _⟩ => show win0_2.index (pt I J) (1 : Fin 2) * 1 + 1 * 0 = 0; rw [e1]

theorem blk3 (c : Dev nD) (I : Fin 8) (J : Fin 4) (cc : Fin 2304) :
    (iblk m c 3 (pt I J) : S1x2304.Idx → BitVec 32) (ix2 0 cc) = (V m c main_v37 : S1x9216.Idx → BitVec 32) (ix2 0 (gCol J cc)) := by
  obtain ⟨-, -, -, -, -, -, e0, e1, -⟩ := idx_facts (pt I J)
  have hI := I.isLt
  have hJ := J.isLt
  show V m c main_v37 (((cfg0.win 3).blk (pt I J)).view.emb (ix2 0 cc)) = V m c main_v37 (ix2 0 (gCol J cc))
  refine congrArg _ ?_
  funext a
  apply Fin.ext
  match a with
  | ⟨0, _⟩ => show win0_3.index (pt I J) (0 : Fin 2) * 1 + 1 * 0 = 0; rw [e0]
  | ⟨1, _⟩ => show win0_3.index (pt I J) (1 : Fin 2) * 2304 + 1 * cc.val = J.val * 2304 + cc.val; rw [e1, pt_val]; omega

theorem blk4 (c : Dev nD) (I : Fin 8) (J : Fin 4) (cc : Fin 2304) :
    (iblk m c 4 (pt I J) : S1x2304.Idx → EReal) (ix2 0 cc) = (V m c main_v38 : S1x9216.Idx → EReal) (ix2 0 (gCol J cc)) := by
  obtain ⟨-, -, -, -, -, -, -, -, e0, e1, -⟩ := idx_facts (pt I J)
  have hI := I.isLt
  have hJ := J.isLt
  show V m c main_v38 (((cfg0.win 4).blk (pt I J)).view.emb (ix2 0 cc)) = V m c main_v38 (ix2 0 (gCol J cc))
  refine congrArg _ ?_
  funext a
  apply Fin.ext
  match a with
  | ⟨0, _⟩ => show win0_4.index (pt I J) (0 : Fin 2) * 1 + 1 * 0 = 0; rw [e0]
  | ⟨1, _⟩ => show win0_4.index (pt I J) (1 : Fin 2) * 2304 + 1 * cc.val = J.val * 2304 + cc.val; rw [e1, pt_val]; omega

theorem blk5 (c : Dev nD) (I : Fin 8) (J : Fin 4) (cc : Fin 2304) :
    (iblk m c 5 (pt I J) : S1x2304.Idx → EReal) (ix2 0 cc) = (V m c main_v39 : S1x9216.Idx → EReal) (ix2 0 (gCol J cc)) := by
  obtain ⟨-, -, -, -, -, -, -, -, -, -, e0, e1, -⟩ := idx_facts (pt I J)
  have hI := I.isLt
  have hJ := J.isLt
  show V m c main_v39 (((cfg0.win 5).blk (pt I J)).view.emb (ix2 0 cc)) = V m c main_v39 (ix2 0 (gCol J cc))
  refine congrArg _ ?_
  funext a
  apply Fin.ext
  match a with
  | ⟨0, _⟩ => show win0_5.index (pt I J) (0 : Fin 2) * 1 + 1 * 0 = 0; rw [e0]
  | ⟨1, _⟩ => show win0_5.index (pt I J) (1 : Fin 2) * 2304 + 1 * cc.val = J.val * 2304 + cc.val; rw [e1, pt_val]; omega

/-- A row of the output array is in point t's output block iff it is one of the 512 rows from row 512 * (block row). -/
theorem mem_out_blk (t : Fin cfg0.N) (i : S4096x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v40).slice (win0_6.rect t)).set ↔ _
  rw [View.set_slice_whole, Rect.mem_set_unit]
  exact Iff.rfl

/-- Two different points that write the output back (both = 3 mod 4) are in different row blocks, so their output blocks
    share no row. -/
theorem out_blks_disjoint (t t' : Fin cfg0.N) (hf : (cfg0.win 6).flush t = true) (hf' : (cfg0.win 6).flush t' = true) (hne : t ≠ t') :
    Disjoint ((cfg0.win 6).blk t).view.set ((cfg0.win 6).blk t').view.set := by
  rw [Finset.disjoint_left]
  intro i hi hi'
  rw [mem_out_blk] at hi hi'
  have h3 : t.val % 4 = 3 := (flush0_6 t).mp hf
  have h3' : t'.val % 4 = 3 := (flush0_6 t').mp hf'
  have hv : t.val ≠ t'.val := fun e => hne (Fin.ext e)
  have b : win0_6.index t (0 : Fin 2) * 512 ≤ (i 0).val ∧ (i 0).val < win0_6.index t (0 : Fin 2) * 512 + 512 := hi 0
  have b' : win0_6.index t' (0 : Fin 2) * 512 ≤ (i 0).val ∧ (i 0).val < win0_6.index t' (0 : Fin 2) * 512 + 512 := hi' 0
  have e := (idx_facts t).2.2.2.2.2.2.2.2.2.2.2.2.1
  have e' := (idx_facts t').2.2.2.2.2.2.2.2.2.2.2.2.1
  rw [e] at b
  rw [e'] at b'
  omega

/-- The output array after the region: row I*512 + r is what the body left in the output block at the last column
    block of row block I (the only point of that row block at which the block is written back). -/
theorem final_row (c : Dev nD) (I : Fin 8) (r : Fin 512) :
    ((dats m 0 c).arrAt 6 cfg0.N : S4096x1.Idx → EReal) (ix2 (gRow I r) 0)
      = ((outsAt0 m c (pt I 3).val (pt I 3).isLt).1 : S512x1.Idx → EReal) (ix2 r 0) := by
  have hI := I.isLt
  have hf : (cfg0.win 6).flush (pt I 3) = true := (flush0_6 (pt I 3)).mpr (by rw [pt_val]; show (4 * I.val + 3) % 4 = 3; omega)
  have e0 := (idx_facts (pt I 3)).2.2.2.2.2.2.2.2.2.2.2.2.1
  have e1 := (idx_facts (pt I 3)).2.2.2.2.2.2.2.2.2.2.2.2.2
  have hemb : ((cfg0.win 6).blk (pt I 3)).view.emb (ix2 r 0 : S512x1.Idx) = (ix2 (gRow I r) 0 : S4096x1.Idx) := by
    funext a
    apply Fin.ext
    match a with
    | ⟨0, _⟩ => show win0_6.index (pt I 3) (0 : Fin 2) * 512 + 1 * r.val = I.val * 512 + r.val; rw [e0, pt_val]; show (4 * I.val + 3) / 4 * 512 + 1 * r.val = _; omega
    | ⟨1, _⟩ => show win0_6.index (pt I 3) (1 : Fin 2) * 1 + 1 * 0 = 0; rw [e1]
  rw [← hemb]
  refine ((dats m 0 c).arrAt_emb_eq_flushed 6 (out_blks_disjoint) (pt I 3) hf (ix2 r 0)).trans ?_
  rw [cast_eq]
  show (dats m 0 c).after 6 (pt I 3) (ix2 r 0) = _
  rw [after0_6]

end Cert.KernelIdeal.Blocks

end
-- ==== Proof.KI.AccSums.lean ====
/-
  The accumulators over a row block: at its first column block they are reset and the block's partial sums added, at each
  later one the block's partial sums are added to what the point before left; so after the last column block each holds
  the sum over the four blocks of its partial sums, and the stored row value is the first over the second minus the
  logarithm of the third.
-/
import proofs.«429414_j30889404793117_3_alg».proof.Proof.Spec
import proofs.«429414_j30889404793117_3_alg».proof.Proof.KI.Pieces
import proofs.«429414_j30889404793117_3_alg».proof.Proof.KI.PayloadA
import proofs.«429414_j30889404793117_3_alg».proof.Proof.KI.PayloadB
import proofs.«429414_j30889404793117_3_alg».proof.Proof.KI.Blocks

set_option maxRecDepth 16384

noncomputable section

namespace Cert.KernelIdeal.AccSums

open Cert.KernelIdeal Cert.KernelIdeal.Gen Cert.KernelIdeal.Hand Cert.KernelIdeal.Blocks Cert.KernelIdeal.Payload
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- For row r of row block I and padded column j: the column is a positive (the row's target equals the column's label
    and the global row and column numbers differ); it is off the diagonal; the scaled similarity; the two reciprocal weights. -/
def posAt (c : Dev nD) (I : Fin 8) (r : Fin 512) (j : Fin 9216) : Bool :=
  decide ((V m c main_v32 : S4096x1.Idx → BitVec 32) (ix2 (gRow I r) 0) = (V m c main_v37 : S1x9216.Idx → BitVec 32) (ix2 0 j)
    ∧ (gRow I r).val ≠ j.val)
def ndAt (I : Fin 8) (r : Fin 512) (j : Fin 9216) : Bool := decide ((gRow I r).val ≠ j.val)
/-- The batch features and the padded stacked features as the region finds them, at their literal types. -/
abbrev featArr (c : Dev nD) : S4096x512.Idx → EReal := V m c main_v30
abbrev stackArr (c : Dev nD) : S9216x512.Idx → EReal := V m c main_v36
def lAt (c : Dev nD) (I : Fin 8) (r : Fin 512) (j : Fin 9216) : EReal :=
  (∑ k : Fin 512, featArr m c (ix2 (gRow I r) k) * stackArr m c (ix2 j k)) * Cert.Spec.invTemp
def invwAt (c : Dev nD) (j : Fin 9216) : EReal := (V m c main_v38 : S1x9216.Idx → EReal) (ix2 0 j)
def invwm1At (c : Dev nD) (j : Fin 9216) : EReal := (V m c main_v39 : S1x9216.Idx → EReal) (ix2 0 j)

/-! ## The input blocks at a point, at their literal types -/

abbrev xb0 (c : Dev nD) (t : Fin cfg0.N) : Vec Ideal S512x512 .bf16 := iblk m c 0 t
abbrev xb1 (c : Dev nD) (t : Fin cfg0.N) : Vec Ideal S2304x512 .bf16 := iblk m c 1 t
abbrev xb2 (c : Dev nD) (t : Fin cfg0.N) : Vec Ideal S512x1 .i32 := iblk m c 2 t
abbrev xb3 (c : Dev nD) (t : Fin cfg0.N) : Vec Ideal S1x2304 .i32 := iblk m c 3 t
abbrev xb4 (c : Dev nD) (t : Fin cfg0.N) : Vec Ideal S1x2304 .f32 := iblk m c 4 t
abbrev xb5 (c : Dev nD) (t : Fin cfg0.N) : Vec Ideal S1x2304 .f32 := iblk m c 5 t

theorem xb0_apply (c : Dev nD) (I : Fin 8) (J : Fin 4) (r : Fin 512) (k : Fin 512) :
    xb0 m c (pt I J) (ix2 r k) = featArr m c (ix2 (gRow I r) k) := blk0 m c I J r k
theorem xb1_apply (c : Dev nD) (I : Fin 8) (J : Fin 4) (cc : Fin 2304) (k : Fin 512) :
    xb1 m c (pt I J) (ix2 cc k) = stackArr m c (ix2 (gCol J cc) k) := blk1 m c I J cc k
theorem xb2_apply (c : Dev nD) (I : Fin 8) (J : Fin 4) (r : Fin 512) :
    xb2 m c (pt I J) (ix2 r 0) = (V m c main_v32 : S4096x1.Idx → BitVec 32) (ix2 (gRow I r) 0) := blk2 m c I J r
theorem xb3_apply (c : Dev nD) (I : Fin 8) (J : Fin 4) (cc : Fin 2304) :
    xb3 m c (pt I J) (ix2 0 cc) = (V m c main_v37 : S1x9216.Idx → BitVec 32) (ix2 0 (gCol J cc)) := blk3 m c I J cc
theorem xb4_apply (c : Dev nD) (I : Fin 8) (J : Fin 4) (cc : Fin 2304) :
    xb4 m c (pt I J) (ix2 0 cc) = invwAt m c (gCol J cc) := blk4 m c I J cc
theorem xb5_apply (c : Dev nD) (I : Fin 8) (J : Fin 4) (cc : Fin 2304) :
    xb5 m c (pt I J) (ix2 0 cc) = invwm1At m c (gCol J cc) := blk5 m c I J cc

/-! ## Row and column numbers at a point -/

theorem rowNo_pt (I : Fin 8) (J : Fin 4) (r : Fin 512) : rowNo (grid0.coords (pt I J)) r = (gRow I r).val := by
  unfold rowNo
  rw [(coords_pt I J).1]
  rfl
theorem colNo_pt (I : Fin 8) (J : Fin 4) (cc : Fin 2304) : colNo (grid0.coords (pt I J)) cc = (gCol J cc).val := by
  unfold colNo
  rw [(coords_pt I J).2]
  rfl

/-! ## The block's partial sums -/

/-- The three partial sums of row r of row block I over column block J: the similarities of the positives, their number,
    and the off-diagonal exponentials each times its selected reciprocal weight. -/
def P0 (c : Dev nD) (I : Fin 8) (J : Fin 4) (r : Fin 512) : EReal :=
  ∑ cc : Fin 2304, Cert.Spec.b2e (posAt m c I r (gCol J cc)) * lAt m c I r (gCol J cc)
def P1 (c : Dev nD) (I : Fin 8) (J : Fin 4) (r : Fin 512) : EReal :=
  ∑ cc : Fin 2304, Cert.Spec.b2e (posAt m c I r (gCol J cc))
def P2 (c : Dev nD) (I : Fin 8) (J : Fin 4) (r : Fin 512) : EReal :=
  ∑ cc : Fin 2304, (if ndAt I r (gCol J cc) then Ideal.exp (lAt m c I r (gCol J cc)) else 0)
    * (if posAt m c I r (gCol J cc) then invwm1At m c (gCol J cc) else invwAt m c (gCol J cc))

/-- The point's positive mask at (r, cc) is the positive predicate at the global row and column. -/
theorem mask_pt (c : Dev nD) (I : Fin 8) (J : Fin 4) (r : Fin 512) (cc : Fin 2304) :
    k0_pay12 (F := Ideal) (grid0.coords (pt I J)) (xb2 m c (pt I J)) (xb3 m c (pt I J)) (ix2 r cc)
      = if posAt m c I r (gCol J cc) then 1#1 else 0#1 := by
  rw [pay12_apply, xb2_apply, xb3_apply, rowNo_pt, colNo_pt]
  unfold posAt
  simp only [decide_eq_true_eq]

/-- A one-bit word chosen by a Boolean is one exactly when the Boolean holds. -/
theorem bit_eq_one (b : Bool) : decide ((if b then (1#1 : BitVec 1) else 0#1) = 1#1) = b := by
  cases b <;> decide

/-- The point's similarity block at (r, cc) is the scaled similarity of the global row and column. -/
theorem sim_pt (c : Dev nD) (I : Fin 8) (J : Fin 4) (r : Fin 512) (cc : Fin 2304) :
    k0_pay9 (F := Ideal) (xb0 m c (pt I J)) (xb1 m c (pt I J)) (ix2 r cc) = lAt m c I r (gCol J cc) := by
  rw [pay9_apply]
  unfold lAt
  refine congrArg (· * Cert.Spec.invTemp) (Finset.sum_congr rfl fun k _ => ?_)
  rw [xb0_apply, xb1_apply]

/-- The first accumulator's update at a point adds the block's first partial sum. -/
theorem pay2_pt (c : Dev nD) (I : Fin 8) (J : Fin 4) (r : Fin 512) (s : Vec Ideal S512x1 .f32) :
    k0_pay2 (F := Ideal) (k0_pay9 (F := Ideal) (xb0 m c (pt I J)) (xb1 m c (pt I J)))
        (k0_pay12 (F := Ideal) (grid0.coords (pt I J)) (xb2 m c (pt I J)) (xb3 m c (pt I J))) s (ix2 r 0)
      = s (ix2 r 0) + P0 m c I J r := by
  rw [pay2_apply]
  unfold P0
  refine congrArg (s (ix2 r 0) + ·) (Finset.sum_congr rfl fun cc _ => ?_)
  rw [mask_pt, sim_pt, bit_eq_one]

/-- The second accumulator's update adds the block's number of positives. -/
theorem pay3_pt (c : Dev nD) (I : Fin 8) (J : Fin 4) (r : Fin 512) (s : Vec Ideal S512x1 .f32) :
    k0_pay3 (F := Ideal) (k0_pay12 (F := Ideal) (grid0.coords (pt I J)) (xb2 m c (pt I J)) (xb3 m c (pt I J))) s (ix2 r 0)
      = s (ix2 r 0) + P1 m c I J r := by
  rw [pay3_apply]
  unfold P1
  refine congrArg (s (ix2 r 0) + ·) (Finset.sum_congr rfl fun cc _ => ?_)
  rw [mask_pt, bit_eq_one]

/-- The third accumulator's update adds the block's weighted exponential sum. -/
theorem pay4_pt (c : Dev nD) (I : Fin 8) (J : Fin 4) (r : Fin 512) (s : Vec Ideal S512x1 .f32) :
    k0_pay4 (F := Ideal) (k0_pay10 (F := Ideal) (xb4 m c (pt I J)))
        (k0_pay12 (F := Ideal) (grid0.coords (pt I J)) (xb2 m c (pt I J)) (xb3 m c (pt I J)))
        (k0_pay13 (F := Ideal) (grid0.coords (pt I J)) (xb0 m c (pt I J)) (xb1 m c (pt I J)))
        (k0_pay14 (F := Ideal) (xb5 m c (pt I J))) s (ix2 r 0)
      = s (ix2 r 0) + P2 m c I J r := by
  rw [pay4_apply]
  unfold P2
  refine congrArg (s (ix2 r 0) + ·) (Finset.sum_congr rfl fun cc _ => ?_)
  rw [mask_pt, pay13_apply, sim_pt, pay14_apply, pay10_apply, xb4_apply, xb5_apply, rowNo_pt, colNo_pt]
  unfold ndAt
  cases posAt m c I r (gCol J cc) <;> simp

/-! ## What a point leaves in the accumulators and the output block -/

/-- The accumulators as the point before position t left them. -/
abbrev prev0 (c : Dev nD) (t : Fin cfg0.N) : Vec Ideal S512x1 .f32 :=
  (outsAt0 m c (t.val - 1) (Nat.lt_of_le_of_lt (Nat.sub_le _ _) t.isLt)).2.1
abbrev prev1 (c : Dev nD) (t : Fin cfg0.N) : Vec Ideal S512x1 .f32 :=
  (outsAt0 m c (t.val - 1) (Nat.lt_of_le_of_lt (Nat.sub_le _ _) t.isLt)).2.2.1
abbrev prev2 (c : Dev nD) (t : Fin cfg0.N) : Vec Ideal S512x1 .f32 :=
  (outsAt0 m c (t.val - 1) (Nat.lt_of_le_of_lt (Nat.sub_le _ _) t.isLt)).2.2.2

/-- The three updates of the body at point t, each as a function of what its accumulator held. -/
abbrev upd0 (c : Dev nD) (t : Fin cfg0.N) (s : Vec Ideal S512x1 .f32) : Vec Ideal S512x1 .f32 :=
  k0_pay2 (F := Ideal) (k0_pay9 (F := Ideal) (xb0 m c t) (xb1 m c t)) (k0_pay12 (F := Ideal) (grid0.coords t) (xb2 m c t) (xb3 m c t)) s
abbrev upd1 (c : Dev nD) (t : Fin cfg0.N) (s : Vec Ideal S512x1 .f32) : Vec Ideal S512x1 .f32 :=
  k0_pay3 (F := Ideal) (k0_pay12 (F := Ideal) (grid0.coords t) (xb2 m c t) (xb3 m c t)) s
abbrev upd2 (c : Dev nD) (t : Fin cfg0.N) (s : Vec Ideal S512x1 .f32) : Vec Ideal S512x1 .f32 :=
  k0_pay4 (F := Ideal) (k0_pay10 (F := Ideal) (xb4 m c t)) (k0_pay12 (F := Ideal) (grid0.coords t) (xb2 m c t) (xb3 m c t))
    (k0_pay13 (F := Ideal) (grid0.coords t) (xb0 m c t) (xb1 m c t)) (k0_pay14 (F := Ideal) (xb5 m c t)) s

/-- At a first column block the first accumulator is its update of the zero block. -/
theorem acc0_first (c : Dev nD) (t : Fin cfg0.N) (h0 : t.val % 4 = 0) (h1 : ¬t.val % 4 = 3) :
    (outsAt0 m c t.val t.isLt).2.1 = upd0 m c t (k0_pay6 (F := Ideal)) := by
  rw [outsAt0_A m c t h0 h1]
  dsimp only
  exact sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem acc1_first (c : Dev nD) (t : Fin cfg0.N) (h0 : t.val % 4 = 0) (h1 : ¬t.val % 4 = 3) :
    (outsAt0 m c t.val t.isLt).2.2.1 = upd1 m c t (k0_pay7 (F := Ideal)) := by
  rw [outsAt0_A m c t h0 h1]
  dsimp only
  exact sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem acc2_first (c : Dev nD) (t : Fin cfg0.N) (h0 : t.val % 4 = 0) (h1 : ¬t.val % 4 = 3) :
    (outsAt0 m c t.val t.isLt).2.2.2 = upd2 m c t (k0_pay8 (F := Ideal)) := by
  rw [outsAt0_A m c t h0 h1]
  dsimp only
  exact sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- At a later column block the first accumulator is its update of what the point before left. -/
theorem acc0_later (c : Dev nD) (t : Fin cfg0.N) (h0 : ¬t.val % 4 = 0) :
    (outsAt0 m c t.val t.isLt).2.1 = upd0 m c t (prev0 m c t) := by
  by_cases h1 : t.val % 4 = 3
  · rw [outsAt0_C m c t h0 h1]
    dsimp only
    exact sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (prev0 m c t) (prev1 m c t) (prev2 m c t)
  · rw [outsAt0_B m c t h0 h1]
    dsimp only
    exact sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (prev0 m c t) (prev1 m c t) (prev2 m c t)

theorem acc1_later (c : Dev nD) (t : Fin cfg0.N) (h0 : ¬t.val % 4 = 0) :
    (outsAt0 m c t.val t.isLt).2.2.1 = upd1 m c t (prev1 m c t) := by
  by_cases h1 : t.val % 4 = 3
  · rw [outsAt0_C m c t h0 h1]
    dsimp only
    exact sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (prev0 m c t) (prev1 m c t) (prev2 m c t)
  · rw [outsAt0_B m c t h0 h1]
    dsimp only
    exact sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (prev0 m c t) (prev1 m c t) (prev2 m c t)

theorem acc2_later (c : Dev nD) (t : Fin cfg0.N) (h0 : ¬t.val % 4 = 0) :
    (outsAt0 m c t.val t.isLt).2.2.2 = upd2 m c t (prev2 m c t) := by
  by_cases h1 : t.val % 4 = 3
  · rw [outsAt0_C m c t h0 h1]
    dsimp only
    exact sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (prev0 m c t) (prev1 m c t) (prev2 m c t)
  · rw [outsAt0_B m c t h0 h1]
    dsimp only
    exact sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (prev0 m c t) (prev1 m c t) (prev2 m c t)

/-- At a last column block the output block is the row value of the three accumulators just updated. -/
theorem out_last (c : Dev nD) (t : Fin cfg0.N) (h0 : ¬t.val % 4 = 0) (h1 : t.val % 4 = 3) :
    (outsAt0 m c t.val t.isLt).1
      = k0_pay5 (F := Ideal) (upd0 m c t (prev0 m c t)) (upd1 m c t (prev1 m c t)) (upd2 m c t (prev2 m c t)) := by
  rw [outsAt0_C m c t h0 h1]
  dsimp only
  exact out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (prev0 m c t) (prev1 m c t) (prev2 m c t)

/-! ## The four column blocks of a row block, chained -/

/-- The contents after a position depend on the position only. -/
theorem outsAt0_congr (c : Dev nD) (n n' : ℕ) (h : n < cfg0.N) (h' : n' < cfg0.N) (e : n = n') :
    outsAt0 m c n h = outsAt0 m c n' h' := by
  subst e
  rfl

theorem pt_mod (I : Fin 8) (J : Fin 4) (j : ℕ) (hj : J.val = j) : (pt I J).val % 4 = j := by
  have hJ := J.isLt
  rw [pt_val]
  omega

theorem pt_pred (I : Fin 8) (J J' : Fin 4) (h : J'.val = J.val + 1) : (pt I J').val - 1 = (pt I J).val := by
  rw [pt_val, pt_val]
  omega

/-- The three accumulators after the point of row block I and column block J, at row r. -/
def a0 (c : Dev nD) (I : Fin 8) (J : Fin 4) (r : Fin 512) : EReal :=
  ((outsAt0 m c (pt I J).val (pt I J).isLt).2.1 : S512x1.Idx → EReal) (ix2 r 0)
def a1 (c : Dev nD) (I : Fin 8) (J : Fin 4) (r : Fin 512) : EReal :=
  ((outsAt0 m c (pt I J).val (pt I J).isLt).2.2.1 : S512x1.Idx → EReal) (ix2 r 0)
def a2 (c : Dev nD) (I : Fin 8) (J : Fin 4) (r : Fin 512) : EReal :=
  ((outsAt0 m c (pt I J).val (pt I J).isLt).2.2.2 : S512x1.Idx → EReal) (ix2 r 0)

theorem a0_zero (c : Dev nD) (I : Fin 8) (r : Fin 512) : a0 m c I 0 r = 0 + P0 m c I 0 r := by
  unfold a0
  rw [acc0_first m c (pt I 0) (pt_mod I 0 0 rfl) (by rw [pt_mod I 0 0 rfl]; omega)]
  refine (pay2_pt m c I 0 r (k0_pay6 (F := Ideal))).trans ?_
  rw [pay6_apply]
theorem a1_zero (c : Dev nD) (I : Fin 8) (r : Fin 512) : a1 m c I 0 r = 0 + P1 m c I 0 r := by
  unfold a1
  rw [acc1_first m c (pt I 0) (pt_mod I 0 0 rfl) (by rw [pt_mod I 0 0 rfl]; omega)]
  refine (pay3_pt m c I 0 r (k0_pay7 (F := Ideal))).trans ?_
  rw [pay7_apply]
theorem a2_zero (c : Dev nD) (I : Fin 8) (r : Fin 512) : a2 m c I 0 r = 0 + P2 m c I 0 r := by
  unfold a2
  rw [acc2_first m c (pt I 0) (pt_mod I 0 0 rfl) (by rw [pt_mod I 0 0 rfl]; omega)]
  refine (pay4_pt m c I 0 r (k0_pay8 (F := Ideal))).trans ?_
  rw [pay8_apply]

theorem a0_succ (c : Dev nD) (I : Fin 8) (J J' : Fin 4) (h : J'.val = J.val + 1) (r : Fin 512) :
    a0 m c I J' r = a0 m c I J r + P0 m c I J' r := by
  have h0 : ¬(pt I J').val % 4 = 0 := by rw [pt_mod I J' _ h]; omega
  unfold a0
  rw [acc0_later m c (pt I J') h0]
  refine (pay2_pt m c I J' r (prev0 m c (pt I J'))).trans (congrArg (· + P0 m c I J' r) ?_)
  exact congrFun (congrArg (fun x => x.2.1)
    (outsAt0_congr m c ((pt I J').val - 1) (pt I J).val (Nat.lt_of_le_of_lt (Nat.sub_le _ _) (pt I J').isLt) (pt I J).isLt (pt_pred I J J' h))) (ix2 r 0)
theorem a1_succ (c : Dev nD) (I : Fin 8) (J J' : Fin 4) (h : J'.val = J.val + 1) (r : Fin 512) :
    a1 m c I J' r = a1 m c I J r + P1 m c I J' r := by
  have h0 : ¬(pt I J').val % 4 = 0 := by rw [pt_mod I J' _ h]; omega
  unfold a1
  rw [acc1_later m c (pt I J') h0]
  refine (pay3_pt m c I J' r (prev1 m c (pt I J'))).trans (congrArg (· + P1 m c I J' r) ?_)
  exact congrFun (congrArg (fun x => x.2.2.1)
    (outsAt0_congr m c ((pt I J').val - 1) (pt I J).val (Nat.lt_of_le_of_lt (Nat.sub_le _ _) (pt I J').isLt) (pt I J).isLt (pt_pred I J J' h))) (ix2 r 0)
theorem a2_succ (c : Dev nD) (I : Fin 8) (J J' : Fin 4) (h : J'.val = J.val + 1) (r : Fin 512) :
    a2 m c I J' r = a2 m c I J r + P2 m c I J' r := by
  have h0 : ¬(pt I J').val % 4 = 0 := by rw [pt_mod I J' _ h]; omega
  unfold a2
  rw [acc2_later m c (pt I J') h0]
  refine (pay4_pt m c I J' r (prev2 m c (pt I J'))).trans (congrArg (· + P2 m c I J' r) ?_)
  exact congrFun (congrArg (fun x => x.2.2.2)
    (outsAt0_congr m c ((pt I J').val - 1) (pt I J).val (Nat.lt_of_le_of_lt (Nat.sub_le _ _) (pt I J').isLt) (pt I J).isLt (pt_pred I J J' h))) (ix2 r 0)

/-- After the last column block each accumulator holds the sum of its four partial sums. -/
theorem a0_last (c : Dev nD) (I : Fin 8) (r : Fin 512) : a0 m c I 3 r = ∑ J : Fin 4, P0 m c I J r := by
  rw [a0_succ m c I 2 3 rfl r, a0_succ m c I 1 2 rfl r, a0_succ m c I 0 1 rfl r, a0_zero m c I r, Fin.sum_univ_four, zero_add]
theorem a1_last (c : Dev nD) (I : Fin 8) (r : Fin 512) : a1 m c I 3 r = ∑ J : Fin 4, P1 m c I J r := by
  rw [a1_succ m c I 2 3 rfl r, a1_succ m c I 1 2 rfl r, a1_succ m c I 0 1 rfl r, a1_zero m c I r, Fin.sum_univ_four, zero_add]
theorem a2_last (c : Dev nD) (I : Fin 8) (r : Fin 512) : a2 m c I 3 r = ∑ J : Fin 4, P2 m c I J r := by
  rw [a2_succ m c I 2 3 rfl r, a2_succ m c I 1 2 rfl r, a2_succ m c I 0 1 rfl r, a2_zero m c I r, Fin.sum_univ_four, zero_add]

/-- What the body stores for row r at the last column block of row block I. -/
theorem acc_last (c : Dev nD) (I : Fin 8) (r : Fin 512) :
    ((outsAt0 m c (pt I 3).val (pt I 3).isLt).1 : S512x1.Idx → EReal) (ix2 r 0)
      = Ideal.div (∑ J : Fin 4, ∑ cc : Fin 2304, Cert.Spec.b2e (posAt m c I r (gCol J cc)) * lAt m c I r (gCol J cc))
          (∑ J : Fin 4, ∑ cc : Fin 2304, Cert.Spec.b2e (posAt m c I r (gCol J cc)))
        - Ideal.log (∑ J : Fin 4, ∑ cc : Fin 2304,
            (if ndAt I r (gCol J cc) then Ideal.exp (lAt m c I r (gCol J cc)) else 0)
              * (if posAt m c I r (gCol J cc) then invwm1At m c (gCol J cc) else invwAt m c (gCol J cc))) := by
  have h3 : (pt I 3).val % 4 = 3 := pt_mod I 3 3 rfl
  have h0 : ¬(pt I 3).val % 4 = 0 := by rw [h3]; omega
  rw [out_last m c (pt I 3) h0 h3]
  refine (pay5_apply _ _ _ r).trans ?_
  rw [← acc0_later m c (pt I 3) h0, ← acc1_later m c (pt I 3) h0, ← acc2_later m c (pt I 3) h0]
  refine Eq.trans (b := Ideal.div (a0 m c I 3 r) (a1 m c I 3 r) - Ideal.log (a2 m c I 3 r)) rfl ?_
  rw [a0_last, a1_last, a2_last]
  rfl

end Cert.KernelIdeal.AccSums

end
-- ==== Proof.Regroup.lean ====
/-
  Four block sums over 2304 columns each are one sum over the 9216 padded columns, and a padded column adds nothing:
  it is never a positive (its label is no anchor's), so it adds nothing to the label-weighted sum or to the count, and both
  its reciprocal weights are zero, so it adds nothing to the weighted exponential sum. What is left is the kernel row
  value over the 9192 real columns.
-/
import proofs.«429414_j30889404793117_3_alg».proof.Proof.Spec
import Mathlib.Algebra.BigOperators.Fin
import Mathlib.Data.Fintype.BigOperators
import Mathlib.Logic.Equiv.Fin.Basic

noncomputable section

namespace Cert.Spec

open Idealize.ShloMosaic

/-- Column cc of column block J among the 9216 padded columns. -/
def padCol (J : Fin 4) (cc : Fin 2304) : Fin 9216 := ⟨J.val * 2304 + cc.val, by omega⟩

/-- (J, cc) ↦ J·2304 + cc is a bijection of the 4 × 2304 block positions onto the 9216 padded columns: the sum over
    the blocks of the sums within a block is the sum over all padded columns. -/
theorem sum_blocks (f : Fin 9216 → EReal) :
    (∑ J : Fin 4, ∑ cc : Fin 2304, f (padCol J cc)) = ∑ j : Fin 9216, f j := by
  rw [← Fintype.sum_prod_type']
  refine Fintype.sum_equiv (finProdFinEquiv (m := 4) (n := 2304)) _ _ (fun x => ?_)
  congr 1
  apply Fin.ext
  simp only [padCol, finProdFinEquiv_apply_val]
  omega

/-- A sum over the padded columns whose terms vanish at the 24 pad columns is the sum over the 9192 real columns. -/
theorem sum_pad (f : Fin 9216 → EReal) (g : Fin 9192 → EReal)
    (hreal : ∀ (j : Fin 9216) (h : j.val < 9192), f j = g ⟨j.val, h⟩)
    (hpad : ∀ j : Fin 9216, ¬ j.val < 9192 → f j = 0) :
    ∑ j : Fin 9216, f j = ∑ j : Fin 9192, g j := by
  have htr := Fin.sum_trunc (a := 9192) (b := 24) f
    (fun j => hpad (Fin.natAdd 9192 j) (by simp only [Fin.coe_natAdd]; omega))
  refine htr.trans (Finset.sum_congr rfl (fun i _ => ?_))
  exact hreal (Fin.castAdd 24 i) i.isLt

/-- Both steps at once. -/
theorem sum_blocks_pad (f : Fin 9216 → EReal) (g : Fin 9192 → EReal)
    (hreal : ∀ (j : Fin 9216) (h : j.val < 9192), f j = g ⟨j.val, h⟩)
    (hpad : ∀ j : Fin 9216, ¬ j.val < 9192 → f j = 0) :
    (∑ J : Fin 4, ∑ cc : Fin 2304, f (padCol J cc)) = ∑ j : Fin 9192, g j :=
  (sum_blocks f).trans (sum_pad f g hreal hpad)

theorem regroup (eq dg : Fin 9192 → Bool) (w l : Fin 9192 → EReal)
    (posP ndP : Fin 9216 → Bool) (lP invwP invwm1P : Fin 9216 → EReal)
    (hpos : ∀ (j : Fin 9216) (h : j.val < 9192), posP j = (eq ⟨j.val, h⟩ && !dg ⟨j.val, h⟩))
    (hposPad : ∀ j : Fin 9216, ¬ j.val < 9192 → posP j = false)
    (hnd : ∀ (j : Fin 9216) (h : j.val < 9192), ndP j = !dg ⟨j.val, h⟩)
    (hl : ∀ (j : Fin 9216) (h : j.val < 9192), lP j = l ⟨j.val, h⟩)
    (hinvw : ∀ (j : Fin 9216) (h : j.val < 9192), invwP j = Ideal.div 1 (w ⟨j.val, h⟩))
    (hinvwPad : ∀ j : Fin 9216, ¬ j.val < 9192 → invwP j = 0)
    (hinvwm1 : ∀ (j : Fin 9216) (h : j.val < 9192), invwm1P j = if 1 < w ⟨j.val, h⟩ then Ideal.div 1 (w ⟨j.val, h⟩ - 1) else 0)
    (hinvwm1Pad : ∀ j : Fin 9216, ¬ j.val < 9192 → invwm1P j = 0) :
    Ideal.div (∑ J : Fin 4, ∑ cc : Fin 2304, b2e (posP (padCol J cc)) * lP (padCol J cc))
        (∑ J : Fin 4, ∑ cc : Fin 2304, b2e (posP (padCol J cc)))
      - Ideal.log (∑ J : Fin 4, ∑ cc : Fin 2304,
          (if ndP (padCol J cc) then Ideal.exp (lP (padCol J cc)) else 0)
            * (if posP (padCol J cc) then invwm1P (padCol J cc) else invwP (padCol J cc)))
      = kerRow eq dg w l := by
  have hA : (∑ J : Fin 4, ∑ cc : Fin 2304, b2e (posP (padCol J cc)) * lP (padCol J cc))
      = ∑ j : Fin 9192, b2e (eq j && !dg j) * l j :=
    sum_blocks_pad (fun j => b2e (posP j) * lP j) (fun j => b2e (eq j && !dg j) * l j)
      (fun j h => by simp only [hpos j h, hl j h])
      (fun j h => by simp only [hposPad j h, b2e, Bool.false_eq_true, if_false, zero_mul])
  have hB : (∑ J : Fin 4, ∑ cc : Fin 2304, b2e (posP (padCol J cc)))
      = ∑ j : Fin 9192, b2e (eq j && !dg j) :=
    sum_blocks_pad (fun j => b2e (posP j)) (fun j => b2e (eq j && !dg j))
      (fun j h => by simp only [hpos j h])
      (fun j h => by simp only [hposPad j h, b2e, Bool.false_eq_true, if_false])
  have hC : (∑ J : Fin 4, ∑ cc : Fin 2304,
          (if ndP (padCol J cc) then Ideal.exp (lP (padCol J cc)) else 0)
            * (if posP (padCol J cc) then invwm1P (padCol J cc) else invwP (padCol J cc)))
      = ∑ j : Fin 9192, (if dg j then 0 else Ideal.exp (l j))
          * (if (eq j && !dg j) then (if 1 < w j then Ideal.div 1 (w j - 1) else 0) else Ideal.div 1 (w j)) :=
    sum_blocks_pad
      (fun j => (if ndP j then Ideal.exp (lP j) else 0) * (if posP j then invwm1P j else invwP j))
      (fun j => (if dg j then 0 else Ideal.exp (l j))
          * (if (eq j && !dg j) then (if 1 < w j then Ideal.div 1 (w j - 1) else 0) else Ideal.div 1 (w j)))
      (fun j h => by
        simp only [hnd j h, hpos j h, hl j h, hinvw j h, hinvwm1 j h]
        congr 1
        cases dg ⟨j.val, h⟩ <;> simp)
      (fun j h => by
        simp only [hposPad j h, hinvwPad j h, Bool.false_eq_true, if_false, mul_zero])
  simp only [kerRow]
  rw [hA, hB, hC]

end Cert.Spec

end
-- ==== Proof.LibScatterCount.lean ====
/-
  A histogram by scatter: adding one at the position each index names counts how often each position is named.

  `Host.scatter` with an integer `add` body folds over the updates in row-major order; every update whose index lies
  inside the operand adds its value at that position, the others are dropped. With a column of `n` indices into a
  line of `K` bins and every update equal to one, bin `b` ends at its initial value plus the number of positions `p`
  whose index, read signed, is `b` (as a 32-bit word: the count is taken modulo 2³²).

  The argument has three parts, none of which looks at the size of `n`:

  * where an update lands. With one scattered operand axis, that axis inserted, and the index vector on axis 1 of the
    index column, update `j` has start `idx[j, 0]` read signed and window coordinate 0, so it lands on bin `idx[j, 0]`
    when `0 ≤ idx[j, 0] < K` and is dropped otherwise (`siIdx_col`, `start_col`, `window_none`, `sum_col`,
    `resultIdx_some`, `resultIdx_none`);
  * what a fold of such steps does to one bin. A step changes bin `b` only when its update lands on `b`, and then by
    adding one; by induction over the list of updates, the fold adds to bin `b` the number of list elements that land
    on it (`foldl_add_count`);
  * what that number is over the whole row-major enumeration. The enumeration meets every position `p < n` exactly
    once, so the number of enumerated updates landing on `b` is the number of `p` with `idx[p, 0] = b` (`count_rows`).
-/
import Idealize.ShloMosaic.PureOps
import Idealize.ShloMosaic.Lib.ValueIdx
import Idealize.ShloMosaic.Lib.StableHlo.Predicate

noncomputable section

open scoped BigOperators
open Idealize.ShloMosaic Idealize.ShloMosaic.ValueIdx

namespace Cert.LibScatterCount

/-! ### Where an update lands -/

open StableHlo.Predicate in
/-- With the index vector on axis 1 of an [n × 1] index column and one scattered operand axis, update `j` reads its one
    start component at row `j 0` of the column: the update's only axis is its scatter axis and goes to the column's
    axis 0, and the component number, below the length 1 of the axis map, is 0. -/
theorem siIdx_col {K n : Nat} (d : ScatterDims ⟨1, ![K]⟩ ⟨2, ![n, 1]⟩ ⟨1, ![n]⟩)
    (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    -- axis 0 is not the index vector's: its coordinate is the update's coordinate on its one (scatter) axis
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    -- axis 1 is the index vector's: its coordinate is the component number, and there is one component
    unfold ScatterDims.siIdx
    rw [dif_pos (by rw [hivd])]
    apply Fin.ext
    have hl : d.scatterDimsToOperandDims.length = 1 := by rw [hsd]; rfl
    have := c.isLt
    show c.val = 0
    omega

open StableHlo.Predicate in
/-- The start of update `j`'s window on the operand's one axis is the index at row `j 0` of the column, read signed:
    the axis map names that axis. -/
theorem start_col {K n : Nat} (d : ScatterDims ⟨1, ![K]⟩ ⟨2, ![n, 1]⟩ ⟨1, ![n]⟩)
    (hsd : d.scatterDimsToOperandDims = [0]) (hivd : d.indexVectorDim = 1)
    (idx : IVec ⟨2, ![n, 1]⟩ 32) (j : (⟨1, ![n]⟩ : Shape).Idx) (a : Fin (⟨1, ![K]⟩ : Shape).rank) :
    d.start j idx a = (idx (ixP (j 0))).toInt := by
  have ha : a ∈ d.scatterDimsToOperandDims := by
    rw [hsd]
    have h0 : a = 0 := Subsingleton.elim _ _
    subst h0
    exact List.mem_singleton.mpr rfl
  unfold ScatterDims.start
  rw [dif_pos ha, siIdx_col d hsd hivd]
  rfl

/-- The window coordinate on the operand's one axis is 0: that axis is an inserted window axis, so no axis of the
    update is a window axis going to it. -/
theorem window_none {K n : Nat} (d : ScatterDims ⟨1, ![K]⟩ ⟨2, ![n, 1]⟩ ⟨1, ![n]⟩)
    (hiw : d.insertedWindowDims = [0])
    (j : (⟨1, ![n]⟩ : Shape).Idx) (a : Fin (⟨1, ![K]⟩ : Shape).rank) :
    d.window j a = 0 := by
  have ha : a ∉ d.sKept := by
    have h0 : a = 0 := Subsingleton.elim _ _
    subst h0
    simp [ScatterDims.sKept, Shape.kept, hiw]
  unfold ScatterDims.window
  rw [dif_neg ha]

open StableHlo.Predicate in
/-- Start plus window coordinate, the position update `j` aims at on the operand's one axis, is the signed index at
    row `j 0`. -/
theorem sum_col {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx) (a : Fin (⟨1, ![K]⟩ : Shape).rank) :
    d.start j idx a + (d.window j a : Int) = (idx (ixP (j 0))).toInt := by
  rw [start_col d hsd hivd, window_none d hiw]; simp

open StableHlo.Predicate in
/-- An update that lands, lands on bin `b` exactly when its signed index is `b`: the landing position is the index,
    which is then non-negative, taken as a natural number. -/
theorem resultIdx_some {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx) (i : (⟨1, ![K]⟩ : Shape).Idx)
    (h : d.resultIdx? j idx = some i) (b : Fin K) :
    ix1 b = i ↔ (idx (ixP (j 0))).toInt = (b.val : Int) := by
  unfold ScatterDims.resultIdx? at h
  split at h
  · next hin =>
    have hi := Option.some.inj h
    -- inside the operand: 0 ≤ index < K
    have h0 := hin 0
    rw [sum_col d hiw hsd hivd] at h0
    -- and the landing coordinate is that index as a natural number
    have hv : (i 0).val = (idx (ixP (j 0))).toInt.toNat := by
      rw [← hi]
      show (d.start j idx 0 + (d.window j 0 : Int)).toNat = _
      rw [sum_col d hiw hsd hivd]
    constructor
    · intro e
      have : b.val = (i 0).val := congrArg (fun f => (f 0).val) e
      omega
    · intro e
      rw [eq_ix1 i]
      congr 1
      apply Fin.ext
      omega
  · exact absurd h (by simp)

open StableHlo.Predicate in
/-- A dropped update's signed index is no bin: it is negative or at least `K`, and every bin `b` has `0 ≤ b < K`. -/
theorem resultIdx_none {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx)
    (h : d.resultIdx? j idx = none) (b : Fin K) :
    (idx (ixP (j 0))).toInt ≠ (b.val : Int) := by
  intro e
  unfold ScatterDims.resultIdx? at h
  split at h
  · exact absurd h (by simp)
  · next hout =>
    -- were the index `b`, it would be inside the operand and the update would land
    apply hout
    intro a
    have h0 : a = 0 := Subsingleton.elim _ _
    subst h0
    rw [sum_col d hiw hsd hivd, e]
    have := b.isLt
    show (0 : Int) ≤ b.val ∧ (b.val : Int) < (K : Nat)
    omega

/-! ### A fold of steps that add one at a position -/

/-- A left fold whose step adds one at position `c` exactly on the list elements that pass the test `T`, and leaves
    position `c` as it was on the others, ends at the initial value there plus the number of elements that pass. -/
theorem foldl_add_count {ι β : Type} (F : (β → BitVec 32) → ι → β → BitVec 32) (c : β) (T : ι → Bool)
    (hF : ∀ r m, F r m c = if T m = true then r c + 1#32 else r c) (L : List ι) (r : β → BitVec 32) :
    (L.foldl F r) c = r c + BitVec.ofNat 32 (L.countP T) := by
  induction L generalizing r with
  | nil => simp
  | cons m L ih =>
    -- the tail's fold starts from the head's step: (r c [+ 1]) + #tail = r c + (#tail [+ 1])
    rw [List.foldl_cons, ih, hF, List.countP_cons]
    by_cases hT : T m = true
    · rw [if_pos hT, if_pos hT, BitVec.ofNat_add, BitVec.add_assoc]
      congr 1
      exact BitVec.add_comm _ _
    · rw [if_neg hT, if_neg hT, Nat.add_zero]

/-! ### The row-major enumeration of a line meets every position once -/

/-- Counting, along the row-major enumeration of a line of `n` positions, the positions whose coordinate passes a test
    is counting the coordinates `p < n` that pass it: the enumeration meets every coordinate exactly once. -/
theorem count_rows {n : Nat} (P : Fin n → Bool) :
    (List.finRange (⟨1, ![n]⟩ : Shape).numel).countP (fun m => P (((⟨1, ![n]⟩ : Shape).rowMajor.symm m) 0))
      = (Finset.univ.filter fun p : Fin n => P p = true).card := by
  -- the enumeration has no repeats, so the count is the size of the set of enumerated numbers that pass
  rw [List.countP_eq_length_filter, ← List.toFinset_card_of_nodup ((List.nodup_finRange _).filter _),
    List.toFinset_filter, List.toFinset_finRange]
  -- and a number's coordinate is a bijection from the numbers onto the coordinates
  refine Finset.card_bij (fun m _ => ((⟨1, ![n]⟩ : Shape).rowMajor.symm m) 0) ?_ ?_ ?_
  · intro m hm
    exact Finset.mem_filter.2 ⟨Finset.mem_univ _, (Finset.mem_filter.1 hm).2⟩
  · intro m _ m' _ e
    apply (⟨1, ![n]⟩ : Shape).rowMajor.symm.injective
    rw [eq_ix1 ((⟨1, ![n]⟩ : Shape).rowMajor.symm m), eq_ix1 ((⟨1, ![n]⟩ : Shape).rowMajor.symm m'), e]
  · intro p hp
    refine ⟨(⟨1, ![n]⟩ : Shape).rowMajor (ix1 p), Finset.mem_filter.2 ⟨Finset.mem_univ _, ?_⟩, ?_⟩
    · rw [Equiv.symm_apply_apply]; exact (Finset.mem_filter.1 hp).2
    · rw [Equiv.symm_apply_apply]; rfl

/-! ### The histogram -/

/-- Bin `b` of a scatter of ones along a column of indices: its initial word plus the number of rows whose index is `b`. -/
theorem scatter_ones_count {K n : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → BitVec 32) (idx : IVec ⟨2, ![n, 1]⟩ 32) (b : Fin K) :
    Host.scatter d IntOp.addi x idx (fun _ => 1#32) (ix1 b)
      = x (ix1 b) + BitVec.ofNat 32 (Finset.univ.filter fun p : Fin n => (idx (StableHlo.Predicate.ixP p)).toInt = (b.val : Int)).card := by
  unfold Host.scatter
  -- the scatter is a left fold over the enumerated updates; the test on update number `m` is "its index is `b`"
  refine (foldl_add_count _ (ix1 b)
    (fun m => decide ((idx (StableHlo.Predicate.ixP (((⟨1, ![n]⟩ : Shape).rowMajor.symm m) 0))).toInt = (b.val : Int)))
    ?_ _ x).trans ?_
  · -- one step, read at bin `b`
    intro r m
    beta_reduce
    cases hres : d.resultIdx? ((⟨1, ![n]⟩ : Shape).rowMajor.symm m) idx with
    | none =>
      -- dropped: the bin keeps its value, and the index is not `b`
      have hne := resultIdx_none d hiw hsd hivd idx _ hres b
      show r (ix1 b) = _
      rw [if_neg (fun h => hne (of_decide_eq_true h))]
    | some i =>
      -- landed on `i`: bin `b` gains one when `i` is `b`, that is when the index is `b`, and keeps its value otherwise
      have hiff := resultIdx_some d hiw hsd hivd idx _ i hres b
      show (if ix1 b = i then IntOp.addi (r i) 1#32 else r (ix1 b)) = _
      by_cases hb : ix1 b = i
      · rw [if_pos hb, if_pos (decide_eq_true (hiff.1 hb)), ← hb]
        rfl
      · rw [if_neg hb, if_neg (fun h => hb (hiff.2 (of_decide_eq_true h)))]
  · -- the number of enumerated updates whose index is `b` is the number of rows whose index is `b`
    rw [count_rows fun p => decide ((idx (StableHlo.Predicate.ixP p)).toInt = (b.val : Int))]
    simp only [decide_eq_true_eq]

end Cert.LibScatterCount

end
-- ==== Proof.HostFacts.lean ====
/-
  What the labels, the column weights and the stacked features are, as far as the row identity needs.

  The labels are three pieces laid end to end: the 4096 targets, the classes 0..999 in order, and 4096 copies of the word
  1000. The array the bins are indexed with differs only in its last piece. A column's index word is its label, wrapped
  once by 1000 when it reads negative; bin b of the counts is the number of columns whose index word reads b, and a
  column's weight is the count of the bin its index word names, clamped into 0..999. The centre column of class b always
  lands on bin b, so every count is at least one; a batch column with target b lands there too.
-/
import proofs.«429414_j30889404793117_3_alg».proof.Proof.Spec
import proofs.«429414_j30889404793117_3_alg».proof.Proof.Gen.ReferenceIdeal.Read
import proofs.«429414_j30889404793117_3_alg».proof.Proof.LibScatterCount
import Idealize.ShloMosaic.PureOps.Ideal
import Idealize.ShloMosaic.Lib.ValueIdx
import Idealize.ShloMosaic.Lib.Pipeline.Value
import Idealize.ShloMosaic.Lib.SortFacts
import Idealize.ShloMosaic.Lib.StableHlo.Predicate
import Mathlib.Data.Finset.Card
import Mathlib.Data.EReal.Basic
import Mathlib.Algebra.BigOperators.Group.Finset.Basic

noncomputable section

namespace Cert.HostFacts

open Idealize.ShloMosaic Idealize.ShloMosaic.ValueIdx Cert.ReferenceIdeal Cert.ReferenceIdeal.Read

/-- The targets are class labels: 0 ≤ t < 1000 as signed words. -/
def InRange (x2 : (⟨S4096, .i32⟩ : BufTy).Contents (Elt Ideal)) : Prop :=
  ∀ p : S4096.Idx, 0 ≤ (x2 p).toInt ∧ (x2 p).toInt < 1000

/-- Three pieces laid end to end along a line, read in the first piece. -/
theorem cat3_lo {α : Type} {n0 n1 n2 n : Nat} (a : (⟨1, ![n0]⟩ : Shape).Idx → α) (b : (⟨1, ![n1]⟩ : Shape).Idx → α)
    (c : (⟨1, ![n2]⟩ : Shape).Idx → α)
    (h : Shape.Concatenates [(⟨1, ![n0]⟩ : Shape), ⟨1, ![n1]⟩, ⟨1, ![n2]⟩] ⟨1, ![n]⟩ 0)
    (j : Fin n) (k : Fin n0) (hj : k.val = j.val) :
    concatenate ⟨1, ![n]⟩ 0 [⟨⟨1, ![n0]⟩, a⟩, ⟨⟨1, ![n1]⟩, b⟩, ⟨⟨1, ![n2]⟩, c⟩] h (ix1 j) = a (ix1 k) := by
  refine concatenate_apply_piece (t := ⟨1, ![n]⟩) 0 [⟨⟨1, ![n0]⟩, a⟩, ⟨⟨1, ![n1]⟩, b⟩, ⟨⟨1, ![n2]⟩, c⟩] h (ix1 j) 0
    (by simp) ⟨1, ![n0]⟩ a rfl rfl 0 rfl (ix1 k) ?_ ?_
  · intro b hb; exact absurd (Subsingleton.elim _ _) hb
  · show 0 + k.val = j.val; omega

theorem cat3_mid {α : Type} {n0 n1 n2 n : Nat} (a : (⟨1, ![n0]⟩ : Shape).Idx → α) (b : (⟨1, ![n1]⟩ : Shape).Idx → α)
    (c : (⟨1, ![n2]⟩ : Shape).Idx → α)
    (h : Shape.Concatenates [(⟨1, ![n0]⟩ : Shape), ⟨1, ![n1]⟩, ⟨1, ![n2]⟩] ⟨1, ![n]⟩ 0)
    (j : Fin n) (k : Fin n1) (hj : n0 + k.val = j.val) :
    concatenate ⟨1, ![n]⟩ 0 [⟨⟨1, ![n0]⟩, a⟩, ⟨⟨1, ![n1]⟩, b⟩, ⟨⟨1, ![n2]⟩, c⟩] h (ix1 j) = b (ix1 k) := by
  refine concatenate_apply_piece (t := ⟨1, ![n]⟩) 0 [⟨⟨1, ![n0]⟩, a⟩, ⟨⟨1, ![n1]⟩, b⟩, ⟨⟨1, ![n2]⟩, c⟩] h (ix1 j) 1
    (by simp) ⟨1, ![n1]⟩ b rfl rfl n0 ?_ (ix1 k) ?_ ?_
  · simp
  · intro b hb; exact absurd (Subsingleton.elim _ _) hb
  · exact hj

theorem cat3_hi {α : Type} {n0 n1 n2 n : Nat} (a : (⟨1, ![n0]⟩ : Shape).Idx → α) (b : (⟨1, ![n1]⟩ : Shape).Idx → α)
    (c : (⟨1, ![n2]⟩ : Shape).Idx → α)
    (h : Shape.Concatenates [(⟨1, ![n0]⟩ : Shape), ⟨1, ![n1]⟩, ⟨1, ![n2]⟩] ⟨1, ![n]⟩ 0)
    (j : Fin n) (k : Fin n2) (hj : n0 + n1 + k.val = j.val) :
    concatenate ⟨1, ![n]⟩ 0 [⟨⟨1, ![n0]⟩, a⟩, ⟨⟨1, ![n1]⟩, b⟩, ⟨⟨1, ![n2]⟩, c⟩] h (ix1 j) = c (ix1 k) := by
  refine concatenate_apply_piece (t := ⟨1, ![n]⟩) 0 [⟨⟨1, ![n0]⟩, a⟩, ⟨⟨1, ![n1]⟩, b⟩, ⟨⟨1, ![n2]⟩, c⟩] h (ix1 j) 2
    (by simp) ⟨1, ![n2]⟩ c rfl rfl (n0 + n1) ?_ (ix1 k) ?_ ?_
  · simp
  · intro b hb; exact absurd (Subsingleton.elim _ _) hb
  · exact hj

/-! ### Words -/

/-- The bin a label names: a negative word is wrapped once by the number of bins. -/
def wrap (w : BitVec 32) : BitVec 32 := Scalar.select (IntOp.cmpi .slt w 0#32) (IntOp.addi w 1000#32) w

/-- A word that reads non-negative is not wrapped. -/
theorem wrap_nonneg {w : BitVec 32} (h : 0 ≤ w.toInt) : wrap w = w := by
  unfold wrap
  have hc : IntOp.cmpi .slt w 0#32 = 0#1 := by
    unfold IntOp.cmpi
    have hs : w.slt 0#32 = false := by
      unfold BitVec.slt
      have h0 : (0#32 : BitVec 32).toInt = 0 := by decide
      rw [h0]; exact decide_eq_false (by omega)
    show BitVec.ofBool (w.slt 0#32) = 0#1
    rw [hs]; rfl
  rw [hc, select_zero]

/-- A word read signed in 0..999 reads the same unsigned. -/
theorem toNat_of_range {w : BitVec 32} (h0 : 0 ≤ w.toInt) (h1 : w.toInt < 1000) :
    w.toNat < 1000 ∧ w.toInt = (w.toNat : Int) := by
  have hc := BitVec.toInt_eq_toNat_cond w
  have hlt := w.isLt
  split at hc <;> omega

/-! ### The labels by range of columns -/

theorem lab2_lo (x2 : (⟨S4096, .i32⟩ : BufTy).Contents (Elt Ideal)) (j : Fin 9192) (k : Fin 4096) (hj : k.val = j.val) :
    val_main_v2 (F := Ideal) x2 (ix1 j) = x2 (ix1 k) :=
  cat3_lo _ _ _ _ j k hj

theorem lab2_mid (x2 : (⟨S4096, .i32⟩ : BufTy).Contents (Elt Ideal)) (j : Fin 9192) (k : Fin 1000) (hj : 4096 + k.val = j.val) :
    val_main_v2 (F := Ideal) x2 (ix1 j) = BitVec.ofNat 32 k.val :=
  cat3_mid _ _ _ _ j k hj

theorem lab2_hi (x2 : (⟨S4096, .i32⟩ : BufTy).Contents (Elt Ideal)) (j : Fin 9192) (k : Fin 4096) (hj : 4096 + 1000 + k.val = j.val) :
    val_main_v2 (F := Ideal) x2 (ix1 j) = 1000#32 :=
  (cat3_hi _ _ _ _ j k hj).trans ((val_main_v1_apply _).trans rfl)

theorem lab3_lo (x2 x4 : (⟨S4096, .i32⟩ : BufTy).Contents (Elt Ideal)) (j : Fin 9192) (k : Fin 4096) (hj : k.val = j.val) :
    val_main_v3 (F := Ideal) x2 x4 (ix1 j) = x2 (ix1 k) :=
  cat3_lo _ _ _ _ j k hj

theorem lab3_mid (x2 x4 : (⟨S4096, .i32⟩ : BufTy).Contents (Elt Ideal)) (j : Fin 9192) (k : Fin 1000) (hj : 4096 + k.val = j.val) :
    val_main_v3 (F := Ideal) x2 x4 (ix1 j) = BitVec.ofNat 32 k.val :=
  cat3_mid _ _ _ _ j k hj

/-! ### The index column and where a row lands -/

/-- The scatter's index word of a row: its label, wrapped. -/
theorem idx9_eq (x2 x4 : (⟨S4096, .i32⟩ : BufTy).Contents (Elt Ideal)) (i : S9192.Idx) :
    val_main_v9 (F := Ideal) x2 x4 i = wrap (val_main_v3 (F := Ideal) x2 x4 i) := by
  rw [val_main_v9_apply, val_main_v6_apply, val_main_v8_apply, val_main_v5_apply, val_main_v7_apply]
  rfl

/-- The gather's index word of a row: the same. -/
theorem idx46_eq (x2 x4 : (⟨S4096, .i32⟩ : BufTy).Contents (Elt Ideal)) (i : S9192.Idx) :
    val_main_v46 (F := Ideal) x2 x4 i = wrap (val_main_v3 (F := Ideal) x2 x4 i) := by
  rw [val_main_v46_apply, val_main_v43_apply, val_main_v45_apply, val_main_v42_apply, val_main_v44_apply]
  rfl

theorem col10_read (x2 x4 : (⟨S4096, .i32⟩ : BufTy).Contents (Elt Ideal)) (r : Fin 9192) :
    val_main_v10 (F := Ideal) x2 x4 (StableHlo.Predicate.ixP r) = wrap (val_main_v3 (F := Ideal) x2 x4 (ix1 r)) := by
  have e : idx_main_v10 (StableHlo.Predicate.ixP r) = ix1 r := by
    funext d; match d with | ⟨0, _⟩ => rfl
  rw [val_main_v10_apply, idx9_eq, e]

theorem col47_read (x2 x4 : (⟨S4096, .i32⟩ : BufTy).Contents (Elt Ideal)) (r : Fin 9192) :
    val_main_v47 (F := Ideal) x2 x4 (StableHlo.Predicate.ixP r) = wrap (val_main_v3 (F := Ideal) x2 x4 (ix1 r)) := by
  have e : idx_main_v47 (StableHlo.Predicate.ixP r) = ix1 r := by
    funext d; match d with | ⟨0, _⟩ => rfl
  rw [val_main_v47_apply, idx46_eq, e]

/-- A row whose wrapped label reads `b` lands on bin `b`. -/
theorem lands (x2 x4 : (⟨S4096, .i32⟩ : BufTy).Contents (Elt Ideal)) (r : Fin 9192) (b : Fin 1000)
    (h : (wrap (val_main_v3 (F := Ideal) x2 x4 (ix1 r))).toInt = (b.val : Int)) :
    scatter_S1000_S9192x1_S9192_n_0_0_1.resultIdx? (ix1 r) (val_main_v10 (F := Ideal) x2 x4) = some (ix1 b) := by
  have h' : ((val_main_v10 (F := Ideal) x2 x4) (StableHlo.Predicate.ixP ((ix1 r : S9192.Idx) 0))).toInt = (b.val : Int) := by
    show ((val_main_v10 (F := Ideal) x2 x4) (StableHlo.Predicate.ixP r)).toInt = _
    rw [col10_read]; exact h
  cases hres : scatter_S1000_S9192x1_S9192_n_0_0_1.resultIdx? (ix1 r) (val_main_v10 (F := Ideal) x2 x4) with
  | none => exact absurd h' (Cert.LibScatterCount.resultIdx_none _ rfl rfl rfl _ _ hres b)
  | some i => rw [(Cert.LibScatterCount.resultIdx_some _ rfl rfl rfl _ _ i hres b).2 h']

/-- A bin's count is a natural number, at least the number of rows known to land on it. -/
theorem counts_ge (x2 x4 : (⟨S4096, .i32⟩ : BufTy).Contents (Elt Ideal)) (b : Fin 1000) (R : Finset (Fin 9192))
    (hR : ∀ r ∈ R, (wrap (val_main_v3 (F := Ideal) x2 x4 (ix1 r))).toInt = (b.val : Int)) :
    ∃ n : ℕ, R.card ≤ n ∧ val_main_v12 (F := Ideal) x2 x4 (ix1 b) = ((n : ℝ) : EReal) := by
  unfold val_main_v12 Host.scatterAdd
  rw [Ideal.hostScatterAdd_def]
  unfold Ideal.hostScatterAdd
  have h4 : val_main_v4 (F := Ideal) (ix1 b) = 0 := by
    rw [val_main_v4_apply, val_main_cst_apply]
    simp [Ideal.ofBits, Ideal.ieee]
  have h11 : ∀ j, val_main_v11 (F := Ideal) j = 1 := fun j => by
    rw [val_main_v11_apply, val_main_cst_2_apply]
    simp [Ideal.ofBits, Ideal.ieee, -EReal.coe_mul]; norm_num
  rw [h4, zero_add, Finset.sum_congr rfl (fun j _ => h11 j), Finset.sum_const, nsmul_one]
  have hcard : R.card ≤ (Finset.univ.filter fun j : S9192.Idx =>
      scatter_S1000_S9192x1_S9192_n_0_0_1.resultIdx? j (val_main_v10 (F := Ideal) x2 x4) = some (ix1 b)).card := by
    rw [← Finset.card_image_of_injective R (f := fun r : Fin 9192 => (ix1 r : S9192.Idx))
      (fun r r' e => by have := congrArg (fun f => f 0) e; exact this)]
    apply Finset.card_le_card
    intro j hj
    obtain ⟨r, hr, rfl⟩ := Finset.mem_image.1 hj
    exact Finset.mem_filter.2 ⟨Finset.mem_univ _, lands x2 x4 r b (hR r hr)⟩
  exact ⟨_, hcard, rfl⟩

/-- The gather reads the table at the start index of the row, read signed and clamped into the table. -/
theorem gather_read (x : S1000.Idx → EReal) (idx : IVec S9192x1 32) (j : Fin 9192) :
    ∃ c : Fin 1000, c.val = min (idx (StableHlo.Predicate.ixP j)).toInt.toNat 999
      ∧ Host.gather gather_S1000_S9192x1_S9192_n_0_n_n_0_1_1 x idx (ix1 j) = x (ix1 c) := by
  have hg := StableHlo.Predicate.gather_take gather_S1000_S9192x1_S9192_n_0_n_n_0_1_1 rfl rfl rfl rfl x idx j (by decide)
  have e1 : (ix1 j : S9192.Idx) = Shape.Idx.ofFin j := by
    funext d; match d with | ⟨0, _⟩ => rfl
  rw [e1]
  refine ⟨⟨min (idx (StableHlo.Predicate.ixP j)).toInt.toNat 999, by omega⟩, rfl, hg.trans (congrArg x ?_)⟩
  funext d; match d with | ⟨0, _⟩ => rfl

/-- A column's weight is the count of the bin its wrapped label names, clamped into the bins. -/
theorem wt_read (x2 x4 : (⟨S4096, .i32⟩ : BufTy).Contents (Elt Ideal)) (j : Fin 9192) :
    ∃ c : Fin 1000, c.val = min (wrap (val_main_v3 (F := Ideal) x2 x4 (ix1 j))).toInt.toNat 999
      ∧ val_main_v48 (F := Ideal) x2 x4 (ix1 j) = val_main_v12 (F := Ideal) x2 x4 (ix1 c) := by
  obtain ⟨c, hc, hg⟩ := gather_read (val_main_v12 (F := Ideal) x2 x4) (val_main_v47 (F := Ideal) x2 x4) j
  refine ⟨c, ?_, hg⟩
  rw [hc, col47_read x2 x4 j]

/-! ### The bins' counts -/

/-- The centre column of class `c` lands on bin `c`. -/
theorem centre_idx (x2 x4 : (⟨S4096, .i32⟩ : BufTy).Contents (Elt Ideal)) (c : Fin 1000) (r : Fin 9192) (hr : 4096 + c.val = r.val) :
    (wrap (val_main_v3 (F := Ideal) x2 x4 (ix1 r))).toInt = (c.val : Int) := by
  have hc := c.isLt
  have ht : (BitVec.ofNat 32 c.val).toInt = (c.val : Int) := StableHlo.Predicate.toInt_ofNat_small c.val (by omega)
  rw [lab3_mid x2 x4 r c hr, wrap_nonneg (by rw [ht]; omega), ht]

/-- Every bin's count is a positive natural number: its centre column lands on it. -/
theorem count_pos (x2 x4 : (⟨S4096, .i32⟩ : BufTy).Contents (Elt Ideal)) (c : Fin 1000) :
    ∃ n : ℕ, 1 ≤ n ∧ val_main_v12 (F := Ideal) x2 x4 (ix1 c) = ((n : ℝ) : EReal) := by
  have hc := c.isLt
  obtain ⟨n, hn, hv⟩ := counts_ge x2 x4 c {(⟨4096 + c.val, by omega⟩ : Fin 9192)} (by
    intro r hr
    rw [Finset.mem_singleton] at hr
    subst hr
    exact centre_idx x2 x4 c _ rfl)
  exact ⟨n, by simpa using hn, hv⟩

/-- Every column's weight is a positive count: its class has at least its centre column. -/
theorem wt_nat (x2 x4 : (⟨S4096, .i32⟩ : BufTy).Contents (Elt Ideal)) (j : Fin 9192) :
    ∃ n : ℕ, 1 ≤ n ∧ val_main_v48 (F := Ideal) x2 x4 (ix1 j) = ((n : ℝ) : EReal) := by
  obtain ⟨c, _, hw⟩ := wt_read x2 x4 j
  rw [hw]
  exact count_pos x2 x4 c

/-! ### Columns that carry an anchor's label -/

/-- On the batch and centre columns the label array the bins are indexed with is the one the classes are compared in. -/
theorem lab3_eq_lab2 (x2 x4 : (⟨S4096, .i32⟩ : BufTy).Contents (Elt Ideal)) (j : Fin 9192) (hj : j.val < 5096) :
    val_main_v3 (F := Ideal) x2 x4 (ix1 j) = val_main_v2 (F := Ideal) x2 (ix1 j) := by
  by_cases h : j.val < 4096
  · rw [lab3_lo x2 x4 j ⟨j.val, h⟩ rfl, lab2_lo x2 j ⟨j.val, h⟩ rfl]
  · have hk : 4096 + (⟨j.val - 4096, by omega⟩ : Fin 1000).val = j.val := by
      show 4096 + (j.val - 4096) = j.val; omega
    rw [lab3_mid x2 x4 j _ hk, lab2_mid x2 j _ hk]

/-- An anchor's label is its target. -/
theorem anchor_lab (x2 : (⟨S4096, .i32⟩ : BufTy).Contents (Elt Ideal)) (i : Fin 4096) :
    val_main_v2 (F := Ideal) x2 (ix1 (Cert.Spec.anchorCol i)) = x2 (ix1 i) :=
  lab2_lo x2 _ i rfl

/-- A column that carries an anchor's label and is not the anchor has weight at least two: the anchor counts too. -/
theorem wt_two (x2 x4 : (⟨S4096, .i32⟩ : BufTy).Contents (Elt Ideal)) (hT : InRange x2) (i : Fin 4096) (j : Fin 9192)
    (heq : Cert.Spec.sameLabel (val_main_v2 (F := Ideal) x2) i j = true) (hd : Cert.Spec.isDiag i j = false) :
    ∃ n : ℕ, 2 ≤ n ∧ val_main_v48 (F := Ideal) x2 x4 (ix1 j) = ((n : ℝ) : EReal) := by
  have hl : val_main_v2 (F := Ideal) x2 (ix1 (Cert.Spec.anchorCol i)) = val_main_v2 (F := Ideal) x2 (ix1 j) :=
    of_decide_eq_true heq
  have hne : ¬ j.val = i.val := of_decide_eq_false hd
  obtain ⟨h0, h1⟩ := hT (ix1 i)
  obtain ⟨hb, hbi⟩ := toNat_of_range h0 h1
  have ha := anchor_lab x2 i
  -- an out-of-distribution column carries the word 1000, which is no target
  have hj : j.val < 5096 := by
    by_contra hge
    have hjl := j.isLt
    have h5 := lab2_hi x2 j ⟨j.val - 5096, by omega⟩ (by show 4096 + 1000 + (j.val - 5096) = j.val; omega)
    rw [← hl, ha] at h5
    rw [h5] at h1
    exact absurd h1 (by decide)
  -- so both columns carry the anchor's target in the array the bins are indexed with
  have h3j : val_main_v3 (F := Ideal) x2 x4 (ix1 j) = x2 (ix1 i) := by
    rw [lab3_eq_lab2 x2 x4 j hj, ← hl, ha]
  have h3i : val_main_v3 (F := Ideal) x2 x4 (ix1 (Cert.Spec.anchorCol i)) = x2 (ix1 i) := lab3_lo x2 x4 _ i rfl
  obtain ⟨b, hbv⟩ : ∃ b : Fin 1000, b.val = (x2 (ix1 i)).toNat := ⟨⟨_, hb⟩, rfl⟩
  have hwi : (wrap (x2 (ix1 i))).toInt = (b.val : Int) := by rw [wrap_nonneg h0, hbi, hbv]
  obtain ⟨c, hc, hw⟩ := wt_read x2 x4 j
  have hcb : c = b := by
    apply Fin.ext
    have hbl := b.isLt
    rw [hc, h3j, hwi]
    omega
  rw [hw, hcb]
  obtain ⟨n, hn, hv⟩ := counts_ge x2 x4 b {Cert.Spec.anchorCol i, j} (by
    intro r hr
    rw [Finset.mem_insert, Finset.mem_singleton] at hr
    rcases hr with rfl | rfl
    · rw [h3i]; exact hwi
    · rw [h3j]; exact hwi)
  have hcard : ({Cert.Spec.anchorCol i, j} : Finset (Fin 9192)).card = 2 :=
    Finset.card_pair (fun e => hne (by rw [← e]; rfl))
  exact ⟨n, by omega, hv⟩

/-- Every anchor has a positive column: its class's centre. -/
theorem pos_exists (x2 : (⟨S4096, .i32⟩ : BufTy).Contents (Elt Ideal)) (hT : InRange x2) (i : Fin 4096) :
    ∃ j : Fin 9192, Cert.Spec.sameLabel (val_main_v2 (F := Ideal) x2) i j = true ∧ Cert.Spec.isDiag i j = false := by
  obtain ⟨h0, h1⟩ := hT (ix1 i)
  obtain ⟨hb, hbi⟩ := toNat_of_range h0 h1
  have hi := i.isLt
  refine ⟨⟨4096 + (x2 (ix1 i)).toNat, by omega⟩, ?_, ?_⟩
  · unfold Cert.Spec.sameLabel
    apply decide_eq_true
    rw [anchor_lab, lab2_mid x2 _ ⟨(x2 (ix1 i)).toNat, hb⟩ rfl]
    apply BitVec.eq_of_toNat_eq
    rw [BitVec.toNat_ofNat]
    exact (Nat.mod_eq_of_lt (by omega)).symm
  · unfold Cert.Spec.isDiag
    apply decide_eq_false
    show ¬ (4096 + (x2 (ix1 i)).toNat = i.val)
    omega

/-- No anchor's label is the word −1 (the label the kernel pads its columns with). -/
theorem lab_ne_neg_one (x2 : (⟨S4096, .i32⟩ : BufTy).Contents (Elt Ideal)) (hT : InRange x2) (i : Fin 4096) :
    val_main_v2 (F := Ideal) x2 (ix1 (Cert.Spec.anchorCol i)) ≠ 4294967295#32 := by
  intro h
  rw [anchor_lab] at h
  have h0 := (hT (ix1 i)).1
  rw [h] at h0
  exact absurd h0 (by decide)

/-- The stacked features are real where the three feature arrays are. -/
theorem fa_real (x0 : (⟨S1000x512, .f32⟩ : BufTy).Contents (Elt Ideal)) (x1 x3 : (⟨S4096x512, .f32⟩ : BufTy).Contents (Elt Ideal))
    (h0 : ∀ q, ∃ r : ℝ, x0 q = (r : EReal)) (h1 : ∀ q, ∃ r : ℝ, x1 q = (r : EReal)) (h3 : ∀ q, ∃ r : ℝ, x3 q = (r : EReal)) :
    ∀ q, ∃ r : ℝ, val_main_v31 (F := Ideal) x0 x1 x3 q = (r : EReal) := by
  intro q
  have hq0 : (q 0).val < 9192 := idx2_lt0 q
  have hq1 : (q 1).val < 512 := idx2_lt1 q
  obtain ⟨k, hk⟩ : ∃ k : Fin 512, k.val = (q 1).val := ⟨⟨_, hq1⟩, rfl⟩
  unfold val_main_v31
  by_cases hA : (q 0).val < 4096
  · obtain ⟨r, hr⟩ := h1 (ix2 ⟨(q 0).val, hA⟩ k)
    refine ⟨r, ?_⟩
    rw [← hr]
    exact concatenate_apply_piece (t := S9192x512) 0 [⟨S4096x512, x1⟩, ⟨S1000x512, x0⟩, ⟨S4096x512, x3⟩]
      Facts₀.concatenates_S4096x512_S1000x512_S4096x512_S9192x512_d0 q 0 (by simp) S4096x512 x1 rfl rfl 0 rfl
      (ix2 ⟨(q 0).val, hA⟩ k)
      (fun b => match b with
        | ⟨0, _⟩ => fun hb => absurd (Fin.ext rfl) hb
        | ⟨1, _⟩ => fun _ => hk)
      (by show 0 + (q 0).val = (q 0).val; omega)
  · by_cases hB : (q 0).val < 5096
    · obtain ⟨r, hr⟩ := h0 (ix2 ⟨(q 0).val - 4096, by omega⟩ k)
      refine ⟨r, ?_⟩
      rw [← hr]
      exact concatenate_apply_piece (t := S9192x512) 0 [⟨S4096x512, x1⟩, ⟨S1000x512, x0⟩, ⟨S4096x512, x3⟩]
        Facts₀.concatenates_S4096x512_S1000x512_S4096x512_S9192x512_d0 q 1 (by simp) S1000x512 x0 rfl rfl 4096 (by simp)
        (ix2 ⟨(q 0).val - 4096, by omega⟩ k)
        (fun b => match b with
          | ⟨0, _⟩ => fun hb => absurd (Fin.ext rfl) hb
          | ⟨1, _⟩ => fun _ => hk)
        (by show 4096 + ((q 0).val - 4096) = (q 0).val; omega)
    · obtain ⟨r, hr⟩ := h3 (ix2 ⟨(q 0).val - 5096, by omega⟩ k)
      refine ⟨r, ?_⟩
      rw [← hr]
      exact concatenate_apply_piece (t := S9192x512) 0 [⟨S4096x512, x1⟩, ⟨S1000x512, x0⟩, ⟨S4096x512, x3⟩]
        Facts₀.concatenates_S4096x512_S1000x512_S4096x512_S9192x512_d0 q 2 (by simp) S4096x512 x3 rfl rfl 5096 (by simp)
        (ix2 ⟨(q 0).val - 5096, by omega⟩ k)
        (fun b => match b with
          | ⟨0, _⟩ => fun hb => absurd (Fin.ext rfl) hb
          | ⟨1, _⟩ => fun _ => hk)
        (by show 5096 + ((q 0).val - 5096) = (q 0).val; omega)

end Cert.HostFacts

end
-- ==== Proof.KI.RowValue.lean ====
/-
  The kernel's row value for anchor R, read off the accumulators: over the four column blocks of R's row block the three
  accumulators add up the block sums, so at the last block they hold the sums over all 9216 padded columns; a padded
  column adds nothing (its label -1 is no anchor's label, and its two reciprocal weights are zero), so the sums are
  those over the 9192 real columns, and the stored value is the kernel row value of the specification.
-/
import proofs.«429414_j30889404793117_3_alg».proof.Proof.Spec
import proofs.«429414_j30889404793117_3_alg».proof.Proof.KI.Pieces
import proofs.«429414_j30889404793117_3_alg».proof.Proof.KI.PayloadA
import proofs.«429414_j30889404793117_3_alg».proof.Proof.KI.PayloadB
import proofs.«429414_j30889404793117_3_alg».proof.Proof.KI.HostVals
import proofs.«429414_j30889404793117_3_alg».proof.Proof.KI.Blocks
import proofs.«429414_j30889404793117_3_alg».proof.Proof.KI.AccSums
import proofs.«429414_j30889404793117_3_alg».proof.Proof.Regroup
import proofs.«429414_j30889404793117_3_alg».proof.Proof.HostFacts

set_option maxRecDepth 16384

noncomputable section

namespace Cert.KernelIdeal.RowValue

open Cert.KernelIdeal Cert.KernelIdeal.Gen Cert.KernelIdeal.Hand Cert.KernelIdeal.HostVals Cert.KernelIdeal.Blocks Cert.KernelIdeal.Payload
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- Row R of the output array after the region is the specification's kernel row value of anchor R, over the labels,
    weights and stacked features the host lines computed, provided no target is the word -1. -/
theorem out_row (c : Dev nD) (hneg : ∀ i : Fin 4096, a2 m c (ix1 i) ≠ 4294967295#32) (R : Fin 4096) :
    ((dats m 0 c).arrAt 6 cfg0.N : S4096x1.Idx → EReal) (ix2 R 0)
      = Cert.Spec.rowKer (LAB m c) (WT m c) (FA m c) (a1 m c) R := by
  -- the anchor as row r of row block I
  obtain ⟨I, r, hR⟩ : ∃ (I : Fin 8) (r : Fin 512), R = gRow I r :=
    ⟨⟨R.val / 512, by have := R.isLt; omega⟩, ⟨R.val % 512, Nat.mod_lt _ (by decide)⟩,
      Fin.ext (by show R.val = R.val / 512 * 512 + R.val % 512; omega)⟩
  subst hR
  refine (final_row m c I r).trans ((AccSums.acc_last m c I r).trans ?_)
  unfold Cert.Spec.rowKer
  -- the anchor column's label is the anchor's target
  have hlab : LAB m c (ix1 (Cert.Spec.anchorCol (gRow I r))) = a2 m c (ix1 (gRow I r)) :=
    Cert.HostFacts.anchor_lab (a2 m c) (gRow I r)
  have h32 : (V m c main_v32 : S4096x1.Idx → BitVec 32) (ix2 (gRow I r) 0) = a2 m c (ix1 (gRow I r)) :=
    v32_apply m c (gRow I r)
  exact Cert.Spec.regroup
    (Cert.Spec.sameLabel (LAB m c) (gRow I r)) (Cert.Spec.isDiag (gRow I r))
    (fun j => WT m c (ix1 j))
    (fun j => Cert.Spec.dotAt (FA m c) (a1 m c) (gRow I r) j * Cert.Spec.invTemp)
    (AccSums.posAt m c I r) (AccSums.ndAt I r) (AccSums.lAt m c I r) (AccSums.invwAt m c) (AccSums.invwm1At m c)
    (fun j h => by
      unfold AccSums.posAt Cert.Spec.sameLabel Cert.Spec.isDiag
      rw [h32, v37_apply m c j, dif_pos h, hlab]
      by_cases h1 : a2 m c (ix1 (gRow I r)) = LAB m c (ix1 ⟨j.val, h⟩)
      · by_cases h2 : j.val = (gRow I r).val
        · simp [h1, h2]
        · have h2' : (gRow I r).val ≠ j.val := fun e => h2 e.symm
          simp [h1, h2, h2']
      · simp [h1])
    (fun j h => by
      unfold AccSums.posAt
      rw [h32, v37_apply m c j, dif_neg h]
      exact decide_eq_false (fun hh => hneg (gRow I r) hh.1))
    (fun j h => by
      unfold AccSums.ndAt Cert.Spec.isDiag
      by_cases h2 : j.val = (gRow I r).val
      · have h2' : ¬ (gRow I r).val ≠ j.val := fun e => e h2.symm
        simp [h2, h2']
      · have h2' : (gRow I r).val ≠ j.val := fun e => h2 e.symm
        simp [h2, h2'])
    (fun j h => by
      unfold AccSums.lAt Cert.Spec.dotAt
      refine congrArg (fun s : EReal => s * Cert.Spec.invTemp) ?_
      refine Finset.sum_congr rfl fun k _ => ?_
      exact congrArg₂ (fun a b : EReal => a * b) (v30_apply m c (gRow I r) k) ((v36_apply m c j k).trans (dif_pos h)))
    (fun j h => by
      unfold AccSums.invwAt
      rw [v38_apply m c j, dif_pos h])
    (fun j h => by
      unfold AccSums.invwAt
      rw [v38_apply m c j, dif_neg h])
    (fun j h => by
      unfold AccSums.invwm1At
      rw [v39_apply m c j, dif_pos h])
    (fun j h => by
      unfold AccSums.invwm1At
      rw [v39_apply m c j, dif_neg h])

end Cert.KernelIdeal.RowValue

end
-- ==== Proof.KI.Tail.lean ====
/-
  The kernel program's result: the five host lines after the region sum the 4096 stored row values from zero, divide by
  the batch size and negate; with each row value the specification's kernel row value, the result is the loss of those.
-/
import proofs.«429414_j30889404793117_3_alg».proof.Proof.Spec
import proofs.«429414_j30889404793117_3_alg».proof.Proof.KI.RowValue
import Idealize.ShloMosaic.Lib.StableHlo.Run
import Idealize.ShloMosaic.PureOps.Ideal.Laws

set_option maxRecDepth 16384

noncomputable section

namespace Cert.KernelIdeal.Tail

open Cert.KernelIdeal Cert.KernelIdeal.Gen Cert.KernelIdeal.Hand Cert.KernelIdeal.HostVals
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The column array's index set is its row range: the second coordinate is 0. -/
def rowEquiv : Fin 4096 ≃ (⟨2, ![4096, 1]⟩ : Shape).Idx where
  toFun R := ix2 R 0
  invFun j := j 0
  left_inv _ := rfl
  right_inv j := by
    funext a
    match a with
    | ⟨0, _⟩ => rfl
    | ⟨1, _⟩ => exact Fin.ext (by have := idx2_lt1 j; show 0 = (j 1).val; omega)

/-- A sum over the column array's indices is the sum over its rows. -/
theorem sum_rows {M : Type*} [AddCommMonoid M] (f : (⟨2, ![4096, 1]⟩ : Shape).Idx → M) :
    ∑ j, f j = ∑ R : Fin 4096, f (ix2 R 0) := by
  rw [← Equiv.sum_comp rowEquiv f]
  rfl

/-- The five lines on any column array: minus the mean of its rows. -/
theorem tail_apply (A : FVec Ideal S4096x1 .f32) (i0 : S_.Idx) :
    Host.negf (F := Ideal) (Host.divf (F := Ideal)
        (Host.reduceAdd (F := Ideal) A (constant (F := Ideal) S_ .f32 0#32) reducesTo_S4096x1_S_d0_1 h_S_)
        (constant (F := Ideal) S_ .f32 1166016512#32)) i0
      = Cert.Spec.lossOf (fun R => A (ix2 R 0)) := by
  unfold Cert.Spec.lossOf Cert.Spec.batchWord
  show -(Ideal.div (Host.reduceAdd (F := Ideal) A (constant (F := Ideal) S_ .f32 0#32) reducesTo_S4096x1_S_d0_1 h_S_ i0)
      (Ideal.ofBits .f32 0x45800000#32)) = _
  have hsum : Host.reduceAdd (F := Ideal) A (constant (F := Ideal) S_ .f32 0#32) reducesTo_S4096x1_S_d0_1 h_S_ i0
      = Ideal.ofBits .f32 0x00000000#32 + ∑ j : S4096x1.Idx, A j := by
    simp only [Host.reduceAdd, Ideal.hostReduceAdd_def]
    exact Ideal.hostReduceAdd_total reducesTo_S4096x1_S_d0_1 (fun b => b.elim0) A _ i0
  rw [hsum, Ideal.ofBits_zero_f32, zero_add, sum_rows]

/-- What the result buffer holds after the lines that follow the region, on core c. -/
theorem result_eq (c : Dev nD) (hneg : ∀ i : Fin 4096, a2 m c (ix1 i) ≠ 4294967295#32) :
    (Pipeline.afterTail₀ cfgs (dats m) 0 (V0 m) [hostOps1] c main_v43 : S_.Idx → EReal)
      = fun _ => Cert.Spec.lossOf (fun R => Cert.Spec.rowKer (LAB m c) (WT m c) (FA m c) (a1 m c) R) := by
  have hrow : ∀ R : Fin 4096, ((dats m 0 c).arrAt 6 cfg0.N : S4096x1.Idx → EReal) (ix2 R 0)
      = Cert.Spec.rowKer (LAB m c) (WT m c) (FA m c) (a1 m c) R := fun R => RowValue.out_row m c hneg R
  unfold Pipeline.afterTail₀
  show StableHlo.after hostOps1 _ (Proc.devRef .tc main_v43) = _
  after_results
  have harr : Pipeline.withArrays (cfgs 0).spec c (V0 m c) (fun w => (dats m 0 c).arrAt w (cfgs 0).N)
      (Proc.devRef .tc main_v40) = (dats m 0 c).arrAt 6 cfg0.N :=
    Pipeline.withArrays_arr spec0 launch0.win.arr_inj c _ _ 6
  rw [harr]
  funext i0
  rw [tail_apply]
  simp only [hrow]

end Cert.KernelIdeal.Tail

end
-- ==== Proof.KI.Value.lean ====
/-
  The idealized kernel program's run with its result named: every weakly fair execution terminates with the result
  buffer at the loss of the kernel row values and the five arguments as launched, provided no target is the word -1.
-/
import proofs.«429414_j30889404793117_3_alg».proof.Proof.KI.Tail

set_option maxRecDepth 16384

noncomputable section

namespace Cert.KernelIdeal.Value

open Cert.KernelIdeal Cert.KernelIdeal.Gen Cert.KernelIdeal.Hand Cert.KernelIdeal.HostVals
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The kernel's result on core c: minus the mean of the kernel row values. -/
def result (c : Dev nD) : S_.Idx → EReal :=
  fun _ => Cert.Spec.lossOf (fun R => Cert.Spec.rowKer (LAB m c) (WT m c) (FA m c) (a1 m c) R)

theorem run_value (hneg : ∀ (c : Dev nD) (i : Fin 4096), a2 m c (ix1 i) ≠ 4294967295#32) :
    θ_run defs (onTc (τ := τ) (main (F := Ideal))) ⟨m, fun _ => 0, ρ⟩ (fun r => ∀ c : Dev nD,
      r.2.mem ((c.tc : Thread nD τ).loc main_v43) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v43 (Pipeline.mem_restRefs_of main_v43 (by decide) (by decide))).trans (Cert.KernelIdeal.Tail.result_eq m c (hneg c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main (F := Ideal) m ρ)

end Cert.KernelIdeal.Value

end
-- ==== Proof.RowAlgebra.lean ====
/-
  The per-anchor identity between the reference's and the kernel's value, and the temperature.
-/
import proofs.«429414_j30889404793117_3_alg».proof.Proof.Spec
import Mathlib.Analysis.SpecialFunctions.Log.Basic
import Mathlib.Algebra.Order.BigOperators.Group.Finset
import Mathlib.Algebra.BigOperators.Ring.Finset

noncomputable section

namespace Cert.Spec

open Idealize.ShloMosaic
open scoped BigOperators

/-! ## The temperature -/

/-- The word 0x3DCCCCCD has exponent field 123 and fraction 5033165: it denotes (2^23 + 5033165) · 2^(123 − 127 − 23),
    that is 13421773 / 2^27. -/
theorem tempWord_eq : tempWord = ((13421773 / 134217728 : ℝ) : EReal) := by
  simp [tempWord, Ideal.ofBits, Ideal.ieee, -EReal.coe_mul]; norm_num

/-- Dividing a real by the temperature word f32(0.1) = 13421773/134217728 is multiplying it by 134217728/13421773. -/
theorem temp_eq (x : EReal) (hx : ∃ r : ℝ, x = (r : EReal)) : Ideal.div x tempWord = x * invTemp := by
  obtain ⟨r, rfl⟩ := hx
  rw [tempWord_eq, Ideal.div_coe (by norm_num), invTemp]
  congr 2
  norm_num

/-! ## Real numbers inside the extended reals -/

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero, is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

theorem one_sub_one : (1 : EReal) - 1 = 0 := by
  rw [← EReal.coe_one, ← EReal.coe_sub, sub_self, EReal.coe_zero]

section Row

variable {J : Type}

/-- The mask of column j as a real: one where the column has the anchor's label and is not the anchor. -/
def maskR (eq dg : J → Bool) (j : J) : ℝ := if (eq j && !dg j) = true then 1 else 0
/-- One off the anchor's own column, zero on it. -/
def ndgR (dg : J → Bool) (j : J) : ℝ := if dg j = true then 0 else 1
/-- The reciprocal weight the kernel selects: 1/(w − 1) on a positive column, 1/w elsewhere. -/
def scR (eq dg : J → Bool) (wn : J → ℕ) (j : J) : ℝ :=
  if (eq j && !dg j) = true then 1 / ((wn j : ℝ) - 1) else 1 / (wn j : ℝ)

theorem mask_coe (eq dg : J → Bool) (j : J) :
    b2e (eq j) * (1 - b2e (dg j)) = ((maskR eq dg j : ℝ) : EReal) := by
  unfold maskR
  cases eq j <;> cases dg j <;> simp [b2e, one_sub_one]

theorem pos_coe (eq dg : J → Bool) (j : J) :
    b2e (eq j && !dg j) = ((maskR eq dg j : ℝ) : EReal) := by
  unfold maskR
  cases eq j <;> cases dg j <;> simp [b2e]

theorem ndg_coe (dg : J → Bool) (j : J) : 1 - b2e (dg j) = ((ndgR dg j : ℝ) : EReal) := by
  unfold ndgR
  cases dg j <;> simp [b2e, one_sub_one]

/-! ## The identity over the reals -/

variable [Fintype J]

/-- The reference's inner sum, over the reals. -/
def refS (eq dg : J → Bool) (wn : J → ℕ) (lr : J → ℝ) (Mr : ℝ) : ℝ :=
  ∑ j, Real.exp (lr j - Mr) * ndgR dg j / ((wn j : ℝ) - maskR eq dg j)
/-- The kernel's denominator, over the reals. -/
def kerD (eq dg : J → Bool) (wn : J → ℕ) (lr : J → ℝ) : ℝ :=
  ∑ j, ndgR dg j * Real.exp (lr j) * scR eq dg wn j
/-- The reference's value, over the reals. -/
def refR (eq dg : J → Bool) (wn : J → ℕ) (lr : J → ℝ) (Mr : ℝ) : ℝ :=
  (∑ j, maskR eq dg j * ((lr j - Mr) - Real.log (refS eq dg wn lr Mr))) / ∑ j, maskR eq dg j
/-- The kernel's value, over the reals. -/
def kerR (eq dg : J → Bool) (wn : J → ℕ) (lr : J → ℝ) : ℝ :=
  (∑ j, maskR eq dg j * lr j) / (∑ j, maskR eq dg j) - Real.log (kerD eq dg wn lr)

/-- exp(l − M) = e^{−M} · exp l, term by term: the reference's inner sum is e^{−M} times the kernel's denominator. -/
theorem refS_eq (eq dg : J → Bool) (wn : J → ℕ) (lr : J → ℝ) (Mr : ℝ) :
    refS eq dg wn lr Mr = Real.exp (-Mr) * kerD eq dg wn lr := by
  unfold refS kerD
  rw [Finset.mul_sum]
  refine Finset.sum_congr rfl (fun j _ => ?_)
  rw [sub_eq_neg_add, Real.exp_add]
  unfold maskR scR
  split_ifs
  · ring
  · rw [sub_zero]; ring

theorem maskR_nonneg (eq dg : J → Bool) (j : J) : 0 ≤ maskR eq dg j := by
  unfold maskR; split_ifs <;> norm_num

theorem ndgR_nonneg (dg : J → Bool) (j : J) : 0 ≤ ndgR dg j := by
  unfold ndgR; split_ifs <;> norm_num

/-- The selected reciprocal weight is positive: a weight is at least one, and at least two on a positive column. -/
theorem scR_pos (eq dg : J → Bool) (wn : J → ℕ) (h1 : ∀ j, 1 ≤ wn j)
    (h2 : ∀ j, eq j = true → dg j = false → 2 ≤ wn j) (j : J) : 0 < scR eq dg wn j := by
  unfold scR
  split_ifs with h
  · have hh : eq j = true ∧ dg j = false := by simpa using h
    have : (2 : ℝ) ≤ (wn j : ℝ) := by exact_mod_cast h2 j hh.1 hh.2
    apply one_div_pos.mpr; linarith
  · have : (1 : ℝ) ≤ (wn j : ℝ) := by exact_mod_cast h1 j
    apply one_div_pos.mpr; linarith

/-- The kernel's denominator is positive: every term is nonnegative and a positive column's is positive. -/
theorem kerD_pos (eq dg : J → Bool) (wn : J → ℕ) (lr : J → ℝ) (h1 : ∀ j, 1 ≤ wn j)
    (h2 : ∀ j, eq j = true → dg j = false → 2 ≤ wn j) (hpos : ∃ j, eq j = true ∧ dg j = false) :
    0 < kerD eq dg wn lr := by
  unfold kerD
  obtain ⟨j0, he, hd⟩ := hpos
  refine Finset.sum_pos' (fun j _ => ?_) ⟨j0, Finset.mem_univ _, ?_⟩
  · exact mul_nonneg (mul_nonneg (ndgR_nonneg dg j) (Real.exp_pos _).le) (scR_pos eq dg wn h1 h2 j).le
  · have : ndgR dg j0 = 1 := by unfold ndgR; simp [hd]
    rw [this, one_mul]
    exact mul_pos (Real.exp_pos _) (scR_pos eq dg wn h1 h2 j0)

/-- The number of positive columns is positive. -/
theorem maskSum_pos (eq dg : J → Bool) (hpos : ∃ j, eq j = true ∧ dg j = false) :
    0 < ∑ j, maskR eq dg j := by
  obtain ⟨j0, he, hd⟩ := hpos
  refine Finset.sum_pos' (fun j _ => maskR_nonneg eq dg j) ⟨j0, Finset.mem_univ _, ?_⟩
  unfold maskR; simp [he, hd]

/-- The shift cancels: log S = −M + log den, and −M meets the −M of (l_j − M). -/
theorem refR_eq_kerR (eq dg : J → Bool) (wn : J → ℕ) (lr : J → ℝ) (Mr : ℝ) (h1 : ∀ j, 1 ≤ wn j)
    (h2 : ∀ j, eq j = true → dg j = false → 2 ≤ wn j) (hpos : ∃ j, eq j = true ∧ dg j = false) :
    refR eq dg wn lr Mr = kerR eq dg wn lr := by
  have hD := kerD_pos eq dg wn lr h1 h2 hpos
  have hN := maskSum_pos eq dg hpos
  unfold refR kerR
  rw [refS_eq, Real.log_mul (Real.exp_ne_zero _) hD.ne', Real.log_exp]
  have hsum : ∑ j, maskR eq dg j * ((lr j - Mr) - (-Mr + Real.log (kerD eq dg wn lr)))
      = ∑ j, maskR eq dg j * lr j - (∑ j, maskR eq dg j) * Real.log (kerD eq dg wn lr) := by
    rw [Finset.sum_mul, ← Finset.sum_sub_distrib]
    refine Finset.sum_congr rfl (fun j _ => ?_)
    ring
  rw [hsum]
  field_simp

/-! ## Both values are real, and are those of the identity -/

/-- A weight less its mask is positive. -/
theorem wn_sub_mask_pos (eq dg : J → Bool) (wn : J → ℕ) (h1 : ∀ j, 1 ≤ wn j)
    (h2 : ∀ j, eq j = true → dg j = false → 2 ≤ wn j) (j : J) : 0 < (wn j : ℝ) - maskR eq dg j := by
  unfold maskR
  split_ifs with h
  · have hh : eq j = true ∧ dg j = false := by simpa using h
    have : (2 : ℝ) ≤ (wn j : ℝ) := by exact_mod_cast h2 j hh.1 hh.2
    linarith
  · have : (1 : ℝ) ≤ (wn j : ℝ) := by exact_mod_cast h1 j
    linarith

theorem refS_pos (eq dg : J → Bool) (wn : J → ℕ) (lr : J → ℝ) (Mr : ℝ) (h1 : ∀ j, 1 ≤ wn j)
    (h2 : ∀ j, eq j = true → dg j = false → 2 ≤ wn j) (hpos : ∃ j, eq j = true ∧ dg j = false) :
    0 < refS eq dg wn lr Mr := by
  rw [refS_eq]; exact mul_pos (Real.exp_pos _) (kerD_pos eq dg wn lr h1 h2 hpos)

/-- The reference's value over real data is the real refR. -/
theorem refRow_coe (eq dg : J → Bool) (wn : J → ℕ) (lr : J → ℝ) (Mr : ℝ) (h1 : ∀ j, 1 ≤ wn j)
    (h2 : ∀ j, eq j = true → dg j = false → 2 ≤ wn j) (hpos : ∃ j, eq j = true ∧ dg j = false) :
    refRow eq dg (fun j => (((wn j : ℕ) : ℝ) : EReal)) (fun j => (lr j : EReal)) (Mr : EReal)
      = ((refR eq dg wn lr Mr : ℝ) : EReal) := by
  have hS : (∑ j, Ideal.div (Ideal.exp ((lr j : EReal) - (Mr : EReal)) * (1 - b2e (dg j)))
      ((((wn j : ℕ) : ℝ) : EReal) - b2e (eq j) * (1 - b2e (dg j)))) = ((refS eq dg wn lr Mr : ℝ) : EReal) := by
    unfold refS
    rw [coe_sum]
    refine Finset.sum_congr rfl (fun j _ => ?_)
    rw [mask_coe, ndg_coe, ← EReal.coe_sub, Ideal.exp_coe, ← EReal.coe_mul, ← EReal.coe_sub,
      div_coe_coe _ (wn_sub_mask_pos eq dg wn h1 h2 j).ne']
  have hnum : (∑ j, b2e (eq j) * (1 - b2e (dg j))
      * ((lr j : EReal) - (Mr : EReal) - ((Real.log (refS eq dg wn lr Mr) : ℝ) : EReal)))
      = ((∑ j, maskR eq dg j * ((lr j - Mr) - Real.log (refS eq dg wn lr Mr)) : ℝ) : EReal) := by
    rw [coe_sum]
    refine Finset.sum_congr rfl (fun j _ => ?_)
    rw [mask_coe, ← EReal.coe_sub, ← EReal.coe_sub, ← EReal.coe_mul]
  have hden : (∑ j, b2e (eq j) * (1 - b2e (dg j))) = ((∑ j, maskR eq dg j : ℝ) : EReal) := by
    rw [coe_sum]
    exact Finset.sum_congr rfl (fun j _ => mask_coe eq dg j)
  simp only [refRow]
  rw [hS, Ideal.log_coe, if_neg (not_le.mpr (refS_pos eq dg wn lr Mr h1 h2 hpos)), hnum, hden,
    div_coe_coe _ (maskSum_pos eq dg hpos).ne']
  rfl

/-- The kernel's selected reciprocal weight is the real scR: the guard 1 < w holds on a positive column. -/
theorem sc_coe (eq dg : J → Bool) (wn : J → ℕ) (h1 : ∀ j, 1 ≤ wn j)
    (h2 : ∀ j, eq j = true → dg j = false → 2 ≤ wn j) (j : J) :
    (if (eq j && !dg j) = true
      then (if (1 : EReal) < (((wn j : ℕ) : ℝ) : EReal) then Ideal.div 1 ((((wn j : ℕ) : ℝ) : EReal) - 1) else 0)
      else Ideal.div 1 (((wn j : ℕ) : ℝ) : EReal)) = ((scR eq dg wn j : ℝ) : EReal) := by
  unfold scR
  by_cases h : (eq j && !dg j) = true
  · have hh : eq j = true ∧ dg j = false := by simpa using h
    have h2' : (2 : ℝ) ≤ (wn j : ℝ) := by exact_mod_cast h2 j hh.1 hh.2
    have hlt : (1 : EReal) < (((wn j : ℕ) : ℝ) : EReal) := by
      rw [← EReal.coe_one]; exact EReal.coe_lt_coe_iff.mpr (by linarith)
    have hne : (wn j : ℝ) - 1 ≠ 0 := (by linarith : (0 : ℝ) < (wn j : ℝ) - 1).ne'
    simp only [if_pos h, if_pos hlt]
    rw [← EReal.coe_one, ← EReal.coe_sub, div_coe_coe _ hne]
  · have h1' : (1 : ℝ) ≤ (wn j : ℝ) := by exact_mod_cast h1 j
    have hne : (wn j : ℝ) ≠ 0 := (by linarith : (0 : ℝ) < (wn j : ℝ)).ne'
    simp only [if_neg h]
    rw [← EReal.coe_one, div_coe_coe _ hne]

/-- The kernel's value over real data is the real kerR. -/
theorem kerRow_coe (eq dg : J → Bool) (wn : J → ℕ) (lr : J → ℝ) (h1 : ∀ j, 1 ≤ wn j)
    (h2 : ∀ j, eq j = true → dg j = false → 2 ≤ wn j) (hpos : ∃ j, eq j = true ∧ dg j = false) :
    kerRow eq dg (fun j => (((wn j : ℕ) : ℝ) : EReal)) (fun j => (lr j : EReal))
      = ((kerR eq dg wn lr : ℝ) : EReal) := by
  have hD : (∑ j, (if dg j = true then 0 else Ideal.exp (lr j : EReal))
      * (if (eq j && !dg j) = true
        then (if (1 : EReal) < (((wn j : ℕ) : ℝ) : EReal) then Ideal.div 1 ((((wn j : ℕ) : ℝ) : EReal) - 1) else 0)
        else Ideal.div 1 (((wn j : ℕ) : ℝ) : EReal))) = ((kerD eq dg wn lr : ℝ) : EReal) := by
    unfold kerD
    rw [coe_sum]
    refine Finset.sum_congr rfl (fun j _ => ?_)
    rw [sc_coe eq dg wn h1 h2 j, EReal.coe_mul]
    congr 1
    unfold ndgR
    split_ifs <;> simp
  have hnum : (∑ j, b2e (eq j && !dg j) * (lr j : EReal)) = ((∑ j, maskR eq dg j * lr j : ℝ) : EReal) := by
    rw [coe_sum]
    refine Finset.sum_congr rfl (fun j _ => ?_)
    rw [pos_coe, ← EReal.coe_mul]
  have hden : (∑ j, b2e (eq j && !dg j)) = ((∑ j, maskR eq dg j : ℝ) : EReal) := by
    rw [coe_sum]
    exact Finset.sum_congr rfl (fun j _ => pos_coe eq dg j)
  simp only [kerRow]
  rw [hD, Ideal.log_coe, if_neg (not_le.mpr (kerD_pos eq dg wn lr h1 h2 hpos)), hnum, hden,
    div_coe_coe _ (maskSum_pos eq dg hpos).ne', ← EReal.coe_sub]
  rfl

end Row

/-- The reference's row value is the kernel's: real similarities and shift, every weight a positive count, a weight of at
    least two wherever the column is a positive (same label, not the anchor), and at least one positive column. -/
theorem row_eq {J : Type} [Fintype J] (eq dg : J → Bool) (w l : J → EReal) (M : EReal)
    (hl : ∀ j, ∃ r : ℝ, l j = (r : EReal)) (hM : ∃ r : ℝ, M = (r : EReal))
    (hw : ∀ j, ∃ n : ℕ, 1 ≤ n ∧ w j = ((n : ℝ) : EReal))
    (hw2 : ∀ j, eq j = true → dg j = false → ∃ n : ℕ, 2 ≤ n ∧ w j = ((n : ℝ) : EReal))
    (hpos : ∃ j, eq j = true ∧ dg j = false) :
    refRow eq dg w l M = kerRow eq dg w l := by
  choose lr hlr using hl
  obtain ⟨Mr, rfl⟩ := hM
  choose wn hwn using hw
  have h1 : ∀ j, 1 ≤ wn j := fun j => (hwn j).1
  have h2 : ∀ j, eq j = true → dg j = false → 2 ≤ wn j := by
    intro j he hd
    obtain ⟨n, hn, hnw⟩ := hw2 j he hd
    rw [(hwn j).2] at hnw
    have hr : (wn j : ℝ) = (n : ℝ) := EReal.coe_eq_coe_iff.mp hnw
    have hn' : wn j = n := by exact_mod_cast hr
    omega
  have hw' : w = fun j => (((wn j : ℕ) : ℝ) : EReal) := funext fun j => (hwn j).2
  have hl' : l = fun j => (lr j : EReal) := funext hlr
  rw [hw', hl', refRow_coe eq dg wn lr Mr h1 h2 hpos, kerRow_coe eq dg wn lr h1 h2 hpos,
    refR_eq_kerR eq dg wn lr Mr h1 h2 hpos]

end Cert.Spec

end
-- ==== Proof.RefIs.lean ====
/-
  The reference's result is the loss of the per-anchor reference values, over the arrays the reference computes.
-/
import proofs.«429414_j30889404793117_3_alg».proof.Proof.Spec
import proofs.«429414_j30889404793117_3_alg».proof.Proof.Gen.ReferenceIdeal.Read
import Idealize.ShloMosaic.Lib.IdealHost
import Idealize.ShloMosaic.PureOps.Reduce

noncomputable section

namespace Cert.RefValue

open Idealize.ShloMosaic Idealize.ShloMosaic.ValueIdx Cert.ReferenceIdeal Cert.ReferenceIdeal.Read

/-! ### Bits as extended reals -/

/-- The unsigned value of a one-bit word, as an extended real, is one or zero. -/
theorem uitofp_ofBool (b : Bool) :
    FloatOps.uitofp (F := Ideal) .f32 (BitVec.ofBool b) = Cert.Spec.b2e b := by
  cases b
  · show (((BitVec.ofBool false).toNat : ℝ) : EReal) = Cert.Spec.b2e false
    simp [Cert.Spec.b2e]
  · show (((BitVec.ofBool true).toNat : ℝ) : EReal) = Cert.Spec.b2e true
    simp [Cert.Spec.b2e]

/-- The bit of a word equality, as an extended real. -/
theorem uitofp_cmpi_eq {w : Nat} (a b : BitVec w) :
    FloatOps.uitofp (F := Ideal) .f32 (IntOp.cmpi .eq a b) = Cert.Spec.b2e (decide (a = b)) := by
  have hb : (a == b) = decide (a = b) := by
    by_cases e : a = b
    · simp [e]
    · simp [e]
  have h : IntOp.cmpi .eq a b = BitVec.ofBool (decide (a = b)) := by
    show BitVec.ofBool (a == b) = _
    rw [hb]
  rw [h, uitofp_ofBool]

/-- Two numbers below 2³² are equal as 32-bit words exactly when they are equal. -/
theorem ofNat_eq_iff {a b : Nat} (ha : a < 2 ^ 32) (hb : b < 2 ^ 32) :
    BitVec.ofNat 32 a = BitVec.ofNat 32 b ↔ a = b := by
  constructor
  · intro h
    have := congrArg BitVec.toNat h
    simp only [BitVec.toNat_ofNat] at this
    rw [Nat.mod_eq_of_lt ha, Nat.mod_eq_of_lt hb] at this
    exact this
  · intro h; rw [h]

/-! ### The composed index functions, by coordinates -/

theorem idx_anchor (i : Fin 4096) (j : Fin 9192) :
    idx_main_v13 (idx_main_v14 (idx_main_v16 (ix2 i j))) = ix1 (Cert.Spec.anchorCol i) :=
  funext fun a => Fin.ext (by match a with | ⟨0, _⟩ => rfl)

theorem idx_col (i : Fin 4096) (j : Fin 9192) : idx_main_v15 (idx_main_v17 (ix2 i j)) = ix1 j :=
  funext fun a => Fin.ext (by match a with | ⟨0, _⟩ => rfl)

theorem idx_iota_col (i : Fin 4096) (j : Fin 9192) : idx_main_v21 (idx_main_v24 (ix2 i j)) = ix1 j :=
  funext fun a => Fin.ext (by match a with | ⟨0, _⟩ => rfl)

theorem idx_iota_row (i : Fin 4096) (j : Fin 9192) : idx_main_v23 (idx_main_v25 (ix2 i j)) = ix1 i :=
  funext fun a => Fin.ext (by match a with | ⟨0, _⟩ => rfl)

theorem idx_lhs (i : Fin 4096) (j : Fin 9192) (k : Fin 512) : lidx_main_v33 (ix2 i j) k = ix2 i k :=
  funext fun a => Fin.ext (by match a with | ⟨0, _⟩ => rfl | ⟨1, _⟩ => rfl)

theorem idx_rhs (i : Fin 4096) (j : Fin 9192) (k : Fin 512) :
    idx_main_v32 (ridx_main_v33 (ix2 i j) k) = ix2 j k :=
  funext fun a => Fin.ext (by match a with | ⟨0, _⟩ => rfl | ⟨1, _⟩ => rfl)

theorem idx_shift (i : Fin 4096) (j : Fin 9192) : idx_main_v37 (idx_main_v38 (ix2 i j)) = ix1 i :=
  funext fun a => Fin.ext (by match a with | ⟨0, _⟩ => rfl)

theorem idx_weight (i : Fin 4096) (j : Fin 9192) : idx_main_v49 (idx_main_v50 (ix2 i j)) = ix1 j :=
  funext fun a => Fin.ext (by match a with | ⟨0, _⟩ => rfl)

theorem idx_logsum (i : Fin 4096) (j : Fin 9192) : idx_main_v54 (idx_main_v56 (ix2 i j)) = ix1 i :=
  funext fun a => Fin.ext (by match a with | ⟨0, _⟩ => rfl)

theorem idx_row53 (i : Fin 4096) (k : Fin 9192) : idx_main_v53 (ix1 i) k = ix2 i k :=
  funext fun a => Fin.ext (by match a with | ⟨0, _⟩ => rfl | ⟨1, _⟩ => rfl)

theorem idx_row59 (i : Fin 4096) (k : Fin 9192) : idx_main_v59 (ix1 i) k = ix2 i k :=
  funext fun a => Fin.ext (by match a with | ⟨0, _⟩ => rfl | ⟨1, _⟩ => rfl)

theorem idx_row60 (i : Fin 4096) (k : Fin 9192) : idx_main_v60 (ix1 i) k = ix2 i k :=
  funext fun a => Fin.ext (by match a with | ⟨0, _⟩ => rfl | ⟨1, _⟩ => rfl)

/-! ### The stages at one anchor and one column -/

/-- Stage 19: the bit "column j has anchor i's label". -/
theorem same_stage (x2 : (⟨S4096, .i32⟩ : BufTy).Contents (Elt Ideal)) (i : Fin 4096) (j : Fin 9192) :
    val_main_v19 (F := Ideal) x2 (ix2 i j)
      = Cert.Spec.b2e (Cert.Spec.sameLabel (val_main_v2 (F := Ideal) x2) i j) := by
  rw [val_main_v19_apply, val_main_v18_apply, val_main_v16_apply, val_main_v14_apply, val_main_v13_apply,
    val_main_v17_apply, val_main_v15_apply, idx_anchor, idx_col]
  unfold Cert.Spec.sameLabel
  generalize val_main_v2 (F := Ideal) x2 = lab
  exact uitofp_cmpi_eq _ _

/-- Stage 27: the bit "column j is anchor i itself". -/
theorem diag_stage (i : Fin 4096) (j : Fin 9192) :
    val_main_v27 (F := Ideal) (ix2 i j) = Cert.Spec.b2e (Cert.Spec.isDiag i j) := by
  rw [val_main_v27_apply, val_main_v26_apply, val_main_v24_apply, val_main_v21_apply, val_main_v20_apply,
    val_main_v25_apply, val_main_v23_apply, val_main_v22_apply, idx_iota_col, idx_iota_row, uitofp_cmpi_eq]
  unfold Cert.Spec.isDiag
  show Cert.Spec.b2e (decide (BitVec.ofNat 32 j.val = BitVec.ofNat 32 i.val)) = _
  have e : (BitVec.ofNat 32 j.val = BitVec.ofNat 32 i.val) ↔ (j.val = i.val) :=
    ofNat_eq_iff (by have := j.isLt; omega) (by have := i.isLt; omega)
  rw [decide_eq_decide.mpr e]

/-- Stage 29: one minus the diagonal bit. -/
theorem offdiag_stage (i : Fin 4096) (j : Fin 9192) :
    val_main_v29 (F := Ideal) (ix2 i j) = 1 - Cert.Spec.b2e (Cert.Spec.isDiag i j) := by
  rw [val_main_v29_apply, val_main_v28_apply, val_main_cst_3_apply, diag_stage]
  show Ideal.ofBits .f32 0x3F800000#32 - _ = _
  rw [Ideal.ofBits_one_f32]

/-- Stage 30: the positive mask. -/
theorem mask_stage (x2 : (⟨S4096, .i32⟩ : BufTy).Contents (Elt Ideal)) (i : Fin 4096) (j : Fin 9192) :
    val_main_v30 (F := Ideal) x2 (ix2 i j)
      = Cert.Spec.b2e (Cert.Spec.sameLabel (val_main_v2 (F := Ideal) x2) i j) * (1 - Cert.Spec.b2e (Cert.Spec.isDiag i j)) := by
  rw [val_main_v30_apply, same_stage, offdiag_stage]
  rfl

/-- Stage 33: the similarity of anchor i to column j before the temperature. -/
theorem dot_stage (x0 : (⟨S1000x512, .f32⟩ : BufTy).Contents (Elt Ideal)) (x1 x3 : (⟨S4096x512, .f32⟩ : BufTy).Contents (Elt Ideal))
    (i : Fin 4096) (j : Fin 9192) :
    val_main_v33 (F := Ideal) x0 x1 x3 (ix2 i j) = Cert.Spec.dotAt (val_main_v31 (F := Ideal) x0 x1 x3) x1 i j := by
  rw [val_main_v33_apply]
  unfold Cert.Spec.dotAt
  refine Finset.sum_congr rfl fun k _ => ?_
  rw [val_main_v32_apply, idx_lhs, idx_rhs]

/-- Stage 35: the similarity divided by the temperature word. -/
theorem logit_stage (x0 : (⟨S1000x512, .f32⟩ : BufTy).Contents (Elt Ideal)) (x1 x3 : (⟨S4096x512, .f32⟩ : BufTy).Contents (Elt Ideal))
    (i : Fin 4096) (j : Fin 9192) :
    val_main_v35 (F := Ideal) x0 x1 x3 (ix2 i j)
      = Ideal.div (Cert.Spec.dotAt (val_main_v31 (F := Ideal) x0 x1 x3) x1 i j) Cert.Spec.tempWord := by
  rw [val_main_v35_apply, dot_stage, val_main_v34_apply, val_main_cst_4_apply]
  generalize Cert.Spec.dotAt (val_main_v31 (F := Ideal) x0 x1 x3) x1 i j = d
  rfl

/-- Stage 39: the shifted similarity. -/
theorem shifted_stage (x0 : (⟨S1000x512, .f32⟩ : BufTy).Contents (Elt Ideal)) (x1 x3 : (⟨S4096x512, .f32⟩ : BufTy).Contents (Elt Ideal))
    (i : Fin 4096) (j : Fin 9192) :
    val_main_v39 (F := Ideal) x0 x1 x3 (ix2 i j)
      = Ideal.div (Cert.Spec.dotAt (val_main_v31 (F := Ideal) x0 x1 x3) x1 i j) Cert.Spec.tempWord
          - val_main_v36 (F := Ideal) x0 x1 x3 (ix1 i) := by
  rw [val_main_v39_apply, logit_stage, val_main_v38_apply, val_main_v37_apply, idx_shift]
  rfl

/-- Stage 41: the exponential of the shifted similarity, off the diagonal. -/
theorem exp_stage (x0 : (⟨S1000x512, .f32⟩ : BufTy).Contents (Elt Ideal)) (x1 x3 : (⟨S4096x512, .f32⟩ : BufTy).Contents (Elt Ideal))
    (i : Fin 4096) (j : Fin 9192) :
    val_main_v41 (F := Ideal) x0 x1 x3 (ix2 i j)
      = Ideal.exp (val_main_v39 (F := Ideal) x0 x1 x3 (ix2 i j)) * (1 - Cert.Spec.b2e (Cert.Spec.isDiag i j)) := by
  rw [val_main_v41_apply, val_main_v40_apply, offdiag_stage]
  generalize val_main_v39 (F := Ideal) x0 x1 x3 (ix2 i j) = d
  rfl

/-- Stage 51: the column's weight less the mask. -/
theorem weight_stage (x2 x4 : (⟨S4096, .i32⟩ : BufTy).Contents (Elt Ideal)) (i : Fin 4096) (j : Fin 9192) :
    val_main_v51 (F := Ideal) x2 x4 (ix2 i j)
      = val_main_v48 (F := Ideal) x2 x4 (ix1 j) - val_main_v30 (F := Ideal) x2 (ix2 i j) := by
  rw [val_main_v51_apply, val_main_v50_apply, val_main_v49_apply, idx_weight]
  rfl

/-- Stage 52: one term of the inner sum. -/
theorem term_stage (x0 : (⟨S1000x512, .f32⟩ : BufTy).Contents (Elt Ideal)) (x1 : (⟨S4096x512, .f32⟩ : BufTy).Contents (Elt Ideal))
    (x2 : (⟨S4096, .i32⟩ : BufTy).Contents (Elt Ideal)) (x3 : (⟨S4096x512, .f32⟩ : BufTy).Contents (Elt Ideal))
    (x4 : (⟨S4096, .i32⟩ : BufTy).Contents (Elt Ideal)) (i : Fin 4096) (j : Fin 9192) :
    val_main_v52 (F := Ideal) x0 x1 x2 x3 x4 (ix2 i j)
      = Ideal.div (Ideal.exp (val_main_v39 (F := Ideal) x0 x1 x3 (ix2 i j)) * (1 - Cert.Spec.b2e (Cert.Spec.isDiag i j)))
          (val_main_v48 (F := Ideal) x2 x4 (ix1 j) - val_main_v30 (F := Ideal) x2 (ix2 i j)) := by
  rw [val_main_v52_apply, exp_stage, weight_stage]
  rfl

/-- Stage 53: the inner sum of anchor i. -/
theorem inner_stage (x0 : (⟨S1000x512, .f32⟩ : BufTy).Contents (Elt Ideal)) (x1 : (⟨S4096x512, .f32⟩ : BufTy).Contents (Elt Ideal))
    (x2 : (⟨S4096, .i32⟩ : BufTy).Contents (Elt Ideal)) (x3 : (⟨S4096x512, .f32⟩ : BufTy).Contents (Elt Ideal))
    (x4 : (⟨S4096, .i32⟩ : BufTy).Contents (Elt Ideal)) (i : Fin 4096) :
    val_main_v53 (F := Ideal) x0 x1 x2 x3 x4 (ix1 i)
      = ∑ j : Fin 9192, Ideal.div (Ideal.exp (val_main_v39 (F := Ideal) x0 x1 x3 (ix2 i j)) * (1 - Cert.Spec.b2e (Cert.Spec.isDiag i j)))
          (val_main_v48 (F := Ideal) x2 x4 (ix1 j) - val_main_v30 (F := Ideal) x2 (ix2 i j)) := by
  rw [val_main_v53_apply, val_main_cst_8_apply]
  show Ideal.ofBits .f32 0x00000000#32 + _ = _
  rw [Ideal.ofBits_zero_f32, zero_add]
  refine Finset.sum_congr rfl fun k _ => ?_
  rw [idx_row53, term_stage]

/-- Stage 58: the mask times the log-probability. -/
theorem prod_stage (x0 : (⟨S1000x512, .f32⟩ : BufTy).Contents (Elt Ideal)) (x1 : (⟨S4096x512, .f32⟩ : BufTy).Contents (Elt Ideal))
    (x2 : (⟨S4096, .i32⟩ : BufTy).Contents (Elt Ideal)) (x3 : (⟨S4096x512, .f32⟩ : BufTy).Contents (Elt Ideal))
    (x4 : (⟨S4096, .i32⟩ : BufTy).Contents (Elt Ideal)) (i : Fin 4096) (j : Fin 9192) :
    val_main_v58 (F := Ideal) x0 x1 x2 x3 x4 (ix2 i j)
      = val_main_v30 (F := Ideal) x2 (ix2 i j)
          * (val_main_v39 (F := Ideal) x0 x1 x3 (ix2 i j) - Ideal.log (val_main_v53 (F := Ideal) x0 x1 x2 x3 x4 (ix1 i))) := by
  rw [val_main_v58_apply, val_main_v57_apply, val_main_v56_apply, val_main_v55_apply, val_main_v54_apply, idx_logsum]
  rfl

/-- Stage 59: the numerator of anchor i. -/
theorem num_stage (x0 : (⟨S1000x512, .f32⟩ : BufTy).Contents (Elt Ideal)) (x1 : (⟨S4096x512, .f32⟩ : BufTy).Contents (Elt Ideal))
    (x2 : (⟨S4096, .i32⟩ : BufTy).Contents (Elt Ideal)) (x3 : (⟨S4096x512, .f32⟩ : BufTy).Contents (Elt Ideal))
    (x4 : (⟨S4096, .i32⟩ : BufTy).Contents (Elt Ideal)) (i : Fin 4096) :
    val_main_v59 (F := Ideal) x0 x1 x2 x3 x4 (ix1 i)
      = ∑ j : Fin 9192, val_main_v30 (F := Ideal) x2 (ix2 i j)
          * (val_main_v39 (F := Ideal) x0 x1 x3 (ix2 i j) - Ideal.log (val_main_v53 (F := Ideal) x0 x1 x2 x3 x4 (ix1 i))) := by
  rw [val_main_v59_apply, val_main_cst_9_apply]
  show Ideal.ofBits .f32 0x00000000#32 + _ = _
  rw [Ideal.ofBits_zero_f32, zero_add]
  refine Finset.sum_congr rfl fun k _ => ?_
  rw [idx_row59, prod_stage]

/-- Stage 60: the number of positive columns of anchor i. -/
theorem den_stage (x2 : (⟨S4096, .i32⟩ : BufTy).Contents (Elt Ideal)) (i : Fin 4096) :
    val_main_v60 (F := Ideal) x2 (ix1 i) = ∑ j : Fin 9192, val_main_v30 (F := Ideal) x2 (ix2 i j) := by
  rw [val_main_v60_apply, val_main_cst_10_apply]
  show Ideal.ofBits .f32 0x00000000#32 + _ = _
  rw [Ideal.ofBits_zero_f32, zero_add]
  refine Finset.sum_congr rfl fun k _ => ?_
  rw [idx_row60]

/-- Stage 61 at anchor i is the reference's row value. -/
theorem row_stage (x0 : (⟨S1000x512, .f32⟩ : BufTy).Contents (Elt Ideal)) (x1 : (⟨S4096x512, .f32⟩ : BufTy).Contents (Elt Ideal))
    (x2 : (⟨S4096, .i32⟩ : BufTy).Contents (Elt Ideal)) (x3 : (⟨S4096x512, .f32⟩ : BufTy).Contents (Elt Ideal))
    (x4 : (⟨S4096, .i32⟩ : BufTy).Contents (Elt Ideal)) (i : Fin 4096) :
    val_main_v61 (F := Ideal) x0 x1 x2 x3 x4 (ix1 i)
      = Cert.Spec.rowRef (val_main_v2 (F := Ideal) x2) (val_main_v48 (F := Ideal) x2 x4)
          (val_main_v31 (F := Ideal) x0 x1 x3) x1 (val_main_v36 (F := Ideal) x0 x1 x3 (ix1 i)) i := by
  rw [val_main_v61_apply, num_stage, den_stage, inner_stage]
  simp only [mask_stage, shifted_stage]
  generalize val_main_v2 (F := Ideal) x2 = lab
  generalize val_main_v48 (F := Ideal) x2 x4 = wt
  generalize val_main_v31 (F := Ideal) x0 x1 x3 = fa
  generalize val_main_v36 (F := Ideal) x0 x1 x3 (ix1 i) = M
  rfl

/-! ### The sum over the anchors -/

/-- A rank-1 index set is its coordinate range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The reference's scalar result: minus the mean over the anchors of the reference row value, with the labels
    (stage 2), the column weights (stage 48), the stacked features (stage 31) and the row maxima (stage 36) as the
    reference computes them. -/
theorem ref_value (x0 : (⟨S1000x512, .f32⟩ : BufTy).Contents (Elt Ideal)) (x1 x3 : (⟨S4096x512, .f32⟩ : BufTy).Contents (Elt Ideal))
    (x2 x4 : (⟨S4096, .i32⟩ : BufTy).Contents (Elt Ideal)) (i0 : S_.Idx) :
    val_main_v64 (F := Ideal) x0 x1 x2 x3 x4 i0
      = Cert.Spec.lossOf (fun i => Cert.Spec.rowRef (val_main_v2 (F := Ideal) x2) (val_main_v48 (F := Ideal) x2 x4)
          (val_main_v31 (F := Ideal) x0 x1 x3) x1 (val_main_v36 (F := Ideal) x0 x1 x3 (ix1 i)) i) := by
  rw [val_main_v64_apply, val_main_v63_apply, val_main_v62_apply, val_main_cst_11_apply, val_main_cst_12_apply]
  unfold Cert.Spec.lossOf Cert.Spec.batchWord
  simp only [← row_stage]
  generalize val_main_v61 (F := Ideal) x0 x1 x2 x3 x4 = r
  show -(Ideal.div (Ideal.ofBits .f32 0x00000000#32 + ∑ j : S4096.Idx, r j) (Ideal.ofBits .f32 0x45800000#32)) = _
  rw [Ideal.ofBits_zero_f32, zero_add, sum_idx1]

/-! ### The row maximum is real -/

/-- A finite sum of reals, taken in the extended reals, is real. -/
theorem sum_real {ι : Type} (s : Finset ι) (f : ι → EReal) (hf : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    obtain ⟨ra, ea⟩ := hf a (Finset.mem_insert_self a s)
    obtain ⟨rs, es⟩ := ih (fun k hk => hf k (Finset.mem_insert_of_mem hk))
    exact ⟨ra + rs, by rw [Finset.sum_insert ha, ea, es, EReal.coe_add]⟩

/-- The maximum, from −∞, of finitely many reals is −∞ over no value and real otherwise. -/
theorem fold_max_bot_or_real {ι : Type} (f : ι → EReal) (s : Finset ι) (hf : ∀ k ∈ s, ∃ r : ℝ, f k = (r : EReal)) :
    (s = ∅ ∧ s.fold max ⊥ f = ⊥) ∨ ∃ r : ℝ, s.fold max ⊥ f = (r : EReal) := by
  classical
  induction s using Finset.induction_on with
  | empty => exact Or.inl ⟨rfl, Finset.fold_empty⟩
  | insert a s ha ih =>
    obtain ⟨ra, ea⟩ := hf a (Finset.mem_insert_self a s)
    right
    rw [Finset.fold_insert ha, ea]
    rcases ih (fun k hk => hf k (Finset.mem_insert_of_mem hk)) with ⟨_, e⟩ | ⟨rs, e⟩
    · exact ⟨ra, by rw [e]; exact max_bot_right _⟩
    · rcases le_total ra rs with h | h
      · exact ⟨rs, by rw [e, max_eq_right (EReal.coe_le_coe_iff.mpr h)]⟩
      · exact ⟨ra, by rw [e, max_eq_left (EReal.coe_le_coe_iff.mpr h)]⟩

/-- The maximum, from −∞, of finitely many reals, at least one, is real. -/
theorem fold_max_real {ι : Type} (f : ι → EReal) (s : Finset ι) (hs : s.Nonempty)
    (hf : ∀ k ∈ s, ∃ r : ℝ, f k = (r : EReal)) : ∃ r : ℝ, s.fold max ⊥ f = (r : EReal) := by
  rcases fold_max_bot_or_real f s hf with ⟨e, _⟩ | h
  · exact absurd e hs.ne_empty
  · exact h

/-- The temperature word is the real 13421773 / 2²⁷. -/
theorem tempWord_eq : Cert.Spec.tempWord = (((13421773 : ℝ) / 134217728 : ℝ) : EReal) := by
  unfold Cert.Spec.tempWord
  simp [Ideal.ofBits, Ideal.ieee, -EReal.coe_mul]; norm_num

/-- The pattern of −∞ is the bottom of the extended reals. -/
theorem ofBits_neg_inf_f32 : Ideal.ofBits .f32 0xFF800000#32 = ⊥ := by
  simp [Ideal.ofBits, Ideal.ieee]

/-- The similarity of real features is real. -/
theorem dot_real (fa : Cert.Spec.S9192x512.Idx → EReal) (x : Cert.Spec.S4096x512.Idx → EReal)
    (hfa : ∀ q, ∃ r : ℝ, fa q = (r : EReal)) (hx : ∀ q, ∃ r : ℝ, x q = (r : EReal)) (i : Fin 4096) (j : Fin 9192) :
    ∃ r : ℝ, Cert.Spec.dotAt fa x i j = (r : EReal) := by
  unfold Cert.Spec.dotAt
  refine sum_real _ _ fun k _ => ?_
  obtain ⟨a, ea⟩ := hx (ix2 i k)
  obtain ⟨b, eb⟩ := hfa (ix2 j k)
  exact ⟨a * b, by rw [ea, eb, EReal.coe_mul]⟩

/-- Column k put back into the reduced index of anchor i is the index (i, k). -/
theorem lift_anchor (h : S4096x9192.Reduces [1] S4096) (i : Fin 4096) (k : Fin (S4096x9192.size 1)) :
    h.lift (ix1 i) k = ix2 i (⟨k.val, k.isLt⟩ : Fin 9192) :=
  funext fun a => Fin.ext (by match a with | ⟨0, _⟩ => rfl | ⟨1, _⟩ => rfl)

/-- The row maximum of real similarities is real. -/
theorem shift_real (x0 : (⟨S1000x512, .f32⟩ : BufTy).Contents (Elt Ideal)) (x1 x3 : (⟨S4096x512, .f32⟩ : BufTy).Contents (Elt Ideal))
    (hfa : ∀ q, ∃ r : ℝ, val_main_v31 (F := Ideal) x0 x1 x3 q = (r : EReal)) (hx : ∀ q, ∃ r : ℝ, x1 q = (r : EReal))
    (i : Fin 4096) : ∃ r : ℝ, val_main_v36 (F := Ideal) x0 x1 x3 (ix1 i) = (r : EReal) := by
  have hreal : ∀ j : Fin 9192, ∃ r : ℝ, val_main_v35 (F := Ideal) x0 x1 x3 (ix2 i j) = (r : EReal) := by
    intro j
    rw [logit_stage]
    obtain ⟨d, hd⟩ := dot_real _ x1 hfa hx i j
    rw [hd, tempWord_eq, Ideal.div_coe (by norm_num)]
    exact ⟨d * (1 / (13421773 / 134217728)), by rw [EReal.coe_mul]⟩
  have hred : S4096x9192.Reduces [1] S4096 := by decide
  unfold val_main_v36
  generalize val_main_v35 (F := Ideal) x0 x1 x3 = y at hreal ⊢
  have e := Host.reduce_eq_fold_single (FloatOps.maximumf (F := Ideal) (φ := .f32)) y (val_main_cst_5 (F := Ideal))
    Gen.reducesTo_S4096x9192_S4096_d1 hred Gen.h_S_ (ix1 i)
  rw [e, val_main_cst_5_apply]
  show ∃ r : ℝ, Finset.fold max (Ideal.ofBits .f32 0xFF800000#32) (y ∘ hred.lift (ix1 i)) Finset.univ = (r : EReal)
  rw [ofBits_neg_inf_f32]
  refine fold_max_real _ _ ⟨⟨0, by decide⟩, Finset.mem_univ _⟩ fun k _ => ?_
  show ∃ r : ℝ, y (hred.lift (ix1 i) k) = (r : EReal)
  rw [lift_anchor]
  exact hreal _

end Cert.RefValue

end
-- ==== Proof.Bridge.lean ====
/-
  The two row values agree on admitted inputs: with real features the similarities are real, so dividing by the
  temperature word is multiplying by its reciprocal, the row maximum is real, the weights are positive counts and at
  least two at a positive column, and every anchor has a positive column (its class's centre); the row identity applies.
-/
import proofs.«429414_j30889404793117_3_alg».proof.Proof.Spec
import proofs.«429414_j30889404793117_3_alg».proof.Proof.RowAlgebra
import proofs.«429414_j30889404793117_3_alg».proof.Proof.RefIs
import proofs.«429414_j30889404793117_3_alg».proof.Proof.HostFacts

noncomputable section

namespace Cert.Bridge

open Idealize.ShloMosaic Idealize.ShloMosaic.ValueIdx Cert.ReferenceIdeal Cert.ReferenceIdeal.Read

/-- A finite sum of real extended reals is real. -/
theorem sum_real {J : Type} [Fintype J] (f : J → EReal) (hf : ∀ j, ∃ r : ℝ, f j = (r : EReal)) :
    ∃ r : ℝ, (∑ j, f j) = (r : EReal) := by
  classical
  choose g hg using hf
  refine ⟨∑ j, g j, ?_⟩
  have : ∀ s : Finset J, (∑ j ∈ s, f j) = ((∑ j ∈ s, g j : ℝ) : EReal) := by
    intro s
    induction s using Finset.induction_on with
    | empty => simp
    | insert a s ha ih => rw [Finset.sum_insert ha, Finset.sum_insert ha, ih, hg a, EReal.coe_add]
  exact this Finset.univ

/-- The similarity of an anchor to a column is real when the features are. -/
theorem dot_real (fa : Cert.Spec.S9192x512.Idx → EReal) (x : Cert.Spec.S4096x512.Idx → EReal)
    (hfa : ∀ q, ∃ r : ℝ, fa q = (r : EReal)) (hx : ∀ q, ∃ r : ℝ, x q = (r : EReal)) (i : Fin 4096) (j : Fin 9192) :
    ∃ r : ℝ, Cert.Spec.dotAt fa x i j = (r : EReal) := by
  unfold Cert.Spec.dotAt
  refine sum_real _ fun k => ?_
  obtain ⟨a, ha⟩ := hx (ix2 i k)
  obtain ⟨b, hb⟩ := hfa (ix2 j k)
  exact ⟨a * b, by rw [ha, hb, EReal.coe_mul]⟩

/-- On admitted inputs the reference's row value is the kernel's. -/
theorem row_values_agree (x0 : (⟨S1000x512, .f32⟩ : BufTy).Contents (Elt Ideal)) (x1 x3 : (⟨S4096x512, .f32⟩ : BufTy).Contents (Elt Ideal))
    (x2 x4 : (⟨S4096, .i32⟩ : BufTy).Contents (Elt Ideal))
    (h0 : ∀ q, ∃ r : ℝ, x0 q = (r : EReal)) (h1 : ∀ q, ∃ r : ℝ, x1 q = (r : EReal)) (h3 : ∀ q, ∃ r : ℝ, x3 q = (r : EReal))
    (hT : Cert.HostFacts.InRange x2) (i : Fin 4096) :
    Cert.Spec.rowRef (val_main_v2 (F := Ideal) x2) (val_main_v48 (F := Ideal) x2 x4) (val_main_v31 (F := Ideal) x0 x1 x3) x1
        (val_main_v36 (F := Ideal) x0 x1 x3 (ix1 i)) i
      = Cert.Spec.rowKer (val_main_v2 (F := Ideal) x2) (val_main_v48 (F := Ideal) x2 x4) (val_main_v31 (F := Ideal) x0 x1 x3) x1 i := by
  have hfa := Cert.HostFacts.fa_real x0 x1 x3 h0 h1 h3
  have hdot := dot_real (val_main_v31 (F := Ideal) x0 x1 x3) x1 hfa h1 i
  unfold Cert.Spec.rowRef Cert.Spec.rowKer
  have hl : (fun j : Fin 9192 => Ideal.div (Cert.Spec.dotAt (val_main_v31 (F := Ideal) x0 x1 x3) x1 i j) Cert.Spec.tempWord)
      = fun j => Cert.Spec.dotAt (val_main_v31 (F := Ideal) x0 x1 x3) x1 i j * Cert.Spec.invTemp :=
    funext fun j => Cert.Spec.temp_eq _ (hdot j)
  rw [hl]
  refine Cert.Spec.row_eq _ _ _ _ _ (fun j => ?_) (Cert.RefValue.shift_real x0 x1 x3 hfa h1 i)
    (fun j => Cert.HostFacts.wt_nat x2 x4 j) (fun j heq hd => Cert.HostFacts.wt_two x2 x4 hT i j heq hd)
    (Cert.HostFacts.pos_exists x2 hT i)
  obtain ⟨r, hr⟩ := hdot j
  exact ⟨r * (134217728 / 13421773 : ℝ), by rw [hr]; unfold Cert.Spec.invTemp; rw [EReal.coe_mul]⟩

end Cert.Bridge

end
-- ==== Proof.PreFacts.lean ====
/-
  What the precondition says of the inputs: the three feature arrays hold real numbers and every target is a class label.
-/
import proofs.«429414_j30889404793117_3_alg».proof.Pre_finite_inputs
import proofs.«429414_j30889404793117_3_alg».proof.Proof.Gen.Pre_finite_inputs
import Idealize.ShloMosaic.PureOps.Ideal
import Idealize.ShloMosaic.Lib.ReduceAll
import Idealize.ShloMosaic.Lib.StableHlo.Predicate

noncomputable section

namespace Cert.PreFacts

open Idealize.ShloMosaic Cert.Pre_finite_inputs

/-- The scalar shape has one index. -/
local instance : Subsingleton S_.Idx := ⟨fun a b => funext fun d => d.elim0⟩

/-- The f32 word of +infinity denotes the top extended real. -/
theorem inf_word : Ideal.ofBits .f32 0x7F800000#32 = (⊤ : EReal) := by simp [Ideal.ofBits, Ideal.ieee]

/-- An extended real whose absolute value max x (-x) is strictly below +infinity is a real number. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [inf_word] at h'
  unfold Ideal.cmp at h'
  induction x using EReal.rec with
  | bot => simp at h'
  | coe r => exact ⟨r, rfl⟩
  | top => simp at h'

/-- One block of the predicate: if "abs a < +infinity", reduced by AND over the whole array, is one, every entry of a is real. -/
theorem block {s : Shape} {axes : List (Fin s.rank)} (a : FVec Ideal s .f32)
    (hb : S_.BroadcastsInDim s (![] : Fin 0 → Fin s.rank)) (hr : s.ReducesTo axes S_) (h0 : 0 < S_.numel) (j : S_.Idx)
    (e : Host.reduce IntOp.andi (cmpf .olt (Host.absf a) (broadcastInDim s ![] hb (constant (F := Ideal) S_ .f32 0x7F800000#32)))
          (constantI S_ 1 1#1) hr h0 j = 1#1) (q : s.Idx) : ∃ r : ℝ, a q = (r : EReal) := by
  have hq := Host.reduce_andi_all _ _ hr h0 _ e q
  exact real_of_abs_lt (a q) hq

/-- The block over the targets: if "0 <= t and t < 1000" (signed), reduced by AND over all targets, is one, every target is in range. -/
theorem targets (a2 : IVec S4096 32) (hb : S_.BroadcastsInDim S4096 (![] : Fin 0 → Fin S4096.rank))
    (hr : S4096.ReducesTo [0] S_) (h0 : 0 < S_.numel) (j : S_.Idx)
    (e : Host.reduce IntOp.andi
          (andi (cmpi .sge a2 (broadcastInDim S4096 ![] hb (constantI S_ 32 0#32)))
                (cmpi .slt a2 (broadcastInDim S4096 ![] hb (constantI S_ 32 1000#32))))
          (constantI S_ 1 1#1) hr h0 j = 1#1) (p : S4096.Idx) :
    0 ≤ (a2 p).toInt ∧ (a2 p).toInt < 1000 := by
  have hp := Host.reduce_andi_all _ _ hr h0 _ e p
  obtain ⟨hge, hlt⟩ := IntOp.andi_eq_one.1 hp
  have hge' : (0#32 : BitVec 32).toInt ≤ (a2 p).toInt := IntOp.cmpi_sge.1 hge
  have hlt' : (a2 p).toInt < (1000#32 : BitVec 32).toInt := IntOp.cmpi_slt.1 hlt
  have e0 : (0#32 : BitVec 32).toInt = 0 := by decide
  have e1 : (1000#32 : BitVec 32).toInt = 1000 := by decide
  rw [e0] at hge'
  rw [e1] at hlt'
  exact ⟨hge', hlt'⟩

/-- If the printed predicate is all ones on the five inputs, then every entry of the three float inputs is a real number
    (its absolute value is below +infinity) and every target t satisfies 0 <= t < 1000 as a signed word. -/
theorem of_pre [Cert.Pre_finite_inputs.Facts] (a0 : FVec Ideal S1000x512 .f32) (a1 a3 : FVec Ideal S4096x512 .f32) (a2 a4 : IVec S4096 32)
    (h : Cert.Pre_finite_inputs.fn (F := Ideal) a0 a1 a2 a3 a4 = fun _ => 1#1) :
    (∀ q, ∃ r : ℝ, a0 q = (r : EReal)) ∧ (∀ q, ∃ r : ℝ, a1 q = (r : EReal)) ∧ (∀ q, ∃ r : ℝ, a3 q = (r : EReal))
      ∧ (∀ p, 0 ≤ (a2 p).toInt ∧ (a2 p).toInt < 1000) := by
  have h0 := congrFun h (fun d => d.elim0)
  dsimp only [Cert.Pre_finite_inputs.fn, Cert.Pre_finite_inputs.fn_part1] at h0
  obtain ⟨h013, h2⟩ := IntOp.andi_eq_one.1 h0
  obtain ⟨h01, h3⟩ := IntOp.andi_eq_one.1 h013
  obtain ⟨h0', h1⟩ := IntOp.andi_eq_one.1 h01
  exact ⟨block a0 _ _ _ _ h0', block a1 _ _ _ _ h1, block a3 _ _ _ _ h3, targets a2 _ _ _ _ h2⟩

end Cert.PreFacts

end
-- ==== Proof.lean ====
/-
  The certificate: a balanced supervised-contrastive loss over 4096 anchors against 9192 columns (the batch, 1000 class
  centres, 4096 out-of-distribution rows), computed by a Pallas kernel tiled 8 x 4 over (anchors, columns) that keeps
  three per-anchor accumulators across the four column blocks, against the plain jnp reference.

  Frames: the two kernel programs by the pipeline's launch theorem over a hand-written body obligation (three whole-body
  runs, one per case of the body's two conditionals); the reference by its generated run.
  Preserves: the one rewrite of the ideal pass, the kernel's multiplier 10.0 read as 134217728/13421773, the exact
  reciprocal of the reference's temperature word f32(0.1).
  Algebraic: under the precondition (finite features, targets in 0..999) both programs end at minus the mean of a
  per-anchor value; the reference subtracts the row maximum before the exponential and divides by the class-balanced
  weight, the kernel does neither and multiplies by a selected reciprocal weight; the shift cancels between the two
  logarithms and the selected reciprocal is the reciprocal of the reference's divisor (Proof/RowAlgebra.lean).
-/
import proofs.«429414_j30889404793117_3_alg».proof.Defs
import proofs.«429414_j30889404793117_3_alg».proof.Proof.Gen.Kernel
import proofs.«429414_j30889404793117_3_alg».proof.Proof.Gen.KernelIdeal
import proofs.«429414_j30889404793117_3_alg».proof.Proof.Gen.ReferenceIdeal
import proofs.«429414_j30889404793117_3_alg».proof.Proof.Gen.ReferenceIdeal.Run
import proofs.«429414_j30889404793117_3_alg».proof.Proof.Gen.ReferenceIdeal.Read
import proofs.«429414_j30889404793117_3_alg».proof.Proof.Gen.Pre_finite_inputs
import proofs.«429414_j30889404793117_3_alg».proof.Proof.K.Frame
import proofs.«429414_j30889404793117_3_alg».proof.Proof.KI.Value
import proofs.«429414_j30889404793117_3_alg».proof.Proof.Bridge
import proofs.«429414_j30889404793117_3_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's literal 10.0 is named the reciprocal of the reference's temperature word. -/
theorem preserves : Cert.preserves_Kernel_KernelIdeal :=
  IdealRules.named_const.statement Cert.KernelIdeal.κ "inv_temperature" .f32 0x41200000#32 ((134217728 / 13421773 : ℝ) : EReal) rfl

/-- A word whose signed value is non-negative is not the word -1. -/
theorem ne_neg_one_of_nonneg (w : BitVec 32) (h : 0 ≤ w.toInt) : w ≠ 4294967295#32 := by
  intro hw
  rw [hw] at h
  exact absurd h (by decide)

theorem algebraic : Cert.algebraic_KernelIdeal_ReferenceIdeal := by
  intro m ρ m' ρ' hpre hagree
  have hf := fun c => Cert.PreFacts.of_pre _ _ _ _ _ (hpre c)
  refine ⟨fun c => Cert.KernelIdeal.Value.result m c,
    Cert.KernelIdeal.Value.run_value m ρ (fun c i => ne_neg_one_of_nonneg _ ((hf c).2.2.2 (ix1 i)).1), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, (hagree c).1, (hagree c).2.1, (hagree c).2.2.1, (hagree c).2.2.2.1, (hagree c).2.2.2.2]
  funext i0
  rw [Cert.RefValue.ref_value]
  unfold Cert.KernelIdeal.Value.result
  exact congrArg Cert.Spec.lossOf (funext fun i =>
    Cert.Bridge.row_values_agree _ _ _ _ _ (hf c).1 (hf c).2.1 (hf c).2.2.1 (hf c).2.2.2 i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
